-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v111)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v111) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S400000x64 : Shape := ⟨2, ![400000, 64]⟩
abbrev S1000000x64 : Shape := ⟨2, ![1000000, 64]⟩
abbrev S1000000x2 : Shape := ⟨2, ![1000000, 2]⟩
abbrev S1000000 : Shape := ⟨1, ![1000000]⟩
abbrev S128x192 : Shape := ⟨2, ![128, 192]⟩
abbrev S1x64 : Shape := ⟨2, ![1, 64]⟩
abbrev S128 : Shape := ⟨1, ![128]⟩
abbrev S64 : Shape := ⟨1, ![64]⟩
abbrev S32x64 : Shape := ⟨2, ![32, 64]⟩
abbrev S32 : Shape := ⟨1, ![32]⟩
abbrev S64x32 : Shape := ⟨2, ![64, 32]⟩
abbrev S_ : Shape := ⟨0, ![]⟩

class Facts : Prop where
  bcast_S_S400000x64 : S_.BroadcastsInDim S400000x64 (![] : Fin 0 → Fin S400000x64.rank)
  reducesTo_S400000x64_S_d0_1 : S400000x64.ReducesTo [0, 1] S_
  h_S_ : 0 < S_.numel
  bcast_S_S1000000x64 : S_.BroadcastsInDim S1000000x64 (![] : Fin 0 → Fin S1000000x64.rank)
  reducesTo_S1000000x64_S_d0_1 : S1000000x64.ReducesTo [0, 1] S_
  bcast_S_S128x192 : S_.BroadcastsInDim S128x192 (![] : Fin 0 → Fin S128x192.rank)
  reducesTo_S128x192_S_d0_1 : S128x192.ReducesTo [0, 1] S_
  bcast_S_S1x64 : S_.BroadcastsInDim S1x64 (![] : Fin 0 → Fin S1x64.rank)
  reducesTo_S1x64_S_d0_1 : S1x64.ReducesTo [0, 1] S_
  bcast_S_S128 : S_.BroadcastsInDim S128 (![] : Fin 0 → Fin S128.rank)
  reducesTo_S128_S_d0 : S128.ReducesTo [0] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_
  bcast_S_S64x32 : S_.BroadcastsInDim S64x32 (![] : Fin 0 → Fin S64x32.rank)
  reducesTo_S64x32_S_d0_1 : S64x32.ReducesTo [0, 1] S_

variable [Facts]

def fn_part4 {F : FTy → Type} [FloatOps F] (main_arg16 : FVec F S64x32 .f32) (main_arg17 : FVec F S64 .f32) (main_v63 : IVec S_ 1) (main_v67 : IVec S_ 1) : IVec S_ 1 :=
  let main_v68 : IVec S_ 1 := andi main_v63 main_v67
  let main_v69 : FVec F S64x32 .f32 := Host.absf main_arg16
  let main_cst_26 : FVec F S_ .f32 := constant S_ .f32 0x7F800000#32
  let main_v70 : FVec F S64x32 .f32 := broadcastInDim S64x32 ![] bcast_S_S64x32 main_cst_26
  let main_v71 : IVec S64x32 1 := cmpf .olt main_v69 main_v70
  let main_c_27 : IVec S_ 1 := constantI S_ 1 1#1
  let main_v72 : IVec S_ 1 := (fun x v => Host.reduce IntOp.andi x v reducesTo_S64x32_S_d0_1 h_S_) main_v71 main_c_27
  let main_v73 : IVec S_ 1 := andi main_v68 main_v72
  let main_v74 : FVec F S64 .f32 := Host.absf main_arg17
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  main_v78

def fn_part3 {F : FTy → Type} [FloatOps F] (main_arg13 : FVec F S64 .f32) (main_arg14 : FVec F S32x64 .f32) (main_arg15 : FVec F S32 .f32) (main_arg16 : FVec F S64x32 .f32) (main_arg17 : FVec F S64 .f32) (main_v48 : IVec S_ 1) (main_v49 : FVec F S64x32 .f32) (main_v50 : FVec F S64x32 .f32) : IVec S_ 1 :=
  let main_v51 : IVec S64x32 1 := cmpf .olt main_v49 main_v50
  let main_c_19 : IVec S_ 1 := constantI S_ 1 1#1
  let main_v52 : IVec S_ 1 := (fun x v => Host.reduce IntOp.andi x v reducesTo_S64x32_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S32x64 .f32 := Host.absf main_arg14
  let main_cst_22 : FVec F S_ .f32 := constant S_ .f32 0x7F800000#32
  let main_v60 : FVec F S32x64 .f32 := broadcastInDim S32x64 ![] bcast_S_S32x64 main_cst_22
  let main_v61 : IVec S32x64 1 := cmpf .olt main_v59 main_v60
  let main_c_23 : IVec S_ 1 := constantI S_ 1 1#1
  let main_v62 : IVec S_ 1 := (fun x v => Host.reduce IntOp.andi x v reducesTo_S32x64_S_d0_1 h_S_) main_v61 main_c_23
  let main_v63 : IVec S_ 1 := andi main_v58 main_v62
  let main_v64 : FVec F S32 .f32 := Host.absf main_arg15
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_arg16 main_arg17 main_v63 main_v67

def fn_part2 {F : FTy → Type} [FloatOps F] (main_arg9 : FVec F S64 .f32) (main_arg10 : FVec F S32x64 .f32) (main_arg11 : FVec F S32 .f32) (main_arg12 : FVec F S64x32 .f32) (main_arg13 : FVec F S64 .f32) (main_arg14 : FVec F S32x64 .f32) (main_arg15 : FVec F S32 .f32) (main_arg16 : FVec F S64x32 .f32) (main_arg17 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S32x64 .f32 := Host.absf main_arg10
  let main_cst_14 : FVec F S_ .f32 := constant S_ .f32 0x7F800000#32
  let main_v40 : FVec F S32x64 .f32 := broadcastInDim S32x64 ![] bcast_S_S32x64 main_cst_14
  let main_v41 : IVec S32x64 1 := cmpf .olt main_v39 main_v40
  let main_c_15 : IVec S_ 1 := constantI S_ 1 1#1
  let main_v42 : IVec S_ 1 := (fun x v => Host.reduce IntOp.andi x v reducesTo_S32x64_S_d0_1 h_S_) main_v41 main_c_15
  let main_v43 : IVec S_ 1 := andi main_v38 main_v42
  let main_v44 : FVec F S32 .f32 := Host.absf main_arg11
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S64x32 .f32 := Host.absf main_arg12
  let main_cst_18 : FVec F S_ .f32 := constant S_ .f32 0x7F800000#32
  let main_v50 : FVec F S64x32 .f32 := broadcastInDim S64x32 ![] bcast_S_S64x32 main_cst_18
  fn_part3 (F := F) main_arg13 main_arg14 main_arg15 main_arg16 main_arg17 main_v48 main_v49 main_v50

def fn_part1 {F : FTy → Type} [FloatOps F] (main_arg6 : FVec F S128 .f32) (main_arg7 : FVec F S128 .f32) (main_arg8 : FVec F S64 .f32) (main_arg9 : FVec F S64 .f32) (main_arg10 : FVec F S32x64 .f32) (main_arg11 : FVec F S32 .f32) (main_arg12 : FVec F S64x32 .f32) (main_arg13 : FVec F S64 .f32) (main_arg14 : FVec F S32x64 .f32) (main_arg15 : FVec F S32 .f32) (main_arg16 : FVec F S64x32 .f32) (main_arg17 : FVec F S64 .f32) (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_arg15 main_arg16 main_arg17 main_v33

def fn {F : FTy → Type} [FloatOps F] (main_arg0 : FVec F S400000x64 .f32) (main_arg1 : FVec F S1000000x64 .f32) (main_arg2 : IVec S1000000x2 32) (main_arg3 : IVec S1000000 32) (main_arg4 : FVec F S128x192 .f32) (main_arg5 : FVec F S1x64 .f32) (main_arg6 : FVec F S128 .f32) (main_arg7 : FVec F S128 .f32) (main_arg8 : FVec F S64 .f32) (main_arg9 : FVec F S64 .f32) (main_arg10 : FVec F S32x64 .f32) (main_arg11 : FVec F S32 .f32) (main_arg12 : FVec F S64x32 .f32) (main_arg13 : FVec F S64 .f32) (main_arg14 : FVec F S32x64 .f32) (main_arg15 : FVec F S32 .f32) (main_arg16 : FVec F S64x32 .f32) (main_arg17 : FVec F S64 .f32) : IVec S_ 1 :=
  let main_v0 : FVec F S400000x64 .f32 := Host.absf main_arg0
  let main_cst : FVec F S_ .f32 := constant S_ .f32 0x7F800000#32
  let main_v1 : FVec F S400000x64 .f32 := broadcastInDim S400000x64 ![] bcast_S_S400000x64 main_cst
  let main_v2 : IVec S400000x64 1 := cmpf .olt main_v0 main_v1
  let main_c : IVec S_ 1 := constantI S_ 1 1#1
  let main_v3 : IVec S_ 1 := (fun x v => Host.reduce IntOp.andi x v reducesTo_S400000x64_S_d0_1 h_S_) main_v2 main_c
  let main_v4 : FVec F S1000000x64 .f32 := Host.absf main_arg1
  let main_cst_0 : FVec F S_ .f32 := constant S_ .f32 0x7F800000#32
  let main_v5 : FVec F S1000000x64 .f32 := broadcastInDim S1000000x64 ![] bcast_S_S1000000x64 main_cst_0
  let main_v6 : IVec S1000000x64 1 := cmpf .olt main_v4 main_v5
  let main_c_1 : IVec S_ 1 := constantI S_ 1 1#1
  let main_v7 : IVec S_ 1 := (fun x v => Host.reduce IntOp.andi x v reducesTo_S1000000x64_S_d0_1 h_S_) main_v6 main_c_1
  let main_v8 : IVec S_ 1 := andi main_v3 main_v7
  let main_v9 : FVec F S128x192 .f32 := Host.absf main_arg4
  let main_cst_2 : FVec F S_ .f32 := constant S_ .f32 0x7F800000#32
  let main_v10 : FVec F S128x192 .f32 := broadcastInDim S128x192 ![] bcast_S_S128x192 main_cst_2
  let main_v11 : IVec S128x192 1 := cmpf .olt main_v9 main_v10
  let main_c_3 : IVec S_ 1 := constantI S_ 1 1#1
  let main_v12 : IVec S_ 1 := (fun x v => Host.reduce IntOp.andi x v reducesTo_S128x192_S_d0_1 h_S_) main_v11 main_c_3
  let main_v13 : IVec S_ 1 := andi main_v8 main_v12
  let main_v14 : FVec F S1x64 .f32 := Host.absf main_arg5
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_arg6 main_arg7 main_arg8 main_arg9 main_arg10 main_arg11 main_arg12 main_arg13 main_arg14 main_arg15 main_arg16 main_arg17 main_v13 main_v16
-- ==== Kernel.lean ====
abbrev S400000x64 : Shape := ⟨2, ![400000, 64]⟩
abbrev S1000000x64 : Shape := ⟨2, ![1000000, 64]⟩
abbrev S1000000x2 : Shape := ⟨2, ![1000000, 2]⟩
abbrev S1000000 : Shape := ⟨1, ![1000000]⟩
abbrev S128x192 : Shape := ⟨2, ![128, 192]⟩
abbrev S1x64 : Shape := ⟨2, ![1, 64]⟩
abbrev S128 : Shape := ⟨1, ![128]⟩
abbrev S64 : Shape := ⟨1, ![64]⟩
abbrev S32x64 : Shape := ⟨2, ![32, 64]⟩
abbrev S32 : Shape := ⟨1, ![32]⟩
abbrev S64x32 : Shape := ⟨2, ![64, 32]⟩
abbrev S_ : Shape := ⟨0, ![]⟩
abbrev S1000000x2x1 : Shape := ⟨3, ![1000000, 2, 1]⟩
abbrev S1000000x2x64 : Shape := ⟨3, ![1000000, 2, 64]⟩
abbrev S1000000x128 : Shape := ⟨2, ![1000000, 128]⟩
abbrev S192x128 : Shape := ⟨2, ![192, 128]⟩
abbrev S64x128 : Shape := ⟨2, ![64, 128]⟩
abbrev S128x128 : Shape := ⟨2, ![128, 128]⟩
abbrev S4000x64 : Shape := ⟨2, ![4000, 64]⟩
abbrev S4000x128 : Shape := ⟨2, ![4000, 128]⟩
abbrev S1000000x1 : Shape := ⟨2, ![1000000, 1]⟩
abbrev S2048x1 : Shape := ⟨2, ![2048, 1]⟩
abbrev S2048x128 : Shape := ⟨2, ![2048, 128]⟩
abbrev S1x128 : Shape := ⟨2, ![1, 128]⟩
abbrev S4000 : Shape := ⟨1, ![4000]⟩
abbrev S4000x1 : Shape := ⟨2, ![4000, 1]⟩
abbrev S2048x64 : Shape := ⟨2, ![2048, 64]⟩
abbrev S1x32 : Shape := ⟨2, ![1, 32]⟩
abbrev S4000x32 : Shape := ⟨2, ![4000, 32]⟩

abbrev nBuf : Space → Nat
  | .hbm => 154
  | .vmem => 35
  | .smem => 0
  | _ => 0

abbrev hbmTy0_0 (i : Nat) : BufTy := match i % 128 with
  | 0 => ⟨S400000x64, .f32⟩
  | 1 => ⟨S1000000x64, .f32⟩
  | 2 => ⟨S1000000x2, .i32⟩
  | 3 => ⟨S1000000, .i32⟩
  | 4 => ⟨S128x192, .f32⟩
  | 5 => ⟨S1x64, .f32⟩
  | 6 => ⟨S128, .f32⟩
  | 7 => ⟨S128, .f32⟩
  | 8 => ⟨S64, .f32⟩
  | 9 => ⟨S64, .f32⟩
  | 10 => ⟨S32x64, .f32⟩
  | 11 => ⟨S32, .f32⟩
  | 12 => ⟨S64x32, .f32⟩
  | 13 => ⟨S64, .f32⟩
  | 14 => ⟨S32x64, .f32⟩
  | 15 => ⟨S32, .f32⟩
  | 16 => ⟨S64x32, .f32⟩
  | 17 => ⟨S64, .f32⟩
  | 18 => ⟨S_, .i32⟩
  | 19 => ⟨S1000000x2, .i32⟩
  | 20 => ⟨S1000000x2, .i1⟩
  | 21 => ⟨S_, .i32⟩
  | 22 => ⟨S1000000x2, .i32⟩
  | 23 => ⟨S1000000x2, .i32⟩
  | 24 => ⟨S1000000x2, .i32⟩
  | 25 => ⟨S1000000x2x1, .i32⟩
  | 26 => ⟨S1000000x2x64, .f32⟩
  | 27 => ⟨S1000000x128, .f32⟩
  | 28 => ⟨S192x128, .f32⟩
  | 29 => ⟨S64x128, .f32⟩
  | 30 => ⟨S128x128, .f32⟩
  | 31 => ⟨S1000000x128, .f32⟩
  | 32 => ⟨S_, .f32⟩
  | 33 => ⟨S1000000x1, .f32⟩
  | 34 => ⟨S_, .f32⟩
  | 35 => ⟨S2048x1, .f32⟩
  | 36 => ⟨S1000000x1, .i32⟩
  | 37 => ⟨S2048x1, .f32⟩
  | 38 => ⟨S_, .f32⟩
  | 39 => ⟨S2048x1, .f32⟩
  | 40 => ⟨S2048x1, .f32⟩
  | 41 => ⟨S_, .f32⟩
  | 42 => ⟨S2048x128, .f32⟩
  | 43 => ⟨S1000000x1, .i32⟩
  | 44 => ⟨S2048x128, .f32⟩
  | 45 => ⟨S2048x128, .f32⟩
  | 46 => ⟨S2048x128, .f32⟩
  | 47 => ⟨S1000000x128, .f32⟩
  | 48 => ⟨S_, .f32⟩
  | 49 => ⟨S2048x128, .f32⟩
  | 50 => ⟨S1000000x1, .i32⟩
  | 51 => ⟨S2048x128, .f32⟩
  | 52 => ⟨S2048x128, .f32⟩
  | 53 => ⟨S2048x128, .f32⟩
  | 54 => ⟨S2048x128, .f32⟩
  | 55 => ⟨S2048x128, .f32⟩
  | 56 => ⟨S_, .f32⟩
  | 57 => ⟨S2048x128, .f32⟩
  | 58 => ⟨S2048x128, .f32⟩
  | 59 => ⟨S_, .f32⟩
  | 60 => ⟨S2048x128, .f32⟩
  | 61 => ⟨S2048x128, .f32⟩
  | 62 => ⟨S2048x128, .f32⟩
  | 63 => ⟨S1x128, .f32⟩
  | 64 => ⟨S2048x128, .f32⟩
  | 65 => ⟨S2048x128, .f32⟩
  | 66 => ⟨S2048x128, .f32⟩
  | 67 => ⟨S1x128, .f32⟩
  | 68 => ⟨S2048x128, .f32⟩
  | 69 => ⟨S2048x128, .f32⟩
  | 70 => ⟨S_, .i32⟩
  | 71 => ⟨S1000000, .i32⟩
  | 72 => ⟨S1000000, .i1⟩
  | 73 => ⟨S_, .i32⟩
  | 74 => ⟨S1000000, .i32⟩
  | 75 => ⟨S1000000, .i32⟩
  | 76 => ⟨S1000000, .i32⟩
  | 77 => ⟨S1000000x1, .i32⟩
  | 78 => ⟨S1000000x128, .f32⟩
  | 79 => ⟨S_, .i32⟩
  | 80 => ⟨S1000000, .i32⟩
  | 81 => ⟨S1000000, .i1⟩
  | 82 => ⟨S_, .i32⟩
  | 83 => ⟨S1000000, .i32⟩
  | 84 => ⟨S1000000, .i32⟩
  | 85 => ⟨S1000000, .i32⟩
  | 86 => ⟨S1000000x1, .i32⟩
  | 87 => ⟨S1000000x128, .f32⟩
  | 88 => ⟨S1000000x64, .f32⟩
  | 89 => ⟨S_, .f32⟩
  | 90 => ⟨S1000000x1, .f32⟩
  | 91 => ⟨S_, .f32⟩
  | 92 => ⟨S2048x1, .f32⟩
  | 93 => ⟨S1000000x1, .i32⟩
  | 94 => ⟨S2048x1, .f32⟩
  | 95 => ⟨S_, .f32⟩
  | 96 => ⟨S2048x1, .f32⟩
  | 97 => ⟨S2048x1, .f32⟩
  | 98 => ⟨S_, .f32⟩
  | 99 => ⟨S2048x64, .f32⟩
  | 100 => ⟨S1000000x1, .i32⟩
  | 101 => ⟨S2048x64, .f32⟩
  | 102 => ⟨S2048x64, .f32⟩
  | 103 => ⟨S2048x64, .f32⟩
  | 104 => ⟨S1000000x64, .f32⟩
  | 105 => ⟨S_, .f32⟩
  | 106 => ⟨S2048x64, .f32⟩
  | 107 => ⟨S1000000x1, .i32⟩
  | 108 => ⟨S2048x64, .f32⟩
  | 109 => ⟨S2048x64, .f32⟩
  | 110 => ⟨S2048x64, .f32⟩
  | 111 => ⟨S2048x64, .f32⟩
  | 112 => ⟨S2048x64, .f32⟩
  | 113 => ⟨S_, .f32⟩
  | 114 => ⟨S2048x64, .f32⟩
  | 115 => ⟨S2048x64, .f32⟩
  | 116 => ⟨S_, .f32⟩
  | 117 => ⟨S2048x64, .f32⟩
  | 118 => ⟨S2048x64, .f32⟩
  | 119 => ⟨S2048x64, .f32⟩
  | 120 => ⟨S1x64, .f32⟩
  | 121 => ⟨S2048x64, .f32⟩
  | 122 => ⟨S2048x64, .f32⟩
  | 123 => ⟨S2048x64, .f32⟩
  | 124 => ⟨S1x64, .f32⟩
  | 125 => ⟨S2048x64, .f32⟩
  | 126 => ⟨S2048x64, .f32⟩
  | 127 => ⟨S_, .i32⟩
  | _ => ⟨S400000x64, .f32⟩

abbrev hbmTy0_1 (i : Nat) : BufTy := match i % 128 with
  | 0 => ⟨S1000000, .i32⟩
  | 1 => ⟨S1000000, .i1⟩
  | 2 => ⟨S_, .i32⟩
  | 3 => ⟨S1000000, .i32⟩
  | 4 => ⟨S1000000, .i32⟩
  | 5 => ⟨S1000000, .i32⟩
  | 6 => ⟨S1000000x1, .i32⟩
  | 7 => ⟨S1000000x64, .f32⟩
  | 8 => ⟨S_, .i32⟩
  | 9 => ⟨S1000000, .i32⟩
  | 10 => ⟨S1000000, .i1⟩
  | 11 => ⟨S_, .i32⟩
  | 12 => ⟨S1000000, .i32⟩
  | 13 => ⟨S1000000, .i32⟩
  | 14 => ⟨S1000000, .i32⟩
  | 15 => ⟨S1000000x1, .i32⟩
  | 16 => ⟨S1000000x64, .f32⟩
  | 17 => ⟨S64x32, .f32⟩
  | 18 => ⟨S32x64, .f32⟩
  | 19 => ⟨S64x32, .f32⟩
  | 20 => ⟨S32x64, .f32⟩
  | 21 => ⟨S1x32, .f32⟩
  | 22 => ⟨S1x64, .f32⟩
  | 23 => ⟨S1x32, .f32⟩
  | 24 => ⟨S1x64, .f32⟩
  | 25 => ⟨S1000000x64, .f32⟩
  | _ => ⟨S400000x64, .f32⟩

abbrev hbmTy (i : Nat) : BufTy := match i / 128 with
  | 0 => hbmTy0_0 i
  | 1 => hbmTy0_1 i
  | _ => ⟨S400000x64, .f32⟩

abbrev bufTy : (tb : Table) → Fin (tcTables nBuf tb) → BufTy
  | .hbm, ⟨i, _⟩ => hbmTy i
  | .local _ .vmem, ⟨0, _⟩ => ⟨S4000x64, .f32⟩
  | .local _ .vmem, ⟨1, _⟩ => ⟨S4000x64, .f32⟩
  | .local _ .vmem, ⟨2, _⟩ => ⟨S4000x128, .f32⟩
  | .local _ .vmem, ⟨3, _⟩ => ⟨S4000x128, .f32⟩
  | .local _ .vmem, ⟨4, _⟩ => ⟨S64x128, .f32⟩
  | .local _ .vmem, ⟨5, _⟩ => ⟨S128x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S1x64, .f32⟩
  | .local _ .vmem, ⟨15, _⟩ => ⟨S4000x64, .f32⟩
  | .local _ .vmem, ⟨16, _⟩ => ⟨S4000x64, .f32⟩
  | .local _ .vmem, ⟨17, _⟩ => ⟨S4000x64, .f32⟩
  | .local _ .vmem, ⟨18, _⟩ => ⟨S4000x64, .f32⟩
  | .local _ .vmem, ⟨19, _⟩ => ⟨S4000x64, .f32⟩
  | .local _ .vmem, ⟨20, _⟩ => ⟨S4000x64, .f32⟩
  | .local _ .vmem, ⟨21, _⟩ => ⟨S4000x64, .f32⟩
  | .local _ .vmem, ⟨22, _⟩ => ⟨S4000x64, .f32⟩
  | .local _ .vmem, ⟨23, _⟩ => ⟨S4000x64, .f32⟩
  | .local _ .vmem, ⟨24, _⟩ => ⟨S4000x64, .f32⟩
  | .local _ .vmem, ⟨25, _⟩ => ⟨S64x32, .f32⟩
  | .local _ .vmem, ⟨26, _⟩ => ⟨S1x32, .f32⟩
  | .local _ .vmem, ⟨27, _⟩ => ⟨S32x64, .f32⟩
  | .local _ .vmem, ⟨28, _⟩ => ⟨S1x64, .f32⟩
  | .local _ .vmem, ⟨29, _⟩ => ⟨S64x32, .f32⟩
  | .local _ .vmem, ⟨30, _⟩ => ⟨S1x32, .f32⟩
  | .local _ .vmem, ⟨31, _⟩ => ⟨S32x64, .f32⟩
  | .local _ .vmem, ⟨32, _⟩ => ⟨S1x64, .f32⟩
  | .local _ .vmem, ⟨33, _⟩ => ⟨S4000x64, .f32⟩
  | .local _ .vmem, ⟨34, _⟩ => ⟨S4000x64, .f32⟩
  | _, _ => ⟨S400000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst : Ref sig .tc := ⟨.hbm, 32, rfl⟩
abbrev main_v12 : Ref sig .tc := ⟨.hbm, 33, rfl⟩
abbrev main_cst_1 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_2 : Ref sig .tc := ⟨.hbm, 38, rfl⟩
abbrev main_v16 : Ref sig .tc := ⟨.hbm, 39, rfl⟩
abbrev main_v17 : Ref sig .tc := ⟨.hbm, 40, rfl⟩
abbrev main_cst_3 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_cst_4 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_5 : Ref sig .tc := ⟨.hbm, 56, rfl⟩
abbrev main_v31 : Ref sig .tc := ⟨.hbm, 57, rfl⟩
abbrev main_v32 : Ref sig .tc := ⟨.hbm, 58, rfl⟩
abbrev main_cst_6 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_c_7 : Ref sig .tc := ⟨.hbm, 70, rfl⟩
abbrev main_v43 : Ref sig .tc := ⟨.hbm, 71, rfl⟩
abbrev main_v44 : Ref sig .tc := ⟨.hbm, 72, rfl⟩
abbrev main_c_8 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_c_9 : Ref sig .tc := ⟨.hbm, 79, rfl⟩
abbrev main_v50 : Ref sig .tc := ⟨.hbm, 80, rfl⟩
abbrev main_v51 : Ref sig .tc := ⟨.hbm, 81, rfl⟩
abbrev main_c_10 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_11 : Ref sig .tc := ⟨.hbm, 89, rfl⟩
abbrev main_v58 : Ref sig .tc := ⟨.hbm, 90, rfl⟩
abbrev main_cst_12 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_13 : Ref sig .tc := ⟨.hbm, 95, rfl⟩
abbrev main_v62 : Ref sig .tc := ⟨.hbm, 96, rfl⟩
abbrev main_v63 : Ref sig .tc := ⟨.hbm, 97, rfl⟩
abbrev main_cst_14 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_cst_15 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_cst_16 : Ref sig .tc := ⟨.hbm, 113, rfl⟩
abbrev main_v77 : Ref sig .tc := ⟨.hbm, 114, rfl⟩
abbrev main_v78 : Ref sig .tc := ⟨.hbm, 115, rfl⟩
abbrev main_cst_17 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_c_18 : Ref sig .tc := ⟨.hbm, 127, rfl⟩
abbrev main_v89 : Ref sig .tc := ⟨.hbm, 128, rfl⟩
abbrev main_v90 : Ref sig .tc := ⟨.hbm, 129, rfl⟩
abbrev main_c_19 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_c_20 : Ref sig .tc := ⟨.hbm, 136, rfl⟩
abbrev main_v96 : Ref sig .tc := ⟨.hbm, 137, rfl⟩
abbrev main_v97 : Ref sig .tc := ⟨.hbm, 138, rfl⟩
abbrev main_c_21 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg3_1 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg8_0 : Ref sig .tc := ⟨.vmem, 29, rfl⟩
abbrev cc2_stg9_0 : Ref sig .tc := ⟨.vmem, 30, rfl⟩
abbrev cc2_stg10_0 : Ref sig .tc := ⟨.vmem, 31, rfl⟩
abbrev cc2_stg11_0 : Ref sig .tc := ⟨.vmem, 32, rfl⟩
abbrev cc2_stg12_0 : Ref sig .tc := ⟨.vmem, 33, rfl⟩
abbrev cc2_stg12_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem4_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem3_1 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem8_0 : DmaSem sig := 29
abbrev cc2_sem9_0 : DmaSem sig := 30
abbrev cc2_sem10_0 : DmaSem sig := 31
abbrev cc2_sem11_0 : DmaSem sig := 32
abbrev cc2_sem12_0 : DmaSem sig := 33
abbrev cc2_sem12_1 : DmaSem sig := 34

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![250], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S4000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S64x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S32x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S64x32 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x32 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S32x64 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x64 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 2 → Memref sig .tc .vmem S4000x64 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true]

class Facts₀ : Prop where
  bcast_S_S1000000x2 : S_.BroadcastsInDim S1000000x2 (![] : Fin 0 → Fin S1000000x2.rank)
  bcast_S1000000x2_S1000000x2x1_0_1 : S1000000x2.BroadcastsInDim S1000000x2x1 (![0, 1] : Fin 2 → Fin S1000000x2x1.rank)
  shapeCasts_S1000000x2x64_S1000000x128 : S1000000x2x64.ShapeCasts S1000000x128
  transposes_S128x192_S192x128_1_0 : S128x192.Transposes [1, 0] S192x128
  slices_S192x128_S64x128_0_0 : S192x128.Slices ![0, 0] S64x128
  slices_S192x128_S128x128_64_0 : S192x128.Slices ![64, 0] S128x128
  inb_S4000x64_S4000x64_0_0 : ∀ a, (![0, 0] : Fin 2 → Nat) a + S4000x64.size a ≤ S4000x64.size a
  h_S4000x64 : 0 < S4000x64.numel
  bitsLt_bf16_f32 : FTy.bits .bf16 < FTy.bits .f32
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S1000000x1 : S_.BroadcastsInDim S1000000x1 (![] : Fin 0 → Fin S1000000x1.rank)
  bcast_S_S2048x1 : S_.BroadcastsInDim S2048x1 (![] : Fin 0 → Fin S2048x1.rank)
  bcast_S1000000_S1000000x1_0 : S1000000.BroadcastsInDim S1000000x1 (![0] : Fin 1 → Fin S1000000x1.rank)
  bcast_S_S2048x128 : S_.BroadcastsInDim S2048x128 (![] : Fin 0 → Fin S2048x128.rank)
  bcast_S2048x1_S2048x128_0_1 : S2048x1.BroadcastsInDim S2048x128 (![0, 1] : Fin 2 → Fin S2048x128.rank)
  bcast_S128_S1x128_1 : S128.BroadcastsInDim S1x128 (![1] : Fin 1 → Fin S1x128.rank)
  bcast_S1x128_S2048x128_0_1 : S1x128.BroadcastsInDim S2048x128 (![0, 1] : Fin 2 → Fin S2048x128.rank)
  bcast_S_S1000000 : S_.BroadcastsInDim S1000000 (![] : Fin 0 → Fin S1000000.rank)
  slices_S4000x128_o0_0_S4000x64 : S4000x128.Slices ![0, 0] S4000x64
  slices_S4000x128_o0_64_S4000x64 : S4000x128.Slices ![0, 64] S4000x64
  inb_S1x64_S1x64_0_0 : ∀ a, (![0, 0] : Fin 2 → Nat) a + S1x64.size a ≤ S1x64.size a
  h_S1x64 : 0 < S1x64.numel
  broadcasts_S1x64_S4000x64 : S1x64.Broadcasts S4000x64
  reduces_S4000x64_S4000 : S4000x64.Reduces [1] S4000
  shapeCasts_S4000_S4000x1 : S4000.ShapeCasts S4000x1
  broadcasts_S4000x1_S4000x64 : S4000x1.Broadcasts S4000x64
  bcast_S_S2048x64 : S_.BroadcastsInDim S2048x64 (![] : Fin 0 → Fin S2048x64.rank)
  bcast_S2048x1_S2048x64_0_1 : S2048x1.BroadcastsInDim S2048x64 (![0, 1] : Fin 2 → Fin S2048x64.rank)
  bcast_S64_S1x64_1 : S64.BroadcastsInDim S1x64 (![1] : Fin 1 → Fin S1x64.rank)
  bcast_S1x64_S2048x64_0_1 : S1x64.BroadcastsInDim S2048x64 (![0, 1] : Fin 2 → Fin S2048x64.rank)
  transposes_S32x64_S64x32_1_0 : S32x64.Transposes [1, 0] S64x32
  transposes_S64x32_S32x64_1_0 : S64x32.Transposes [1, 0] S32x64
  shapeCasts_S32_S1x32 : S32.ShapeCasts S1x32
  shapeCasts_S64_S1x64 : S64.ShapeCasts S1x64
  shapeCasts_S4000x64_S4000x64 : S4000x64.ShapeCasts S4000x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4000x32 : S1x32.Broadcasts S4000x32
  inb_S32x64_S32x64_0_0 : ∀ a, (![0, 0] : Fin 2 → Nat) a + S32x64.size a ≤ S32x64.size a
  h_S32x64 : 0 < S32x64.numel
  shapeCasts_S32x64_S32x64 : S32x64.ShapeCasts S32x64
  shapeCasts_S1x64_S1x64 : S1x64.ShapeCasts S1x64
  gather_S400000x64_S1000000x2x1_S1000000x2x64_2_0_n_n_0_2_164_wf : GatherDims.WF S400000x64 S1000000x2x1 S1000000x2x64 [2] [0] [] [0] [] 2 ![1, 64]
  dot_S4000x64_S64x128_S4000x128_1_0_0_1_n_n_wf : DotDims.WF S4000x64 S64x128 S4000x128 [1] [0] [0] [1] [] []
  dot_S4000x128_S128x128_S4000x128_1_0_0_1_n_n_wf : DotDims.WF S4000x128 S128x128 S4000x128 [1] [0] [0] [1] [] []
  scatter_S2048x1_S1000000x1_S1000000x1_1_0_0_1_wf : ScatterDims.WF S2048x1 S1000000x1 S1000000x1 [1] [0] [0] 1
  scatter_S2048x128_S1000000x1_S1000000x128_1_0_0_1_wf : ScatterDims.WF S2048x128 S1000000x1 S1000000x128 [1] [0] [0] 1
  gather_S2048x128_S1000000x1_S1000000x128_1_0_n_n_0_1_1128_wf : GatherDims.WF S2048x128 S1000000x1 S1000000x128 [1] [0] [] [0] [] 1 ![1, 128]
  scatter_S2048x64_S1000000x1_S1000000x64_1_0_0_1_wf : ScatterDims.WF S2048x64 S1000000x1 S1000000x64 [1] [0] [0] 1
  gather_S2048x64_S1000000x1_S1000000x64_1_0_n_n_0_1_164_wf : GatherDims.WF S2048x64 S1000000x1 S1000000x64 [1] [0] [] [0] [] 1 ![1, 64]
  dot_S4000x64_S64x32_S4000x32_1_0_0_1_n_n_wf : DotDims.WF S4000x64 S64x32 S4000x32 [1] [0] [0] [1] [] []
  dot_S4000x32_S32x64_S4000x64_1_0_0_1_n_n_wf : DotDims.WF S4000x32 S32x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S1000000x64.size a
  hwx0_0 : ∀ i : grid0.Coords, EltTy.bits .f32 = 32 ∨ (Rect.block (s := S1000000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S1000000x128.size a
  hwx0_1 : ∀ i : grid0.Coords, EltTy.bits .f32 = 32 ∨ (Rect.block (s := S1000000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x128.size a ≤ S1000000x128.size a
  hwx0_4 : ∀ i : grid0.Coords, EltTy.bits .f32 = 32 ∨ (Rect.block (s := S1000000x128) S4000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S1000000x128.size a
  hwx1_0 : ∀ i : grid1.Coords, EltTy.bits .f32 = 32 ∨ (Rect.block (s := S1000000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S1000000x128.size a
  hwx1_1 : ∀ i : grid1.Coords, EltTy.bits .f32 = 32 ∨ (Rect.block (s := S1000000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S1000000x128.size a
  hwx1_2 : ∀ i : grid1.Coords, EltTy.bits .f32 = 32 ∨ (Rect.block (s := S1000000x128) S4000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x64.size a ≤ S1000000x64.size a
  hwx1_4 : ∀ i : grid1.Coords, EltTy.bits .f32 = 32 ∨ (Rect.block (s := S1000000x64) S4000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S1000000x64.size a
  hwx2_0 : ∀ i : grid2.Coords, EltTy.bits .f32 = 32 ∨ (Rect.block (s := S1000000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x64.size a ≤ S1000000x64.size a
  hwx2_1 : ∀ i : grid2.Coords, EltTy.bits .f32 = 32 ∨ (Rect.block (s := S1000000x64) S4000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x64.size a ≤ S1000000x64.size a
  hwx2_2 : ∀ i : grid2.Coords, EltTy.bits .f32 = 32 ∨ (Rect.block (s := S1000000x64) S4000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x64.size a ≤ S1000000x64.size a
  hwx2_3 : ∀ i : grid2.Coords, EltTy.bits .f32 = 32 ∨ (Rect.block (s := S1000000x64) S4000x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x32.size a ≤ S64x32.size a
  hwx2_4 : ∀ i : grid2.Coords, EltTy.bits .f32 = 32 ∨ (Rect.block (s := S64x32) S64x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x32.size a ≤ S1x32.size a
  hwx2_5 : ∀ i : grid2.Coords, EltTy.bits .f32 = 32 ∨ (Rect.block (s := S1x32) S1x32.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S32x64.size a ≤ S32x64.size a
  hwx2_6 : ∀ i : grid2.Coords, EltTy.bits .f32 = 32 ∨ (Rect.block (s := S32x64) S32x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S64x32.size a ≤ S64x32.size a
  hwx2_8 : ∀ i : grid2.Coords, EltTy.bits .f32 = 32 ∨ (Rect.block (s := S64x32) S64x32.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x32.size a ≤ S1x32.size a
  hwx2_9 : ∀ i : grid2.Coords, EltTy.bits .f32 = 32 ∨ (Rect.block (s := S1x32) S1x32.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S32x64.size a ≤ S32x64.size a
  hwx2_10 : ∀ i : grid2.Coords, EltTy.bits .f32 = 32 ∨ (Rect.block (s := S32x64) S32x64.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S1x64.size a ≤ S1x64.size a
  hwx2_11 : ∀ i : grid2.Coords, EltTy.bits .f32 = 32 ∨ (Rect.block (s := S1x64) S1x64.size (cc2_transform_11 i) (hinb2_11 i)).WholeWords (EltTy.packing .f32)
  hstage2_12 : ∀ j, (stage2_12 j).IsWhole
  nbuf2_12 : grid2.bufCount reads2_12 false = 2
  hreads2_12 : ∀ i i' : grid2.Coords, (∀ a, reads2_12 a = true → i a = i' a) → cc2_transform_12 i = cc2_transform_12 i'
  hinb2_12 : ∀ (i : grid2.Coords) a, (cc2_transform_12 i a + 1) * S4000x64.size a ≤ S1000000x64.size a
  hwx2_12 : ∀ i : grid2.Coords, EltTy.bits .f32 = 32 ∨ (Rect.block (s := S1000000x64) S4000x64.size (cc2_transform_12 i) (hinb2_12 i)).WholeWords (EltTy.packing .f32)

variable [Facts₀]

def gather_S400000x64_S1000000x2x1_S1000000x2x64_2_0_n_n_0_2_164 : GatherDims S400000x64 S1000000x2x1 S1000000x2x64 where
  offsetDims := [2]
  collapsedSliceDims := [0]
  operandBatchingDims := []
  startIndicesBatchingDims := []
  startIndexMap := [0]
  indexVectorDim := 2
  sliceSizes := ![1, 64]
  wf := gather_S400000x64_S1000000x2x1_S1000000x2x64_2_0_n_n_0_2_164_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S2048x1_S1000000x1_S1000000x1_1_0_0_1 : ScatterDims S2048x1 S1000000x1 S1000000x1 where
  updateWindowDims := [1]
  insertedWindowDims := [0]
  scatterDimsToOperandDims := [0]
  indexVectorDim := 1
  wf := scatter_S2048x1_S1000000x1_S1000000x1_1_0_0_1_wf
def scatter_S2048x128_S1000000x1_S1000000x128_1_0_0_1 : ScatterDims S2048x128 S1000000x1 S1000000x128 where
  updateWindowDims := [1]
  insertedWindowDims := [0]
  scatterDimsToOperandDims := [0]
  indexVectorDim := 1
  wf := scatter_S2048x128_S1000000x1_S1000000x128_1_0_0_1_wf
def gather_S2048x128_S1000000x1_S1000000x128_1_0_n_n_0_1_1128 : GatherDims S2048x128 S1000000x1 S1000000x128 where
  offsetDims := [1]
  collapsedSliceDims := [0]
  operandBatchingDims := []
  startIndicesBatchingDims := []
  startIndexMap := [0]
  indexVectorDim := 1
  sliceSizes := ![1, 128]
  wf := gather_S2048x128_S1000000x1_S1000000x128_1_0_n_n_0_1_1128_wf
def scatter_S2048x64_S1000000x1_S1000000x64_1_0_0_1 : ScatterDims S2048x64 S1000000x1 S1000000x64 where
  updateWindowDims := [1]
  insertedWindowDims := [0]
  scatterDimsToOperandDims := [0]
  indexVectorDim := 1
  wf := scatter_S2048x64_S1000000x1_S1000000x64_1_0_0_1_wf
def gather_S2048x64_S1000000x1_S1000000x64_1_0_n_n_0_1_164 : GatherDims S2048x64 S1000000x1 S1000000x64 where
  offsetDims := [1]
  collapsedSliceDims := [0]
  operandBatchingDims := []
  startIndicesBatchingDims := []
  startIndexMap := [0]
  indexVectorDim := 1
  sliceSizes := ![1, 64]
  wf := gather_S2048x64_S1000000x1_S1000000x64_1_0_n_n_0_1_164_wf
def dot_S4000x64_S64x32_S4000x32_1_0_0_1_n_n : DotDims S4000x64 S64x32 S4000x32 where
  lhsContracting := [1]
  rhsContracting := [0]
  lhsNonContracting := [0]
  rhsNonContracting := [1]
  lhsBatch := []
  rhsBatch := []
  wf := dot_S4000x64_S64x32_S4000x32_1_0_0_1_n_n_wf
def dot_S4000x32_S32x64_S4000x64_1_0_0_1_n_n : DotDims S4000x32 S32x64 S4000x64 where
  lhsContracting := [1]
  rhsContracting := [0]
  lhsNonContracting := [0]
  rhsNonContracting := [1]
  lhsBatch := []
  rhsBatch := []
  wf := dot_S4000x32_S32x64_S4000x64_1_0_0_1_n_n_wf

abbrev win0_0 : Pipeline.Window sig grid0 :=
  Pipeline.Window.ofSpec (Memref.whole main_arg1) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S4000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v11) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v56) S4000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v57) S4000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v57) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v95) S4000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v102) S4000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg1) S4000x64.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v103) S64x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v107) S1x32.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v104) S32x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v108) S1x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v105) S64x32.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v109) S1x32.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v106) S32x64.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v110) S1x64.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v111) S4000x64.size cc2_transform_12 reads2_12 true false 2 stage2_12 sem2_12
    hrank2 hreads2_12 hinb2_12 nbuf2_12 (Memref.isWhole_whole _) hwx2_12 hstage2_12

abbrev win2 : Fin 13 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | ⟨_ + 13, h⟩ => absurd h (Nat.not_lt.2 (Nat.le_add_left _ _))
abbrev spec2 : Fin 13 → Pipeline.WinSpec sig grid2.rank := fun w => (win2 w).toWinSpec

class Facts : Prop extends Facts₀ where

variable [Facts]
-- ==== ReferenceIdeal.lean ====
abbrev S400000x64 : Shape := ⟨2, ![400000, 64]⟩
abbrev S1000000x64 : Shape := ⟨2, ![1000000, 64]⟩
abbrev S1000000x2 : Shape := ⟨2, ![1000000, 2]⟩
abbrev S1000000 : Shape := ⟨1, ![1000000]⟩
abbrev S128x192 : Shape := ⟨2, ![128, 192]⟩
abbrev S1x64 : Shape := ⟨2, ![1, 64]⟩
abbrev S128 : Shape := ⟨1, ![128]⟩
abbrev S64 : Shape := ⟨1, ![64]⟩
abbrev S32x64 : Shape := ⟨2, ![32, 64]⟩
abbrev S32 : Shape := ⟨1, ![32]⟩
abbrev S64x32 : Shape := ⟨2, ![64, 32]⟩
abbrev S_ : Shape := ⟨0, ![]⟩
abbrev S1000000x2x1 : Shape := ⟨3, ![1000000, 2, 1]⟩
abbrev S1000000x2x64 : Shape := ⟨3, ![1000000, 2, 64]⟩
abbrev S1000000x128 : Shape := ⟨2, ![1000000, 128]⟩
abbrev S1000000x192 : Shape := ⟨2, ![1000000, 192]⟩
abbrev S192x128 : Shape := ⟨2, ![192, 128]⟩
abbrev S1000000x1 : Shape := ⟨2, ![1000000, 1]⟩
abbrev S2048x1 : Shape := ⟨2, ![2048, 1]⟩
abbrev S2048x128 : Shape := ⟨2, ![2048, 128]⟩
abbrev S1x128 : Shape := ⟨2, ![1, 128]⟩
abbrev S64x1 : Shape := ⟨2, ![64, 1]⟩
abbrev S2048x64 : Shape := ⟨2, ![2048, 64]⟩
abbrev S1000000x32 : Shape := ⟨2, ![1000000, 32]⟩
abbrev S1x32 : Shape := ⟨2, ![1, 32]⟩

abbrev nBuf : Space → Nat
  | .hbm => 180
  | .vmem => 0
  | .smem => 0
  | _ => 0

abbrev hbmTy0_0 (i : Nat) : BufTy := match i % 128 with
  | 0 => ⟨S400000x64, .f32⟩
  | 1 => ⟨S1000000x64, .f32⟩
  | 2 => ⟨S1000000x2, .i32⟩
  | 3 => ⟨S1000000, .i32⟩
  | 4 => ⟨S128x192, .f32⟩
  | 5 => ⟨S1x64, .f32⟩
  | 6 => ⟨S128, .f32⟩
  | 7 => ⟨S128, .f32⟩
  | 8 => ⟨S64, .f32⟩
  | 9 => ⟨S64, .f32⟩
  | 10 => ⟨S32x64, .f32⟩
  | 11 => ⟨S32, .f32⟩
  | 12 => ⟨S64x32, .f32⟩
  | 13 => ⟨S64, .f32⟩
  | 14 => ⟨S32x64, .f32⟩
  | 15 => ⟨S32, .f32⟩
  | 16 => ⟨S64x32, .f32⟩
  | 17 => ⟨S64, .f32⟩
  | 18 => ⟨S_, .i32⟩
  | 19 => ⟨S1000000x2, .i32⟩
  | 20 => ⟨S1000000x2, .i1⟩
  | 21 => ⟨S_, .i32⟩
  | 22 => ⟨S1000000x2, .i32⟩
  | 23 => ⟨S1000000x2, .i32⟩
  | 24 => ⟨S1000000x2, .i32⟩
  | 25 => ⟨S1000000x2x1, .i32⟩
  | 26 => ⟨S1000000x2x64, .f32⟩
  | 27 => ⟨S1000000x128, .f32⟩
  | 28 => ⟨S1000000x192, .f32⟩
  | 29 => ⟨S192x128, .f32⟩
  | 30 => ⟨S1000000x128, .f32⟩
  | 31 => ⟨S_, .f32⟩
  | 32 => ⟨S1000000x1, .f32⟩
  | 33 => ⟨S_, .f32⟩
  | 34 => ⟨S2048x1, .f32⟩
  | 35 => ⟨S1000000x1, .i32⟩
  | 36 => ⟨S2048x1, .f32⟩
  | 37 => ⟨S_, .f32⟩
  | 38 => ⟨S2048x1, .f32⟩
  | 39 => ⟨S2048x1, .f32⟩
  | 40 => ⟨S_, .f32⟩
  | 41 => ⟨S2048x128, .f32⟩
  | 42 => ⟨S1000000x1, .i32⟩
  | 43 => ⟨S2048x128, .f32⟩
  | 44 => ⟨S2048x128, .f32⟩
  | 45 => ⟨S2048x128, .f32⟩
  | 46 => ⟨S_, .i32⟩
  | 47 => ⟨S1000000, .i32⟩
  | 48 => ⟨S1000000, .i1⟩
  | 49 => ⟨S_, .i32⟩
  | 50 => ⟨S1000000, .i32⟩
  | 51 => ⟨S1000000, .i32⟩
  | 52 => ⟨S1000000, .i32⟩
  | 53 => ⟨S1000000x1, .i32⟩
  | 54 => ⟨S1000000x128, .f32⟩
  | 55 => ⟨S1000000x128, .f32⟩
  | 56 => ⟨S1000000x128, .f32⟩
  | 57 => ⟨S_, .f32⟩
  | 58 => ⟨S2048x128, .f32⟩
  | 59 => ⟨S1000000x1, .i32⟩
  | 60 => ⟨S2048x128, .f32⟩
  | 61 => ⟨S2048x128, .f32⟩
  | 62 => ⟨S2048x128, .f32⟩
  | 63 => ⟨S_, .f32⟩
  | 64 => ⟨S2048x128, .f32⟩
  | 65 => ⟨S2048x128, .f32⟩
  | 66 => ⟨S2048x128, .f32⟩
  | 67 => ⟨S_, .i32⟩
  | 68 => ⟨S1000000, .i32⟩
  | 69 => ⟨S1000000, .i1⟩
  | 70 => ⟨S_, .i32⟩
  | 71 => ⟨S1000000, .i32⟩
  | 72 => ⟨S1000000, .i32⟩
  | 73 => ⟨S1000000, .i32⟩
  | 74 => ⟨S1000000x1, .i32⟩
  | 75 => ⟨S1000000x128, .f32⟩
  | 76 => ⟨S1000000x128, .f32⟩
  | 77 => ⟨S1x128, .f32⟩
  | 78 => ⟨S1000000x128, .f32⟩
  | 79 => ⟨S1000000x128, .f32⟩
  | 80 => ⟨S1x128, .f32⟩
  | 81 => ⟨S1000000x128, .f32⟩
  | 82 => ⟨S1000000x128, .f32⟩
  | 83 => ⟨S1000000x64, .f32⟩
  | 84 => ⟨S1000000x64, .f32⟩
  | 85 => ⟨S_, .f32⟩
  | 86 => ⟨S1000000x64, .f32⟩
  | 87 => ⟨S1000000x64, .f32⟩
  | 88 => ⟨S64x1, .f32⟩
  | 89 => ⟨S1000000x1, .f32⟩
  | 90 => ⟨S1000000x1, .f32⟩
  | 91 => ⟨S1000000x64, .f32⟩
  | 92 => ⟨S1000000x64, .f32⟩
  | 93 => ⟨S_, .f32⟩
  | 94 => ⟨S1000000x1, .f32⟩
  | 95 => ⟨S_, .f32⟩
  | 96 => ⟨S2048x1, .f32⟩
  | 97 => ⟨S1000000x1, .i32⟩
  | 98 => ⟨S2048x1, .f32⟩
  | 99 => ⟨S_, .f32⟩
  | 100 => ⟨S2048x1, .f32⟩
  | 101 => ⟨S2048x1, .f32⟩
  | 102 => ⟨S_, .f32⟩
  | 103 => ⟨S2048x64, .f32⟩
  | 104 => ⟨S1000000x1, .i32⟩
  | 105 => ⟨S2048x64, .f32⟩
  | 106 => ⟨S2048x64, .f32⟩
  | 107 => ⟨S2048x64, .f32⟩
  | 108 => ⟨S_, .i32⟩
  | 109 => ⟨S1000000, .i32⟩
  | 110 => ⟨S1000000, .i1⟩
  | 111 => ⟨S_, .i32⟩
  | 112 => ⟨S1000000, .i32⟩
  | 113 => ⟨S1000000, .i32⟩
  | 114 => ⟨S1000000, .i32⟩
  | 115 => ⟨S1000000x1, .i32⟩
  | 116 => ⟨S1000000x64, .f32⟩
  | 117 => ⟨S1000000x64, .f32⟩
  | 118 => ⟨S1000000x64, .f32⟩
  | 119 => ⟨S_, .f32⟩
  | 120 => ⟨S2048x64, .f32⟩
  | 121 => ⟨S1000000x1, .i32⟩
  | 122 => ⟨S2048x64, .f32⟩
  | 123 => ⟨S2048x64, .f32⟩
  | 124 => ⟨S2048x64, .f32⟩
  | 125 => ⟨S_, .f32⟩
  | 126 => ⟨S2048x64, .f32⟩
  | 127 => ⟨S2048x64, .f32⟩
  | _ => ⟨S400000x64, .f32⟩

abbrev hbmTy0_1 (i : Nat) : BufTy := match i % 128 with
  | 0 => ⟨S2048x64, .f32⟩
  | 1 => ⟨S_, .i32⟩
  | 2 => ⟨S1000000, .i32⟩
  | 3 => ⟨S1000000, .i1⟩
  | 4 => ⟨S_, .i32⟩
  | 5 => ⟨S1000000, .i32⟩
  | 6 => ⟨S1000000, .i32⟩
  | 7 => ⟨S1000000, .i32⟩
  | 8 => ⟨S1000000x1, .i32⟩
  | 9 => ⟨S1000000x64, .f32⟩
  | 10 => ⟨S1000000x64, .f32⟩
  | 11 => ⟨S1x64, .f32⟩
  | 12 => ⟨S1000000x64, .f32⟩
  | 13 => ⟨S1000000x64, .f32⟩
  | 14 => ⟨S1x64, .f32⟩
  | 15 => ⟨S1000000x64, .f32⟩
  | 16 => ⟨S1000000x64, .f32⟩
  | 17 => ⟨S64x32, .f32⟩
  | 18 => ⟨S1000000x32, .f32⟩
  | 19 => ⟨S1x32, .f32⟩
  | 20 => ⟨S1000000x32, .f32⟩
  | 21 => ⟨S1000000x32, .f32⟩
  | 22 => ⟨S_, .f32⟩
  | 23 => ⟨S1000000x32, .f32⟩
  | 24 => ⟨S1000000x32, .f32⟩
  | 25 => ⟨S32x64, .f32⟩
  | 26 => ⟨S1000000x64, .f32⟩
  | 27 => ⟨S1000000x64, .f32⟩
  | 28 => ⟨S1x64, .f32⟩
  | 29 => ⟨S1000000x64, .f32⟩
  | 30 => ⟨S1000000x64, .f32⟩
  | 31 => ⟨S64x32, .f32⟩
  | 32 => ⟨S1000000x32, .f32⟩
  | 33 => ⟨S1x32, .f32⟩
  | 34 => ⟨S1000000x32, .f32⟩
  | 35 => ⟨S1000000x32, .f32⟩
  | 36 => ⟨S_, .f32⟩
  | 37 => ⟨S1000000x32, .f32⟩
  | 38 => ⟨S1000000x32, .f32⟩
  | 39 => ⟨S32x64, .f32⟩
  | 40 => ⟨S1000000x64, .f32⟩
  | 41 => ⟨S1000000x64, .f32⟩
  | 42 => ⟨S1x64, .f32⟩
  | 43 => ⟨S1000000x64, .f32⟩
  | 44 => ⟨S1000000x64, .f32⟩
  | 45 => ⟨S1000000x64, .f32⟩
  | 46 => ⟨S_, .f32⟩
  | 47 => ⟨S1000000x64, .f32⟩
  | 48 => ⟨S1000000x64, .f32⟩
  | 49 => ⟨S_, .f32⟩
  | 50 => ⟨S1000000x64, .f32⟩
  | 51 => ⟨S1000000x64, .f32⟩
  | _ => ⟨S400000x64, .f32⟩

abbrev hbmTy (i : Nat) : BufTy := match i / 128 with
  | 0 => hbmTy0_0 i
  | 1 => hbmTy0_1 i
  | _ => ⟨S400000x64, .f32⟩

abbrev bufTy : (tb : Table) → Fin (tcTables nBuf tb) → BufTy
  | .hbm, ⟨i, _⟩ => hbmTy i
  | _, _ => ⟨S400000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst : Ref sig .tc := ⟨.hbm, 31, rfl⟩
abbrev main_v11 : Ref sig .tc := ⟨.hbm, 32, rfl⟩
abbrev main_cst_1 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_cst_2 : Ref sig .tc := ⟨.hbm, 37, rfl⟩
abbrev main_v15 : Ref sig .tc := ⟨.hbm, 38, rfl⟩
abbrev main_v16 : Ref sig .tc := ⟨.hbm, 39, rfl⟩
abbrev main_cst_3 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_c_4 : Ref sig .tc := ⟨.hbm, 46, rfl⟩
abbrev main_v22 : Ref sig .tc := ⟨.hbm, 47, rfl⟩
abbrev main_v23 : Ref sig .tc := ⟨.hbm, 48, rfl⟩
abbrev main_c_5 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst_6 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_7 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_c_8 : Ref sig .tc := ⟨.hbm, 67, rfl⟩
abbrev main_v39 : Ref sig .tc := ⟨.hbm, 68, rfl⟩
abbrev main_v40 : Ref sig .tc := ⟨.hbm, 69, rfl⟩
abbrev main_c_9 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_call0_cst : Ref sig .tc := ⟨.hbm, 85, rfl⟩
abbrev main_call0_v0 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_10 : Ref sig .tc := ⟨.hbm, 93, rfl⟩
abbrev main_v61 : Ref sig .tc := ⟨.hbm, 94, rfl⟩
abbrev main_cst_11 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_cst_12 : Ref sig .tc := ⟨.hbm, 99, rfl⟩
abbrev main_v65 : Ref sig .tc := ⟨.hbm, 100, rfl⟩
abbrev main_v66 : Ref sig .tc := ⟨.hbm, 101, rfl⟩
abbrev main_cst_13 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_c_14 : Ref sig .tc := ⟨.hbm, 108, rfl⟩
abbrev main_v72 : Ref sig .tc := ⟨.hbm, 109, rfl⟩
abbrev main_v73 : Ref sig .tc := ⟨.hbm, 110, rfl⟩
abbrev main_c_15 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_cst_16 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_cst_17 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_c_18 : Ref sig .tc := ⟨.hbm, 129, rfl⟩
abbrev main_v89 : Ref sig .tc := ⟨.hbm, 130, rfl⟩
abbrev main_v90 : Ref sig .tc := ⟨.hbm, 131, rfl⟩
abbrev main_c_19 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_call1_cst : Ref sig .tc := ⟨.hbm, 150, rfl⟩
abbrev main_call1_v0 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_call2_cst : Ref sig .tc := ⟨.hbm, 164, rfl⟩
abbrev main_call2_v0 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_call3_cst : Ref sig .tc := ⟨.hbm, 174, rfl⟩
abbrev main_call3_v0 : Ref sig .tc := ⟨.hbm, 175, rfl⟩
abbrev main_v128 : Ref sig .tc := ⟨.hbm, 176, rfl⟩
abbrev main_cst_20 : Ref sig .tc := ⟨.hbm, 177, rfl⟩
abbrev main_v129 : Ref sig .tc := ⟨.hbm, 178, rfl⟩
abbrev main_v130 : Ref sig .tc := ⟨.hbm, 179, rfl⟩

abbrev nD : Nat := 1
abbrev τ : Topo := Topo.v7x

variable {F : FTy → Type} [FloatOps F]

class Facts₀ : Prop where
  bcast_S_S1000000x2 : S_.BroadcastsInDim S1000000x2 (![] : Fin 0 → Fin S1000000x2.rank)
  bcast_S1000000x2_S1000000x2x1_0_1 : S1000000x2.BroadcastsInDim S1000000x2x1 (![0, 1] : Fin 2 → Fin S1000000x2x1.rank)
  shapeCasts_S1000000x2x64_S1000000x128 : S1000000x2x64.ShapeCasts S1000000x128
  concatenates_S1000000x64_S1000000x128_S1000000x192_d1 : Shape.Concatenates [S1000000x64, S1000000x128] S1000000x192 1
  transposes_S128x192_S192x128_1_0 : S128x192.Transposes [1, 0] S192x128
  bcast_S_S1000000x1 : S_.BroadcastsInDim S1000000x1 (![] : Fin 0 → Fin S1000000x1.rank)
  bcast_S_S2048x1 : S_.BroadcastsInDim S2048x1 (![] : Fin 0 → Fin S2048x1.rank)
  bcast_S1000000_S1000000x1_0 : S1000000.BroadcastsInDim S1000000x1 (![0] : Fin 1 → Fin S1000000x1.rank)
  bcast_S_S2048x128 : S_.BroadcastsInDim S2048x128 (![] : Fin 0 → Fin S2048x128.rank)
  bcast_S2048x1_S2048x128_0_1 : S2048x1.BroadcastsInDim S2048x128 (![0, 1] : Fin 2 → Fin S2048x128.rank)
  bcast_S_S1000000 : S_.BroadcastsInDim S1000000 (![] : Fin 0 → Fin S1000000.rank)
  bcast_S128_S1x128_1 : S128.BroadcastsInDim S1x128 (![1] : Fin 1 → Fin S1x128.rank)
  bcast_S1x128_S1000000x128_0_1 : S1x128.BroadcastsInDim S1000000x128 (![0, 1] : Fin 2 → Fin S1000000x128.rank)
  slices_S1000000x128_S1000000x64_0_0 : S1000000x128.Slices ![0, 0] S1000000x64
  slices_S1000000x128_S1000000x64_0_64 : S1000000x128.Slices ![0, 64] S1000000x64
  bcast_S_S1000000x64 : S_.BroadcastsInDim S1000000x64 (![] : Fin 0 → Fin S1000000x64.rank)
  transposes_S1x64_S64x1_1_0 : S1x64.Transposes [1, 0] S64x1
  bcast_S1000000x1_S1000000x64_0_1 : S1000000x1.BroadcastsInDim S1000000x64 (![0, 1] : Fin 2 → Fin S1000000x64.rank)
  bcast_S_S2048x64 : S_.BroadcastsInDim S2048x64 (![] : Fin 0 → Fin S2048x64.rank)
  bcast_S2048x1_S2048x64_0_1 : S2048x1.BroadcastsInDim S2048x64 (![0, 1] : Fin 2 → Fin S2048x64.rank)
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  transposes_S32x64_S64x32_1_0 : S32x64.Transposes [1, 0] S64x32
  bcast_S32_S1x32_1 : S32.BroadcastsInDim S1x32 (![1] : Fin 1 → Fin S1x32.rank)
  bcast_S1x32_S1000000x32_0_1 : S1x32.BroadcastsInDim S1000000x32 (![0, 1] : Fin 2 → Fin S1000000x32.rank)
  bcast_S_S1000000x32 : S_.BroadcastsInDim S1000000x32 (![] : Fin 0 → Fin S1000000x32.rank)
  transposes_S64x32_S32x64_1_0 : S64x32.Transposes [1, 0] S32x64
  gather_S400000x64_S1000000x2x1_S1000000x2x64_2_0_n_n_0_2_164_wf : GatherDims.WF S400000x64 S1000000x2x1 S1000000x2x64 [2] [0] [] [0] [] 2 ![1, 64]
  dot_S1000000x192_S192x128_S1000000x128_1_0_0_1_n_n_wf : DotDims.WF S1000000x192 S192x128 S1000000x128 [1] [0] [0] [1] [] []
  scatter_S2048x1_S1000000x1_S1000000x1_1_0_0_1_wf : ScatterDims.WF S2048x1 S1000000x1 S1000000x1 [1] [0] [0] 1
  scatter_S2048x128_S1000000x1_S1000000x128_1_0_0_1_wf : ScatterDims.WF S2048x128 S1000000x1 S1000000x128 [1] [0] [0] 1
  gather_S2048x128_S1000000x1_S1000000x128_1_0_n_n_0_1_1128_wf : GatherDims.WF S2048x128 S1000000x1 S1000000x128 [1] [0] [] [0] [] 1 ![1, 128]
  dot_S1000000x64_S64x1_S1000000x1_1_0_0_1_n_n_wf : DotDims.WF S1000000x64 S64x1 S1000000x1 [1] [0] [0] [1] [] []
  scatter_S2048x64_S1000000x1_S1000000x64_1_0_0_1_wf : ScatterDims.WF S2048x64 S1000000x1 S1000000x64 [1] [0] [0] 1
  gather_S2048x64_S1000000x1_S1000000x64_1_0_n_n_0_1_164_wf : GatherDims.WF S2048x64 S1000000x1 S1000000x64 [1] [0] [] [0] [] 1 ![1, 64]
  dot_S1000000x64_S64x32_S1000000x32_1_0_0_1_n_n_wf : DotDims.WF S1000000x64 S64x32 S1000000x32 [1] [0] [0] [1] [] []
  dot_S1000000x32_S32x64_S1000000x64_1_0_0_1_n_n_wf : DotDims.WF S1000000x32 S32x64 S1000000x64 [1] [0] [0] [1] [] []

variable [Facts₀]

def gather_S400000x64_S1000000x2x1_S1000000x2x64_2_0_n_n_0_2_164 : GatherDims S400000x64 S1000000x2x1 S1000000x2x64 where
  offsetDims := [2]
  collapsedSliceDims := [0]
  operandBatchingDims := []
  startIndicesBatchingDims := []
  startIndexMap := [0]
  indexVectorDim := 2
  sliceSizes := ![1, 64]
  wf := gather_S400000x64_S1000000x2x1_S1000000x2x64_2_0_n_n_0_2_164_wf
def dot_S1000000x192_S192x128_S1000000x128_1_0_0_1_n_n : DotDims S1000000x192 S192x128 S1000000x128 where
  lhsContracting := [1]
  rhsContracting := [0]
  lhsNonContracting := [0]
  rhsNonContracting := [1]
  lhsBatch := []
  rhsBatch := []
  wf := dot_S1000000x192_S192x128_S1000000x128_1_0_0_1_n_n_wf
def scatter_S2048x1_S1000000x1_S1000000x1_1_0_0_1 : ScatterDims S2048x1 S1000000x1 S1000000x1 where
  updateWindowDims := [1]
  insertedWindowDims := [0]
  scatterDimsToOperandDims := [0]
  indexVectorDim := 1
  wf := scatter_S2048x1_S1000000x1_S1000000x1_1_0_0_1_wf
def scatter_S2048x128_S1000000x1_S1000000x128_1_0_0_1 : ScatterDims S2048x128 S1000000x1 S1000000x128 where
  updateWindowDims := [1]
  insertedWindowDims := [0]
  scatterDimsToOperandDims := [0]
  indexVectorDim := 1
  wf := scatter_S2048x128_S1000000x1_S1000000x128_1_0_0_1_wf
def gather_S2048x128_S1000000x1_S1000000x128_1_0_n_n_0_1_1128 : GatherDims S2048x128 S1000000x1 S1000000x128 where
  offsetDims := [1]
  collapsedSliceDims := [0]
  operandBatchingDims := []
  startIndicesBatchingDims := []
  startIndexMap := [0]
  indexVectorDim := 1
  sliceSizes := ![1, 128]
  wf := gather_S2048x128_S1000000x1_S1000000x128_1_0_n_n_0_1_1128_wf
def dot_S1000000x64_S64x1_S1000000x1_1_0_0_1_n_n : DotDims S1000000x64 S64x1 S1000000x1 where
  lhsContracting := [1]
  rhsContracting := [0]
  lhsNonContracting := [0]
  rhsNonContracting := [1]
  lhsBatch := []
  rhsBatch := []
  wf := dot_S1000000x64_S64x1_S1000000x1_1_0_0_1_n_n_wf
def scatter_S2048x64_S1000000x1_S1000000x64_1_0_0_1 : ScatterDims S2048x64 S1000000x1 S1000000x64 where
  updateWindowDims := [1]
  insertedWindowDims := [0]
  scatterDimsToOperandDims := [0]
  indexVectorDim := 1
  wf := scatter_S2048x64_S1000000x1_S1000000x64_1_0_0_1_wf
def gather_S2048x64_S1000000x1_S1000000x64_1_0_n_n_0_1_164 : GatherDims S2048x64 S1000000x1 S1000000x64 where
  offsetDims := [1]
  collapsedSliceDims := [0]
  operandBatchingDims := []
  startIndicesBatchingDims := []
  startIndexMap := [0]
  indexVectorDim := 1
  sliceSizes := ![1, 64]
  wf := gather_S2048x64_S1000000x1_S1000000x64_1_0_n_n_0_1_164_wf
def dot_S1000000x64_S64x32_S1000000x32_1_0_0_1_n_n : DotDims S1000000x64 S64x32 S1000000x32 where
  lhsContracting := [1]
  rhsContracting := [0]
  lhsNonContracting := [0]
  rhsNonContracting := [1]
  lhsBatch := []
  rhsBatch := []
  wf := dot_S1000000x64_S64x32_S1000000x32_1_0_0_1_n_n_wf
def dot_S1000000x32_S32x64_S1000000x64_1_0_0_1_n_n : DotDims S1000000x32 S32x64 S1000000x64 where
  lhsContracting := [1]
  rhsContracting := [0]
  lhsNonContracting := [0]
  rhsNonContracting := [1]
  lhsBatch := []
  rhsBatch := []
  wf := dot_S1000000x32_S32x64_S1000000x64_1_0_0_1_n_n_wf

class Facts : Prop extends Facts₀ where

variable [Facts]
-- ==== Proof.LibDot.lean ====
/-
  A plain matrix product read at an entry, at the ideal values.

  Every product in the network is "rows by columns": an `M × K` array against a `K × N` array, contracting the one
  shared axis, no batch axis. At the ideal values both the kernel's product into a zero accumulator and the host's
  product are, at entry `(p, q)`, the sum over `k` of `lhs (p, k) · rhs (k, q)`: no rounding and no order of
  accumulation is left in it. The two lemmas say so once, for all sizes; a printed dimension record of this kind is
  `DotDims.plain M K N` up to its well-formedness proof.
-/
import Idealize.ShloMosaic.PureOps.Ideal.Laws
import Idealize.ShloMosaic.Lib.ValueIdx

noncomputable section

namespace Cert.GNN

open Idealize.ShloMosaic Idealize.ShloMosaic.ValueIdx

variable {M K N : ℕ}

theorem plain_lhs0 (i : (⟨2, ![M, N]⟩ : Shape).Idx) (κ : (DotDims.plain M K N).contr.Idx) :
    ((DotDims.plain M K N).lhsIdx i κ 0).val = (i 0).val := rfl
theorem plain_lhs1 (i : (⟨2, ![M, N]⟩ : Shape).Idx) (κ : (DotDims.plain M K N).contr.Idx) :
    ((DotDims.plain M K N).lhsIdx i κ 1).val = (κ ⟨0, Nat.one_pos⟩).val := rfl
theorem plain_rhs0 (i : (⟨2, ![M, N]⟩ : Shape).Idx) (κ : (DotDims.plain M K N).contr.Idx) :
    ((DotDims.plain M K N).rhsIdx i κ 0).val = (κ ⟨0, Nat.one_pos⟩).val := rfl
theorem plain_rhs1 (i : (⟨2, ![M, N]⟩ : Shape).Idx) (κ : (DotDims.plain M K N).contr.Idx) :
    ((DotDims.plain M K N).rhsIdx i κ 1).val = (i 1).val := rfl

/-- The sum over the contraction index of a plain product, re-indexed by `k : Fin K`. -/
theorem plain_sum {φ₁ φ₂ : FTy} (lhs : FVec Ideal ⟨2, ![M, K]⟩ φ₁) (rhs : FVec Ideal ⟨2, ![K, N]⟩ φ₂) (p : Fin M) (q : Fin N) :
    (∑ κ : (DotDims.plain M K N).contr.Idx,
        lhs ((DotDims.plain M K N).lhsIdx (ix2 p q) κ) * rhs ((DotDims.plain M K N).rhsIdx (ix2 p q) κ))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain product into the zero accumulator, read at entry `(p, q)`. -/
theorem matmul_plain_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's plain product, read at entry `(p, q)`. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

end Cert.GNN

end
-- ==== Proof.Spec.lean ====
/-
  The network, written once as plain formulas over the extended reals.

  Rows are angles (`R` of them), segments are crystals (`K` of them). Every array is a function of its coordinates.
  A row `r` carries a signed segment id `seg r`; it is counted in segment `k` exactly when `seg r = k`
  (an id outside `0 … K-1` is counted nowhere), and it reads the per-segment tables at row `gat r`.

  The per-segment normalisation is written in its two forms: the one-pass form (mean and mean of squares, folded into
  a scale and a shift per segment) and the two-pass form (centre first, then the mean of the centred squares).
-/
import Idealize.ShloMosaic.PureOps.Ideal

noncomputable section

namespace Cert.Spec

open Idealize.ShloMosaic
open scoped BigOperators

variable {R K : ℕ}

/-- The sum of `f` over the rows counted in segment `k`. -/
def segSum (seg : Fin R → ℤ) (f : Fin R → EReal) (k : Fin K) : EReal :=
  ∑ r : Fin R, if seg r = (k.val : ℤ) then f r else 0

/-- The number of rows of segment `k`, at least one. -/
def cnt (seg : Fin R → ℤ) (k : Fin K) : EReal := max (segSum seg (fun _ => (1 : EReal)) k) 1

/-- The mean of one column `x` over segment `k`. -/
def mean (seg : Fin R → ℤ) (x : Fin R → EReal) (k : Fin K) : EReal :=
  Ideal.div (segSum seg x k) (cnt seg k)

/-! ### One-pass form: a scale and a shift per segment -/

/-- `g / sqrt(max(E[x²] − E[x]², 0) + eps)` on segment `k`. -/
def scaleK (eps : EReal) (seg : Fin R → ℤ) (x : Fin R → EReal) (g : EReal) (k : Fin K) : EReal :=
  g * Ideal.rsqrt (max (Ideal.div (segSum seg (fun r => x r * x r) k) (cnt seg k) - mean seg x k * mean seg x k) 0 + eps)

/-- `b − E[x] · scale` on segment `k`. -/
def shiftK (eps : EReal) (seg : Fin R → ℤ) (x : Fin R → EReal) (g b : EReal) (k : Fin K) : EReal :=
  b - mean seg x k * scaleK eps seg x g k

/-- The normalised column in the one-pass form: `x · scale + shift`, both read at the row's segment. -/
def normK (eps : EReal) (seg : Fin R → ℤ) (gat : Fin R → Fin K) (x : Fin R → EReal) (g b : EReal) (r : Fin R) : EReal :=
  x r * scaleK eps seg x g (gat r) + shiftK eps seg x g b (gat r)

/-! ### Two-pass form: centre, then the mean of the centred squares -/

/-- The column centred at its row's segment mean. -/
def cen (seg : Fin R → ℤ) (gat : Fin R → Fin K) (x : Fin R → EReal) (r : Fin R) : EReal :=
  x r - mean seg x (gat r)

/-- The mean over segment `k` of the centred squares. -/
def varR (seg : Fin R → ℤ) (gat : Fin R → Fin K) (x : Fin R → EReal) (k : Fin K) : EReal :=
  Ideal.div (segSum seg (fun r => cen seg gat x r * cen seg gat x r) k) (cnt seg k)

/-- The normalised column in the two-pass form. -/
def normR (eps : EReal) (seg : Fin R → ℤ) (gat : Fin R → Fin K) (x : Fin R → EReal) (g b : EReal) (r : Fin R) : EReal :=
  cen seg gat x r * Ideal.rsqrt (varR seg gat x (gat r) + eps) * g + b

/-! ### The dense stages -/

/-- The fused linear layer as one product against the joined features `[A | Nb]`. -/
def gatedR (A : Fin R → Fin 64 → EReal) (Nb : Fin R → Fin 128 → EReal) (Wf : Fin 128 → Fin 192 → EReal)
    (r : Fin R) (j : Fin 128) : EReal :=
  ∑ k : Fin 192, (Fin.addCases (A r) (Nb r) k : EReal) * Wf j k

/-- The fused linear layer as two products, one per group of features. -/
def gatedK (A : Fin R → Fin 64 → EReal) (Nb : Fin R → Fin 128 → EReal) (Wf : Fin 128 → Fin 192 → EReal)
    (r : Fin R) (j : Fin 128) : EReal :=
  (∑ k : Fin 64, A r k * Wf j (Fin.castAdd 128 k)) + ∑ k : Fin 128, Nb r k * Wf j (Fin.natAdd 64 k)

/-- The gate: `tanh` of the filter half against the mask weights, times the rectified core half. -/
def gate (xn : Fin R → Fin 128 → EReal) (wm : Fin 64 → EReal) (r : Fin R) (c : Fin 64) : EReal :=
  Ideal.tanh (∑ k : Fin 64, xn r (Fin.natAdd 64 k) * wm k) * max (xn r (Fin.castAdd 64 c)) 0

/-- Two residual blocks `x + relu(x W₁ + b₁) W₂ + b₂`, then `c2 · relu(a + x)`. The weights are given already
    transposed: `W1aT k j` multiplies feature `k` into hidden unit `j`. -/
def mlp (c2 : EReal) (x a : Fin R → Fin 64 → EReal)
    (W1aT : Fin 64 → Fin 32 → EReal) (b1a : Fin 32 → EReal) (W1bT : Fin 32 → Fin 64 → EReal) (b1b : Fin 64 → EReal)
    (W2aT : Fin 64 → Fin 32 → EReal) (b2a : Fin 32 → EReal) (W2bT : Fin 32 → Fin 64 → EReal) (b2b : Fin 64 → EReal)
    (r : Fin R) (c : Fin 64) : EReal :=
  let h1 : Fin 32 → EReal := fun j => max ((∑ k : Fin 64, x r k * W1aT k j) + b1a j) 0
  let x1 : Fin 64 → EReal := fun c => (x r c + ∑ j : Fin 32, h1 j * W1bT j c) + b1b c
  let h2 : Fin 32 → EReal := fun j => max ((∑ k : Fin 64, x1 k * W2aT k j) + b2a j) 0
  let x2 : Fin 64 → EReal := fun c => (x1 c + ∑ j : Fin 32, h2 j * W2bT j c) + b2b c
  c2 * max (a r c + x2 c) 0

/-! ### The whole network, in the two forms -/

/-- One-pass normalisations over the two-product linear layer. -/
def outK (eps c2 : EReal) (seg : Fin R → ℤ) (gat : Fin R → Fin K)
    (A : Fin R → Fin 64 → EReal) (Nb : Fin R → Fin 128 → EReal) (Wf : Fin 128 → Fin 192 → EReal) (wm : Fin 64 → EReal)
    (g1 b1 : Fin 128 → EReal) (g2 b2 : Fin 64 → EReal)
    (W1aT : Fin 64 → Fin 32 → EReal) (b1a : Fin 32 → EReal) (W1bT : Fin 32 → Fin 64 → EReal) (b1b : Fin 64 → EReal)
    (W2aT : Fin 64 → Fin 32 → EReal) (b2a : Fin 32 → EReal) (W2bT : Fin 32 → Fin 64 → EReal) (b2b : Fin 64 → EReal) :
    Fin R → Fin 64 → EReal :=
  mlp c2
    (fun r c => normK eps seg gat
      (fun r' => gate (fun r'' j => normK eps seg gat (fun r₀ => gatedK A Nb Wf r₀ j) (g1 j) (b1 j) r'') wm r' c)
      (g2 c) (b2 c) r)
    A W1aT b1a W1bT b1b W2aT b2a W2bT b2b

/-- Two-pass normalisations over the one-product linear layer. -/
def outR (eps c2 : EReal) (seg : Fin R → ℤ) (gat : Fin R → Fin K)
    (A : Fin R → Fin 64 → EReal) (Nb : Fin R → Fin 128 → EReal) (Wf : Fin 128 → Fin 192 → EReal) (wm : Fin 64 → EReal)
    (g1 b1 : Fin 128 → EReal) (g2 b2 : Fin 64 → EReal)
    (W1aT : Fin 64 → Fin 32 → EReal) (b1a : Fin 32 → EReal) (W1bT : Fin 32 → Fin 64 → EReal) (b1b : Fin 64 → EReal)
    (W2aT : Fin 64 → Fin 32 → EReal) (b2a : Fin 32 → EReal) (W2bT : Fin 32 → Fin 64 → EReal) (b2b : Fin 64 → EReal) :
    Fin R → Fin 64 → EReal :=
  mlp c2
    (fun r c => normR eps seg gat
      (fun r' => gate (fun r'' j => normR eps seg gat (fun r₀ => gatedR A Nb Wf r₀ j) (g1 j) (b1 j) r'') wm r' c)
      (g2 c) (b2 c) r)
    A W1aT b1a W1bT b1b W2aT b2a W2bT b2b

end Cert.Spec

end
-- ==== Proof.Arr.lean ====
/-
  Reading an array of extended reals at its coordinates.
-/
import Idealize.ShloMosaic.PureOps.Ideal
import Idealize.ShloMosaic.Lib.ValueIdx

noncomputable section

namespace Cert.Arr

open Idealize.ShloMosaic Idealize.ShloMosaic.ValueIdx

/-- A two-axis array read at `(a, b)`. -/
abbrev at2 {n0 n1 : ℕ} (f : (⟨2, ![n0, n1]⟩ : Shape).Idx → EReal) (a : Fin n0) (b : Fin n1) : EReal := f (ix2 a b)

/-- A one-axis array read at `a`. -/
abbrev at1 {n : ℕ} (f : (⟨1, ![n]⟩ : Shape).Idx → EReal) (a : Fin n) : EReal := f (ix1 a)

/-- A one-axis array of 32-bit words. -/
abbrev words {n : ℕ} (f : (⟨1, ![n]⟩ : Shape).Idx → BitVec 32) : IVec ⟨1, ![n]⟩ 32 := f

end Cert.Arr

end
-- ==== Proof.KReg0.lean ====
/-
  The first dense stage as the kernel computes it: each block of 4000 rows is the product of the rows' own features
  with the first 64 rows of the transposed weights plus the product of their neighbour features with the other 128
  rows; the blocks tile the array, so entry (r, j) of the result is the two sums over the whole rows.
-/
import proofs.«173249_j46248207843562_1_alg».proof.Proof.Gen.KernelIdeal.Frame
import proofs.«173249_j46248207843562_1_alg».proof.Proof.LibDot
import proofs.«173249_j46248207843562_1_alg».proof.Proof.Spec
import proofs.«173249_j46248207843562_1_alg».proof.Proof.Arr
import Idealize.ShloMosaic.Lib.Pipeline.Value
import Idealize.ShloMosaic.Lib.ValueIdx
import Idealize.ShloMosaic.PureOps.Ideal.Laws
set_option maxRecDepth 16384

noncomputable section

namespace Cert.KValue

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators
open Cert.Arr

/-! ## One block: the two products added, entry by entry -/

/-- The first product's dimension record is the plain `4000 × 64` by `64 × 128` one. -/
private theorem dotA_eq : dot_S4000x64_S64x128_S4000x128_1_0_0_1_n_n = DotDims.plain 4000 64 128 := rfl

/-- The second product's dimension record is the plain `4000 × 128` by `128 × 128` one. -/
private theorem dotB_eq : dot_S4000x128_S128x128_S4000x128_1_0_0_1_n_n = DotDims.plain 4000 128 128 := rfl

/-- Entry `(p, q)` of a block's result: row `p` of the own features against column `q` of the first weights, plus
    row `p` of the neighbour features against column `q` of the second weights. -/
private theorem block_apply (x0 : Vec Ideal S4000x64 .f32) (x1 : Vec Ideal S4000x128 .f32) (x2 : Vec Ideal S64x128 .f32)
    (x3 : Vec Ideal S128x128 .f32) (p : Fin 4000) (q : Fin 128) :
    k0_pay1 x0 x1 x2 x3 (ix2 p q)
      = (∑ k : Fin 64, x0 (ix2 p k) * x2 (ix2 k q)) + ∑ k : Fin 128, x1 (ix2 p k) * x3 (ix2 k q) := by
  unfold k0_pay1
  rw [shapeCast_self, shapeCast_self, shapeCast_self, dotA_eq, dotB_eq]
  refine (addf_apply _ _ (ix2 p q)).trans ?_
  refine congrArg₂ (· + ·) ?_ ?_
  · exact Cert.GNN.matmul_plain_zero_apply none _ _ p q
  · exact Cert.GNN.matmul_plain_zero_apply none _ _ p q

/-! ## The whole array the blocks are cut from -/

variable (V : (c : Dev nD) → (b : Ref sig .tc) → Buf (Elt Ideal) ((c : Thread nD τ).loc b))

private theorem zeros2 : (![0, 0] : Fin 2 → Nat) = fun _ => 0 := funext fun a => by fin_cases a <;> rfl

/-- Entry `(r, j)` of the dense stage over whole arrays. -/
private def dense (A : S1000000x64.Idx → EReal) (Nb : S1000000x128.Idx → EReal) (Wa : S64x128.Idx → EReal)
    (Wb : S128x128.Idx → EReal) (r : Fin 1000000) (j : Fin 128) : EReal :=
  (∑ k : Fin 64, A (ix2 r k) * Wa (ix2 k j)) + ∑ k : Fin 128, Nb (ix2 r k) * Wb (ix2 k j)

/-- The dense stage as an array. -/
private def denseArr (A : S1000000x64.Idx → EReal) (Nb : S1000000x128.Idx → EReal) (Wa : S64x128.Idx → EReal)
    (Wb : S128x128.Idx → EReal) : S1000000x128.Idx → EReal :=
  fun i => dense A Nb Wa Wb (i 0) (i 1)

/-- The windows' index maps over the grid: the row-blocked windows sit at block `t` of the rows, the weight windows at
    their only block. -/
private theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row `p` of block `t` is row `4000 t + p` of the array. -/
private def rowAt (t : Fin cfg0.N) (p : Fin 4000) : Fin 1000000 :=
  ⟨t.val * 4000 + p.val, by have ht : t.val < 250 := t.isLt; have := p.isLt; omega⟩

/-- The own-feature block at point `t` is rows `4000 t …` of the own features. -/
private theorem own_block (c : Dev nD) (t : Fin cfg0.N) (p : Fin 4000) (k : Fin 64) :
    (iblk0 V c 0 t : Vec Ideal S4000x64 .f32) (ix2 p k) = (V c main_arg1 : S1000000x64.Idx → EReal) (ix2 (rowAt t p) k) := by
  obtain ⟨e00, e01, -⟩ := index_facts t
  unfold iblk0
  rw [View.read_apply]
  show V c main_arg1 _ = V c main_arg1 _
  congr 1
  funext a
  apply Fin.ext
  match a with
  | ⟨0, _⟩ => show win0_0.index t (0 : Fin 2) * 4000 + 1 * p.val = t.val * 4000 + p.val; rw [e00]; omega
  | ⟨1, _⟩ => show win0_0.index t (1 : Fin 2) * 64 + 1 * k.val = k.val; rw [e01]; omega

/-- The neighbour-feature block at point `t` is rows `4000 t …` of the neighbour features. -/
private theorem nbr_block (c : Dev nD) (t : Fin cfg0.N) (p : Fin 4000) (k : Fin 128) :
    (iblk0 V c 1 t : Vec Ideal S4000x128 .f32) (ix2 p k) = (V c main_v7 : S1000000x128.Idx → EReal) (ix2 (rowAt t p) k) := by
  obtain ⟨-, -, e10, e11, -⟩ := index_facts t
  unfold iblk0
  rw [View.read_apply]
  show V c main_v7 _ = V c main_v7 _
  congr 1
  funext a
  apply Fin.ext
  match a with
  | ⟨0, _⟩ => show win0_1.index t (0 : Fin 2) * 4000 + 1 * p.val = t.val * 4000 + p.val; rw [e10]; omega
  | ⟨1, _⟩ => show win0_1.index t (1 : Fin 2) * 128 + 1 * k.val = k.val; rw [e11]; omega

/-- The first weights' block at every point is the whole of them. -/
private theorem wa_block (c : Dev nD) (t : Fin cfg0.N) (k : Fin 64) (q : Fin 128) :
    (iblk0 V c 2 t : Vec Ideal S64x128 .f32) (ix2 k q) = (V c main_v9 : S64x128.Idx → EReal) (ix2 k q) := by
  obtain ⟨-, -, -, -, e20, e21, -⟩ := index_facts t
  unfold iblk0
  rw [View.read_apply]
  show V c main_v9 _ = V c main_v9 _
  congr 1
  funext a
  apply Fin.ext
  match a with
  | ⟨0, _⟩ => show win0_2.index t (0 : Fin 2) * 64 + 1 * k.val = k.val; rw [e20]; omega
  | ⟨1, _⟩ => show win0_2.index t (1 : Fin 2) * 128 + 1 * q.val = q.val; rw [e21]; omega

/-- The second weights' block at every point is the whole of them. -/
private theorem wb_block (c : Dev nD) (t : Fin cfg0.N) (k : Fin 128) (q : Fin 128) :
    (iblk0 V c 3 t : Vec Ideal S128x128 .f32) (ix2 k q) = (V c main_v10 : S128x128.Idx → EReal) (ix2 k q) := by
  obtain ⟨-, -, -, -, -, -, e30, e31, -⟩ := index_facts t
  unfold iblk0
  rw [View.read_apply]
  show V c main_v10 _ = V c main_v10 _
  congr 1
  funext a
  apply Fin.ext
  match a with
  | ⟨0, _⟩ => show win0_3.index t (0 : Fin 2) * 128 + 1 * k.val = k.val; rw [e30]; omega
  | ⟨1, _⟩ => show win0_3.index t (1 : Fin 2) * 128 + 1 * q.val = q.val; rw [e31]; omega

/-- Entry `(p, q)` of the result's block at point `t` sits at row `4000 t + p`, column `q` of the array. -/
private theorem out_emb (t : Fin cfg0.N) (p : Fin 4000) (q : Fin 128) :
    (((cfg0.win 4).blk t).view.emb (ix2 p q) : S1000000x128.Idx) = ix2 (rowAt t p) q := by
  obtain ⟨-, -, -, -, -, -, -, -, e40, e41⟩ := index_facts t
  funext a
  apply Fin.ext
  match a with
  | ⟨0, _⟩ => show win0_4.index t (0 : Fin 2) * 4000 + 1 * p.val = t.val * 4000 + p.val; rw [e40]; omega
  | ⟨1, _⟩ => show win0_4.index t (1 : Fin 2) * 128 + 1 * q.val = q.val; rw [e41]; omega

/-- What point `t` writes back is block `t` of the dense stage over the arrays the region is entered with. -/
private theorem flushed_eq (c : Dev nD) (t : Fin cfg0.N) :
    (dat0 V c).flushed 4 t
      = ((cfg0.win 4).blk t).view.read (Elt Ideal) (denseArr (V c main_arg1) (V c main_v7) (V c main_v9) (V c main_v10)) := by
  show (cfg0.win 4).cut (grid0.coords t) ((dat0 V c).after 4 t) = _
  rw [after0_4]
  unfold out0_4
  rw [View.canon_unit_zero zeros2]
  simp only [View.ld_unit_zero (S := S4000x64) zeros2, View.ld_unit_zero (S := S4000x128) zeros2,
    View.ld_unit_zero (S := S64x128) zeros2, View.ld_unit_zero (S := S128x128) zeros2]
  funext j
  obtain ⟨p, q, rfl⟩ : ∃ (p : Fin 4000) (q : Fin 128), j = ix2 p q := ⟨j 0, j 1, eq_ix2 j⟩
  show k0_pay1 (iblk0 V c 0 t) (iblk0 V c 1 t) (iblk0 V c 2 t) (iblk0 V c 3 t) (ix2 p q)
    = denseArr (V c main_arg1) (V c main_v7) (V c main_v9) (V c main_v10) (((cfg0.win 4).blk t).view.emb (ix2 p q))
  rw [out_emb t p q]
  refine (block_apply _ _ _ _ p q).trans ?_
  show _ = dense (V c main_arg1) (V c main_v7) (V c main_v9) (V c main_v10) (rowAt t p) q
  unfold dense
  refine congrArg₂ (· + ·) (Finset.sum_congr rfl fun k _ => ?_) (Finset.sum_congr rfl fun k _ => ?_)
  · exact congrArg₂ (· * ·) (own_block V c t p k) (wa_block V c t k q)
  · exact congrArg₂ (· * ·) (nbr_block V c t p k) (wb_block V c t k q)

/-- An index of the array is in point `t`'s block iff each coordinate is in the block's range on its axis. -/
private theorem mem_block (t : Fin cfg0.N) (i : S1000000x128.Idx) :
    i ∈ ((cfg0.win 4).blk t).view.set
      ↔ ∀ a : Fin 2, win0_4.index t a * S4000x128.size a ≤ (i a).val ∧ (i a).val < win0_4.index t a * S4000x128.size a + S4000x128.size a := by
  show i ∈ ((View.whole main_v11).slice (win0_4.rect t)).set ↔ _
  rw [View.set_slice_whole, Rect.mem_set_unit]
  exact Iff.rfl

/-- Every row lies in the block of its quotient by 4000, so the blocks cover the array. -/
private theorem cover (i : S1000000x128.Idx) :
    ∃ t : Fin cfg0.N, (cfg0.win 4).flush t = true ∧ i ∈ ((cfg0.win 4).blk t).view.set := by
  have hi0 : (i 0).val < 1000000 := (i 0).isLt
  have hi1 : (i 1).val < 128 := (i 1).isLt
  let t : Fin cfg0.N := ⟨(i 0).val / 4000, by show (i 0).val / 4000 < 250; omega⟩
  have ht : t.val = (i 0).val / 4000 := rfl
  obtain ⟨-, -, -, -, -, -, -, -, e40, e41⟩ := index_facts t
  refine ⟨t, flush0_4 t, ?_⟩
  rw [mem_block]
  intro a
  match a with
  | ⟨0, _⟩ =>
    show win0_4.index t (0 : Fin 2) * 4000 ≤ (i 0).val ∧ (i 0).val < win0_4.index t (0 : Fin 2) * 4000 + 4000
    rw [e40, ht]; omega
  | ⟨1, _⟩ =>
    show win0_4.index t (1 : Fin 2) * 128 ≤ (i 1).val ∧ (i 1).val < win0_4.index t (1 : Fin 2) * 128 + 128
    rw [e41]; omega

/-- The result array after the region is the dense stage over the arrays the region is entered with. -/
private theorem region0_array (c : Dev nD) :
    (dat0 V c).arrAt 4 cfg0.N = denseArr (V c main_arg1) (V c main_v7) (V c main_v9) (V c main_v10) :=
  (dat0 V c).arrAt_eq_of_cover 4 _ (fun t _ => flushed_eq V c t) cover

/-- REGION 0's result array, entry by entry, from the arrays the region is entered with. -/
theorem region0_value (c : Dev nD) (r : Fin 1000000) (j : Fin 128) :
    at2 ((dat0 V c).arrAt 4 cfg0.N) r j
      = (∑ k : Fin 64, at2 (V c main_arg1) r k * at2 (V c main_v9) k j)
        + ∑ k : Fin 128, at2 (V c main_v7) r k * at2 (V c main_v10) k j := by
  show (dat0 V c).arrAt 4 cfg0.N (ix2 r j) = _
  rw [region0_array V c]
  rfl

end Cert.KValue

end
-- ==== Proof.KReg1.lean ====
/-
  The gate as the kernel computes it: each block of 4000 rows is normalised by its gathered scale and shift
  (`x · scale + shift`), split into its core half and its filter half; the filter half's 64 columns are summed against
  the mask weights, `tanh` of that sum multiplies the rectified core half. The blocks tile the array.
-/
import proofs.«173249_j46248207843562_1_alg».proof.Proof.Gen.KernelIdeal.Frame
import proofs.«173249_j46248207843562_1_alg».proof.Proof.LibDot
import proofs.«173249_j46248207843562_1_alg».proof.Proof.Spec
import proofs.«173249_j46248207843562_1_alg».proof.Proof.Arr
import Idealize.ShloMosaic.Lib.Pipeline.Value
import Idealize.ShloMosaic.Lib.ValueIdx
import Idealize.ShloMosaic.Lib.ValueLayout
import Idealize.ShloMosaic.PureOps.Ideal.Laws
set_option maxRecDepth 16384

noncomputable section

namespace Cert.KValue1

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators
open Cert.Arr

/-! ## Two column forms of the layout operations -/

/-- A vector of `a` entries cast to a column `[a, 1]` reads, at `(i, u)`, the vector at `i`. -/
private theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
private theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The body's arithmetic at one entry -/

/-- The body's arithmetic at one entry of its block: `tanh` of the filter half of the normalised row summed against the
    mask weights, times the rectified entry of the core half. -/
private theorem pay_apply (x sc sh : Vec Ideal S4000x128 .f32) (wm : Vec Ideal S1x64 .f32) (p : Fin 4000) (q : Fin 64) :
    k1_pay1 x sc sh wm (ix2 p q)
      = Ideal.tanh (∑ k : Fin 64, (x (ix2 p (Fin.natAdd 64 k)) * sc (ix2 p (Fin.natAdd 64 k)) + sh (ix2 p (Fin.natAdd 64 k))) * wm (ix2 (0 : Fin 1) k))
        * max (x (ix2 p (Fin.castAdd 64 q)) * sc (ix2 p (Fin.castAdd 64 q)) + sh (ix2 p (Fin.castAdd 64 q))) 0 := by
  unfold k1_pay1
  simp only [shapeCast_self]
  rw [mulf_apply, maximumf_apply, broadcast_apply]
  refine congrArg₂ (· * ·) ?_ (congrArg₂ max ?_ Ideal.ofBits_zero_f32)
  · refine (broadcastTo_a1_ab_apply _ _ p q).trans ?_
    show Ideal.tanh (shapeCast S4000x1 _ shapeCasts_S4000_S4000x1 (ix2 p (0 : Fin 1))) = _
    refine congrArg Ideal.tanh ?_
    refine (shapeCast_a_a1_apply _ _ p 0).trans ?_
    refine (Ideal.multiReduction_add_single _ 0x00000000#32 reduces_S4000x64_S4000 _ _ (ix1 p)).trans ?_
    refine Finset.sum_congr rfl fun (k : Fin 64) _ => ?_
    have hl : reduces_S4000x64_S4000.lift (ix1 p) k = ix2 p k := by
      funext a
      match a with
      | ⟨0, _⟩ => rfl
      | ⟨1, _⟩ => rfl
    rw [hl, mulf_apply]
    refine congrArg₂ (· * ·) ?_ (broadcastTo_1b_ab_apply wm _ p k)
    exact slice2_axis1_apply 64 _ _ p k (Fin.natAdd 64 k) rfl
  · exact slice2_axis1_apply 0 _ _ p q (Fin.castAdd 64 q) (Nat.zero_add _).symm

variable (V : (c : Dev nD) → (b : Ref sig .tc) → Buf (Elt Ideal) ((c : Thread nD τ).loc b))

/-! ## From blocks to the array -/

private theorem hz : (![0, 0] : Fin 2 → Nat) = fun _ => 0 :=
  funext fun a => match a with | ⟨0, _⟩ => rfl | ⟨1, _⟩ => rfl

/-- The gate over whole arrays: entry `(r, c)` of the result from the three row-blocked arrays and the mask weights. -/
private def G (x sc sh : S1000000x128.Idx → EReal) (wm : S1x64.Idx → EReal) : S1000000x64.Idx → EReal := fun i =>
  Cert.Spec.gate (fun r' j => at2 x r' j * at2 sc r' j + at2 sh r' j) (fun k => at2 wm (0 : Fin 1) k)
    (i 0 : Fin 1000000) (i 1 : Fin 64)

/-- `G` at an entry whose row is `R` and whose column is `C`, written out. -/
private theorem G_apply (x sc sh : S1000000x128.Idx → EReal) (wm : S1x64.Idx → EReal) (i : S1000000x64.Idx)
    (R : Fin 1000000) (C : Fin 64) (hR : (i 0).val = R.val) (hC : (i 1).val = C.val) :
    G x sc sh wm i
      = Ideal.tanh (∑ k : Fin 64, (x (ix2 R (Fin.natAdd 64 k)) * sc (ix2 R (Fin.natAdd 64 k)) + sh (ix2 R (Fin.natAdd 64 k))) * wm (ix2 (0 : Fin 1) k))
        * max (x (ix2 R (Fin.castAdd 64 C)) * sc (ix2 R (Fin.castAdd 64 C)) + sh (ix2 R (Fin.castAdd 64 C))) 0 := by
  obtain rfl : i = ix2 R C := by
    funext a
    match a with
    | ⟨0, _⟩ => exact Fin.ext hR
    | ⟨1, _⟩ => exact Fin.ext hC
  rfl

/-- The printed index maps over the grid: the three row-blocked inputs and the output sit at block `t` of the rows,
    the mask weights at their one block. -/
private theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row `p` of the block of `x` at point `t` is row `4000 t + p` of `x`. -/
private theorem x_blk (c : Dev nD) (t : Fin cfg1.N) (p : Fin 4000) (j : Fin 128) (R : Fin 1000000) (hR : R.val = t.val * 4000 + p.val) :
    (iblk1 V c 0 t : Vec Ideal S4000x128 .f32) (ix2 p j) = (V c main_v11 : S1000000x128.Idx → EReal) (ix2 R j) := by
  obtain ⟨e0, e1, -⟩ := idx_facts t
  unfold iblk1
  rw [View.read_apply]
  show V c main_v11 _ = V c main_v11 _
  congr 1
  funext a
  apply Fin.ext
  match a with
  | ⟨0, _⟩ => show win1_0.index t (0 : Fin 2) * 4000 + 1 * p.val = R.val; rw [e0, hR]; omega
  | ⟨1, _⟩ => show win1_0.index t (1 : Fin 2) * 128 + 1 * j.val = j.val; rw [e1]; omega

/-- Row `p` of the block of the scale at point `t` is row `4000 t + p` of the scale. -/
private theorem sc_blk (c : Dev nD) (t : Fin cfg1.N) (p : Fin 4000) (j : Fin 128) (R : Fin 1000000) (hR : R.val = t.val * 4000 + p.val) :
    (iblk1 V c 1 t : Vec Ideal S4000x128 .f32) (ix2 p j) = (V c main_v49 : S1000000x128.Idx → EReal) (ix2 R j) := by
  obtain ⟨-, -, e0, e1, -⟩ := idx_facts t
  unfold iblk1
  rw [View.read_apply]
  show V c main_v49 _ = V c main_v49 _
  congr 1
  funext a
  apply Fin.ext
  match a with
  | ⟨0, _⟩ => show win1_1.index t (0 : Fin 2) * 4000 + 1 * p.val = R.val; rw [e0, hR]; omega
  | ⟨1, _⟩ => show win1_1.index t (1 : Fin 2) * 128 + 1 * j.val = j.val; rw [e1]; omega

/-- Row `p` of the block of the shift at point `t` is row `4000 t + p` of the shift. -/
private theorem sh_blk (c : Dev nD) (t : Fin cfg1.N) (p : Fin 4000) (j : Fin 128) (R : Fin 1000000) (hR : R.val = t.val * 4000 + p.val) :
    (iblk1 V c 2 t : Vec Ideal S4000x128 .f32) (ix2 p j) = (V c main_v56 : S1000000x128.Idx → EReal) (ix2 R j) := by
  obtain ⟨-, -, -, -, e0, e1, -⟩ := idx_facts t
  unfold iblk1
  rw [View.read_apply]
  show V c main_v56 _ = V c main_v56 _
  congr 1
  funext a
  apply Fin.ext
  match a with
  | ⟨0, _⟩ => show win1_2.index t (0 : Fin 2) * 4000 + 1 * p.val = R.val; rw [e0, hR]; omega
  | ⟨1, _⟩ => show win1_2.index t (1 : Fin 2) * 128 + 1 * j.val = j.val; rw [e1]; omega

/-- The block of the mask weights at every point is the whole row of weights. -/
private theorem wm_blk (c : Dev nD) (t : Fin cfg1.N) (k : Fin 64) :
    (iblk1 V c 3 t : Vec Ideal S1x64 .f32) (ix2 (0 : Fin 1) k) = (V c main_arg5 : S1x64.Idx → EReal) (ix2 (0 : Fin 1) k) := by
  obtain ⟨-, -, -, -, -, -, e0, e1, -⟩ := idx_facts t
  unfold iblk1
  rw [View.read_apply]
  show V c main_arg5 _ = V c main_arg5 _
  congr 1
  funext a
  apply Fin.ext
  match a with
  | ⟨0, _⟩ => show win1_3.index t (0 : Fin 2) * 1 + 1 * 0 = 0; rw [e0]
  | ⟨1, _⟩ => show win1_3.index t (1 : Fin 2) * 64 + 1 * k.val = k.val; rw [e1]; omega

/-- What point `t` writes back is block `t` of `G` of the arrays the region is entered with. -/
private theorem flushed_eq (c : Dev nD) (t : Fin cfg1.N) :
    (dat1 V c).flushed 4 t
      = ((cfg1.win 4).blk t).view.read (Elt Ideal) (G (V c main_v11) (V c main_v49) (V c main_v56) (V c main_arg5)) := by
  show (cfg1.win 4).cut (grid1.coords t) ((dat1 V c).after 4 t) = _
  rw [after1_4]
  unfold out1_4
  rw [View.canon_unit_zero hz]
  simp only [View.ld_unit_zero (S := S4000x128) hz, View.ld_unit_zero (S := S1x64) hz]
  obtain ⟨-, -, -, -, -, -, -, -, e8, e9⟩ := idx_facts t
  have hN : cfg1.N = 250 := N_1
  funext j
  obtain ⟨p, q, rfl⟩ : ∃ (p : Fin 4000) (q : Fin 64), j = (ix2 p q : S4000x64.Idx) :=
    ⟨j 0, j 1, eq_ix2 (n0 := 4000) (n1 := 64) j⟩
  have hp : p.val < 4000 := p.isLt
  have ht : t.val < 250 := hN ▸ t.isLt
  let R : Fin 1000000 := ⟨t.val * 4000 + p.val, by omega⟩
  show k1_pay1 (iblk1 V c 0 t) (iblk1 V c 1 t) (iblk1 V c 2 t) (iblk1 V c 3 t) (ix2 p q)
    = G (V c main_v11) (V c main_v49) (V c main_v56) (V c main_arg5) (((cfg1.win 4).blk t).view.emb (ix2 p q))
  refine (pay_apply (iblk1 V c 0 t) (iblk1 V c 1 t) (iblk1 V c 2 t) (iblk1 V c 3 t) p q).trans ?_
  refine Eq.trans ?_ (G_apply _ _ _ _ _ R q ?_ ?_).symm
  · refine congrArg₂ (· * ·) (congrArg Ideal.tanh (Finset.sum_congr rfl fun k _ => ?_)) (congrArg₂ max ?_ rfl)
    · exact congrArg₂ (· * ·) (congrArg₂ (· + ·) (congrArg₂ (· * ·) (x_blk V c t p _ R rfl) (sc_blk V c t p _ R rfl)) (sh_blk V c t p _ R rfl)) (wm_blk V c t k)
    · exact congrArg₂ (· + ·) (congrArg₂ (· * ·) (x_blk V c t p _ R rfl) (sc_blk V c t p _ R rfl)) (sh_blk V c t p _ R rfl)
  · show win1_4.index t (0 : Fin 2) * 4000 + 1 * p.val = t.val * 4000 + p.val
    rw [e8]; omega
  · show win1_4.index t (1 : Fin 2) * 64 + 1 * q.val = q.val
    rw [e9]; omega

/-- An entry of the result array lies in point `t`'s block iff each of its coordinates lies in the block's range. -/
private theorem mem_blk (t : Fin cfg1.N) (i : S1000000x64.Idx) :
    i ∈ ((cfg1.win 4).blk t).view.set
      ↔ ∀ a : Fin 2, win1_4.index t a * S4000x64.size a ≤ (i a).val
          ∧ (i a).val < win1_4.index t a * S4000x64.size a + S4000x64.size a := by
  show i ∈ ((View.whole main_v57).slice (win1_4.rect t)).set ↔ _
  rw [View.set_slice_whole, Rect.mem_set_unit]
  exact Iff.rfl

/-- The blocks tile the rows: row `r` lies in block `r / 4000`. -/
private theorem cover (i : S1000000x64.Idx) :
    ∃ t : Fin cfg1.N, (cfg1.win 4).flush t = true ∧ i ∈ ((cfg1.win 4).blk t).view.set := by
  have hN : cfg1.N = 250 := N_1
  have hi0 : (i 0).val < 1000000 := (i 0).isLt
  have hi1 : (i 1).val < 64 := (i 1).isLt
  have hlt : (i 0).val / 4000 < cfg1.N := by rw [hN]; omega
  obtain ⟨-, -, -, -, -, -, -, -, e8, e9⟩ := idx_facts ⟨(i 0).val / 4000, hlt⟩
  refine ⟨⟨(i 0).val / 4000, hlt⟩, flush1_4 _, ?_⟩
  rw [mem_blk]
  intro a
  match a with
  | ⟨0, _⟩ =>
    show win1_4.index ⟨(i 0).val / 4000, hlt⟩ (0 : Fin 2) * 4000 ≤ (i 0).val
      ∧ (i 0).val < win1_4.index ⟨(i 0).val / 4000, hlt⟩ (0 : Fin 2) * 4000 + 4000
    rw [e8]
    show (i 0).val / 4000 * 4000 ≤ (i 0).val ∧ (i 0).val < (i 0).val / 4000 * 4000 + 4000
    omega
  | ⟨1, _⟩ =>
    show win1_4.index ⟨(i 0).val / 4000, hlt⟩ (1 : Fin 2) * 64 ≤ (i 1).val
      ∧ (i 1).val < win1_4.index ⟨(i 0).val / 4000, hlt⟩ (1 : Fin 2) * 64 + 64
    rw [e9]
    omega

/-- So the region's result array is `G` of the arrays it is entered with. -/
private theorem final (c : Dev nD) :
    (dat1 V c).arrAt 4 cfg1.N = G (V c main_v11) (V c main_v49) (V c main_v56) (V c main_arg5) :=
  (dat1 V c).arrAt_eq_of_cover 4 (G (V c main_v11) (V c main_v49) (V c main_v56) (V c main_arg5))
    (fun t _ => flushed_eq V c t) cover

/-- REGION 1's result array, entry by entry, from the arrays the region is entered with. -/
theorem region1_value (c : Dev nD) (r : Fin 1000000) (c' : Fin 64) :
    at2 ((dat1 V c).arrAt 4 cfg1.N) r c'
      = Cert.Spec.gate
          (fun r' j => at2 (V c main_v11) r' j * at2 (V c main_v49) r' j
                        + at2 (V c main_v56) r' j)
          (fun k => at2 (V c main_arg5) (0 : Fin 1) k) r c' := by
  show (dat1 V c).arrAt 4 cfg1.N (ix2 r c') = _
  rw [final V c]
  rfl

end Cert.KValue1

end
-- ==== Proof.KReg2.lean ====
/-
  The residual blocks as the kernel computes them: each block of 4000 rows is normalised by its gathered scale and
  shift, passed through `x + relu(x W₁ + b₁) W₂ + b₂` twice (the weights arrive transposed, the biases as one-row
  arrays), added to the rows' own features, rectified and scaled. The blocks tile the array.
-/
import proofs.«173249_j46248207843562_1_alg».proof.Proof.Gen.KernelIdeal.Frame
import proofs.«173249_j46248207843562_1_alg».proof.Proof.LibDot
import proofs.«173249_j46248207843562_1_alg».proof.Proof.Spec
import proofs.«173249_j46248207843562_1_alg».proof.Proof.Arr
import Idealize.ShloMosaic.Lib.Pipeline.Value
import Idealize.ShloMosaic.Lib.ValueIdx
import Idealize.ShloMosaic.Lib.ValueLayout
import Idealize.ShloMosaic.PureOps.Ideal.Laws
set_option maxRecDepth 16384

noncomputable section

namespace Cert.KValue2

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators
open Cert.Arr

variable (V : (c : Dev nD) → (b : Ref sig .tc) → Buf (Elt Ideal) ((c : Thread nD τ).loc b))

/-- The final scale `1/√2` rounded to single precision, as the program's literal. -/
abbrev c2C : EReal := Ideal.ofBits .f32 0x3F3504F3#32

/-! ### The body's arithmetic, entry by entry -/

/-- The printed record of a `4000 × 64` by `64 × 32` product is the plain one. -/
theorem dot_in_eq : dot_S4000x64_S64x32_S4000x32_1_0_0_1_n_n = DotDims.plain 4000 64 32 := rfl

/-- The printed record of a `4000 × 32` by `32 × 64` product is the plain one. -/
theorem dot_out_eq : dot_S4000x32_S32x64_S4000x64_1_0_0_1_n_n = DotDims.plain 4000 32 64 := rfl

/-- A product of a block of rows into 32 hidden units, read at an entry. -/
theorem matmul_in_apply (l : FVec Ideal S4000x64 .bf16) (r : FVec Ideal S64x32 .bf16) (p : Fin 4000) (j : Fin 32) :
    matmul dot_S4000x64_S64x32_S4000x32_1_0_0_1_n_n none l r (constant S4000x32 .f32 0x00000000#32) (ix2 p j)
      = ∑ k : Fin 64, l (ix2 p k) * r (ix2 k j) := by
  rw [dot_in_eq]
  exact Cert.GNN.matmul_plain_zero_apply none l r p j

/-- A product of a block of hidden rows back into 64 features, read at an entry. -/
theorem matmul_out_apply (l : FVec Ideal S4000x32 .bf16) (r : FVec Ideal S32x64 .bf16) (p : Fin 4000) (q : Fin 64) :
    matmul dot_S4000x32_S32x64_S4000x64_1_0_0_1_n_n none l r (constant S4000x64 .f32 0x00000000#32) (ix2 p q)
      = ∑ j : Fin 32, l (ix2 p j) * r (ix2 j q) := by
  rw [dot_out_eq]
  exact Cert.GNN.matmul_plain_zero_apply none l r p q

/-- One residual block `x + relu(x W₁ + b₁) W₂ + b₂` of a row, with the weights as they arrive. -/
def resid (x : Fin 64 → EReal) (W1 : Fin 64 → Fin 32 → EReal) (b1 : Fin 32 → EReal) (W2 : Fin 32 → Fin 64 → EReal)
    (b2 : Fin 64 → EReal) (q : Fin 64) : EReal :=
  (x q + ∑ j : Fin 32, max ((∑ k : Fin 64, x k * W1 k j) + b1 j) 0 * W2 j q) + b2 q

/-- The first residual block of the normalised rows, at an entry of the block. -/
theorem pay2_apply (s sc sh : Vec Ideal S4000x64 .f32) (w1 : Vec Ideal S64x32 .f32) (b1 : Vec Ideal S1x32 .f32)
    (w2 : Vec Ideal S32x64 .f32) (b2 : Vec Ideal S1x64 .f32) (p : Fin 4000) (q : Fin 64) :
    k2_pay2 s sc sh w1 b1 w2 b2 (ix2 p q)
      = resid (fun k => s (ix2 p k) * sc (ix2 p k) + sh (ix2 p k)) (fun k j => w1 (ix2 k j)) (fun j => b1 (ix2 (0 : Fin 1) j))
          (fun j k => w2 (ix2 j k)) (fun k => b2 (ix2 (0 : Fin 1) k)) q := by
  unfold k2_pay2 resid
  simp only [shapeCast_self]
  rw [addf_apply, addf_apply, broadcastTo_1b_ab_apply, matmul_out_apply]
  refine congrArg (· + _) (congrArg (_ + ·) (Finset.sum_congr rfl fun j _ => ?_))
  rw [truncf_apply, truncf_apply, maximumf_apply, addf_apply, broadcastTo_1b_ab_apply, broadcast_apply, matmul_in_apply]
  show max _ (Ideal.ofBits .f32 0x00000000#32) * _ = _
  rw [Ideal.ofBits_zero_f32]
  rfl

/-- The second block's hidden product, at an entry: the first block's rows against the second input weights. -/
theorem pay3_apply (s sc sh : Vec Ideal S4000x64 .f32) (w1 : Vec Ideal S64x32 .f32) (b1 : Vec Ideal S1x32 .f32)
    (w2 : Vec Ideal S32x64 .f32) (b2 : Vec Ideal S1x64 .f32) (w3 : Vec Ideal S64x32 .f32) (p : Fin 4000) (j : Fin 32) :
    k2_pay3 s sc sh w1 b1 w2 b2 w3 (ix2 p j)
      = ∑ k : Fin 64, k2_pay2 s sc sh w1 b1 w2 b2 (ix2 p k) * w3 (ix2 k j) := by
  unfold k2_pay3
  simp only [shapeCast_self]
  rw [matmul_in_apply]
  rfl

/-- The second block's hidden bias, one row over the block. -/
theorem pay4_apply (b3 : Vec Ideal S1x32 .f32) (p : Fin 4000) (j : Fin 32) :
    k2_pay4 b3 (ix2 p j) = b3 (ix2 (0 : Fin 1) j) := by
  unfold k2_pay4
  simp only [shapeCast_self]
  exact broadcastTo_1b_ab_apply _ _ p j

/-- The last stage at an entry: the second residual block from its hidden product and bias, added to the rows' own
    features, rectified and scaled. -/
theorem pay1_apply (x1 : FVec Ideal S4000x64 .f32) (h : FVec Ideal S4000x32 .f32) (hb : FVec Ideal S4000x32 .f32)
    (w4 : Vec Ideal S32x64 .f32) (b4 : Vec Ideal S1x64 .f32) (a : Vec Ideal S4000x64 .f32) (p : Fin 4000) (q : Fin 64) :
    k2_pay1 x1 h hb w4 b4 a (ix2 p q)
      = c2C * max (a (ix2 p q)
          + ((x1 (ix2 p q) + ∑ j : Fin 32, max (h (ix2 p j) + hb (ix2 p j)) 0 * w4 (ix2 j q)) + b4 (ix2 (0 : Fin 1) q))) 0 := by
  unfold k2_pay1
  simp only [shapeCast_self]
  rw [mulf_apply, broadcast_apply, maximumf_apply, broadcast_apply, addf_apply, addf_apply, addf_apply,
    broadcastTo_1b_ab_apply, matmul_out_apply]
  show Ideal.ofBits .f32 0x3F3504F3#32 * max _ (Ideal.ofBits .f32 0x00000000#32) = _
  rw [Ideal.ofBits_zero_f32]
  refine congrArg (fun z => c2C * max (_ + ((_ + z) + _)) 0) (Finset.sum_congr rfl fun j _ => ?_)
  rw [truncf_apply, truncf_apply, maximumf_apply, addf_apply, broadcast_apply]
  show max _ (Ideal.ofBits .f32 0x00000000#32) * _ = _
  rw [Ideal.ofBits_zero_f32]

/-! ### From the blocks to the array -/

theorem hz : (![0, 0] : Fin 2 → Nat) = fun _ => 0 := funext fun a => by fin_cases a <;> rfl

/-- The printed index maps, decided once over the grid: the four row inputs and the output sit at block `t` of the
    rows. -/
theorem idx_facts : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = t.val ∧ win2_3.index t (1 : Fin 2) = 0)
    ∧ (win2_12.index t (0 : Fin 2) = t.val ∧ win2_12.index t (1 : Fin 2) = 0) :=
  (by decide +kernel : ∀ t : Fin grid2.N, _)

/-- The weights and the biases sit at their one block, at every point. -/
theorem idx_consts : ∀ t : Fin cfg2.N,
    (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0)
    ∧ (win2_8.index t (0 : Fin 2) = 0 ∧ win2_8.index t (1 : Fin 2) = 0)
    ∧ (win2_9.index t (0 : Fin 2) = 0 ∧ win2_9.index t (1 : Fin 2) = 0)
    ∧ (win2_10.index t (0 : Fin 2) = 0 ∧ win2_10.index t (1 : Fin 2) = 0)
    ∧ (win2_11.index t (0 : Fin 2) = 0 ∧ win2_11.index t (1 : Fin 2) = 0) :=
  (by decide +kernel : ∀ t : Fin grid2.N, _)

/-- Block `t` of the rows `s`, at row `p` of the block, is row `4000 t + p` of the array. -/
theorem blk0_apply (c : Dev nD) (t : Fin cfg2.N) (p : Fin 4000) (k : Fin 64) (r : Fin 1000000)
    (hr : r.val = t.val * 4000 + p.val) :
    (iblk2 V c 0 t : Vec Ideal S4000x64 .f32) (ix2 p k) = at2 (V c main_v57) r k := by
  obtain ⟨e0, e1, e2, e3, e12⟩ := idx_facts t
  unfold iblk2
  rw [View.read_apply]
  show (V c main_v57 : S1000000x64.Idx → EReal) _ = (V c main_v57 : S1000000x64.Idx → EReal) _
  refine congrArg (V c main_v57 : S1000000x64.Idx → EReal) (funext fun a => Fin.ext ?_)
  match a with
  | ⟨0, _⟩ => show win2_0.index t (0 : Fin 2) * 4000 + 1 * p.val = r.val; omega
  | ⟨1, _⟩ => show win2_0.index t (1 : Fin 2) * 64 + 1 * k.val = k.val; omega

/-- Block `t` of the gathered scales, at row `p` of the block, is row `4000 t + p` of the array. -/
theorem blk1_apply (c : Dev nD) (t : Fin cfg2.N) (p : Fin 4000) (k : Fin 64) (r : Fin 1000000)
    (hr : r.val = t.val * 4000 + p.val) :
    (iblk2 V c 1 t : Vec Ideal S4000x64 .f32) (ix2 p k) = at2 (V c main_v95) r k := by
  obtain ⟨e0, e1, e2, e3, e12⟩ := idx_facts t
  unfold iblk2
  rw [View.read_apply]
  show (V c main_v95 : S1000000x64.Idx → EReal) _ = (V c main_v95 : S1000000x64.Idx → EReal) _
  refine congrArg (V c main_v95 : S1000000x64.Idx → EReal) (funext fun a => Fin.ext ?_)
  match a with
  | ⟨0, _⟩ => show win2_1.index t (0 : Fin 2) * 4000 + 1 * p.val = r.val; omega
  | ⟨1, _⟩ => show win2_1.index t (1 : Fin 2) * 64 + 1 * k.val = k.val; omega

/-- Block `t` of the gathered shifts, at row `p` of the block, is row `4000 t + p` of the array. -/
theorem blk2_apply (c : Dev nD) (t : Fin cfg2.N) (p : Fin 4000) (k : Fin 64) (r : Fin 1000000)
    (hr : r.val = t.val * 4000 + p.val) :
    (iblk2 V c 2 t : Vec Ideal S4000x64 .f32) (ix2 p k) = at2 (V c main_v102) r k := by
  obtain ⟨e0, e1, e2, e3, e12⟩ := idx_facts t
  unfold iblk2
  rw [View.read_apply]
  show (V c main_v102 : S1000000x64.Idx → EReal) _ = (V c main_v102 : S1000000x64.Idx → EReal) _
  refine congrArg (V c main_v102 : S1000000x64.Idx → EReal) (funext fun a => Fin.ext ?_)
  match a with
  | ⟨0, _⟩ => show win2_2.index t (0 : Fin 2) * 4000 + 1 * p.val = r.val; omega
  | ⟨1, _⟩ => show win2_2.index t (1 : Fin 2) * 64 + 1 * k.val = k.val; omega

/-- Block `t` of the rows' own features, at row `p` of the block, is row `4000 t + p` of the array. -/
theorem blk3_apply (c : Dev nD) (t : Fin cfg2.N) (p : Fin 4000) (k : Fin 64) (r : Fin 1000000)
    (hr : r.val = t.val * 4000 + p.val) :
    (iblk2 V c 3 t : Vec Ideal S4000x64 .f32) (ix2 p k) = at2 (V c main_arg1) r k := by
  obtain ⟨e0, e1, e2, e3, e12⟩ := idx_facts t
  unfold iblk2
  rw [View.read_apply]
  show (V c main_arg1 : S1000000x64.Idx → EReal) _ = (V c main_arg1 : S1000000x64.Idx → EReal) _
  refine congrArg (V c main_arg1 : S1000000x64.Idx → EReal) (funext fun a => Fin.ext ?_)
  match a with
  | ⟨0, _⟩ => show win2_3.index t (0 : Fin 2) * 4000 + 1 * p.val = r.val; omega
  | ⟨1, _⟩ => show win2_3.index t (1 : Fin 2) * 64 + 1 * k.val = k.val; omega

/-- The one block of the first input weights is the whole array. -/
theorem blk4_apply (c : Dev nD) (t : Fin cfg2.N) (a : Fin 64) (b : Fin 32) :
    (iblk2 V c 4 t : Vec Ideal S64x32 .f32) (ix2 a b) = at2 (V c main_v103) a b := by
  obtain ⟨e4, e5, e6, e7, e8, e9, e10, e11⟩ := idx_consts t
  unfold iblk2
  rw [View.read_apply]
  show (V c main_v103 : S64x32.Idx → EReal) _ = (V c main_v103 : S64x32.Idx → EReal) _
  refine congrArg (V c main_v103 : S64x32.Idx → EReal) (funext fun d => Fin.ext ?_)
  match d with
  | ⟨0, _⟩ => show win2_4.index t (0 : Fin 2) * 64 + 1 * a.val = a.val; omega
  | ⟨1, _⟩ => show win2_4.index t (1 : Fin 2) * 32 + 1 * b.val = b.val; omega

/-- The one block of the first hidden bias is the whole array. -/
theorem blk5_apply (c : Dev nD) (t : Fin cfg2.N) (a : Fin 1) (b : Fin 32) :
    (iblk2 V c 5 t : Vec Ideal S1x32 .f32) (ix2 a b) = at2 (V c main_v107) a b := by
  obtain ⟨e4, e5, e6, e7, e8, e9, e10, e11⟩ := idx_consts t
  unfold iblk2
  rw [View.read_apply]
  show (V c main_v107 : S1x32.Idx → EReal) _ = (V c main_v107 : S1x32.Idx → EReal) _
  refine congrArg (V c main_v107 : S1x32.Idx → EReal) (funext fun d => Fin.ext ?_)
  match d with
  | ⟨0, _⟩ => show win2_5.index t (0 : Fin 2) * 1 + 1 * a.val = a.val; omega
  | ⟨1, _⟩ => show win2_5.index t (1 : Fin 2) * 32 + 1 * b.val = b.val; omega

/-- The one block of the first output weights is the whole array. -/
theorem blk6_apply (c : Dev nD) (t : Fin cfg2.N) (a : Fin 32) (b : Fin 64) :
    (iblk2 V c 6 t : Vec Ideal S32x64 .f32) (ix2 a b) = at2 (V c main_v104) a b := by
  obtain ⟨e4, e5, e6, e7, e8, e9, e10, e11⟩ := idx_consts t
  unfold iblk2
  rw [View.read_apply]
  show (V c main_v104 : S32x64.Idx → EReal) _ = (V c main_v104 : S32x64.Idx → EReal) _
  refine congrArg (V c main_v104 : S32x64.Idx → EReal) (funext fun d => Fin.ext ?_)
  match d with
  | ⟨0, _⟩ => show win2_6.index t (0 : Fin 2) * 32 + 1 * a.val = a.val; omega
  | ⟨1, _⟩ => show win2_6.index t (1 : Fin 2) * 64 + 1 * b.val = b.val; omega

/-- The one block of the first output bias is the whole array. -/
theorem blk7_apply (c : Dev nD) (t : Fin cfg2.N) (a : Fin 1) (b : Fin 64) :
    (iblk2 V c 7 t : Vec Ideal S1x64 .f32) (ix2 a b) = at2 (V c main_v108) a b := by
  obtain ⟨e4, e5, e6, e7, e8, e9, e10, e11⟩ := idx_consts t
  unfold iblk2
  rw [View.read_apply]
  show (V c main_v108 : S1x64.Idx → EReal) _ = (V c main_v108 : S1x64.Idx → EReal) _
  refine congrArg (V c main_v108 : S1x64.Idx → EReal) (funext fun d => Fin.ext ?_)
  match d with
  | ⟨0, _⟩ => show win2_7.index t (0 : Fin 2) * 1 + 1 * a.val = a.val; omega
  | ⟨1, _⟩ => show win2_7.index t (1 : Fin 2) * 64 + 1 * b.val = b.val; omega

/-- The one block of the second input weights is the whole array. -/
theorem blk8_apply (c : Dev nD) (t : Fin cfg2.N) (a : Fin 64) (b : Fin 32) :
    (iblk2 V c 8 t : Vec Ideal S64x32 .f32) (ix2 a b) = at2 (V c main_v105) a b := by
  obtain ⟨e4, e5, e6, e7, e8, e9, e10, e11⟩ := idx_consts t
  unfold iblk2
  rw [View.read_apply]
  show (V c main_v105 : S64x32.Idx → EReal) _ = (V c main_v105 : S64x32.Idx → EReal) _
  refine congrArg (V c main_v105 : S64x32.Idx → EReal) (funext fun d => Fin.ext ?_)
  match d with
  | ⟨0, _⟩ => show win2_8.index t (0 : Fin 2) * 64 + 1 * a.val = a.val; omega
  | ⟨1, _⟩ => show win2_8.index t (1 : Fin 2) * 32 + 1 * b.val = b.val; omega

/-- The one block of the second hidden bias is the whole array. -/
theorem blk9_apply (c : Dev nD) (t : Fin cfg2.N) (a : Fin 1) (b : Fin 32) :
    (iblk2 V c 9 t : Vec Ideal S1x32 .f32) (ix2 a b) = at2 (V c main_v109) a b := by
  obtain ⟨e4, e5, e6, e7, e8, e9, e10, e11⟩ := idx_consts t
  unfold iblk2
  rw [View.read_apply]
  show (V c main_v109 : S1x32.Idx → EReal) _ = (V c main_v109 : S1x32.Idx → EReal) _
  refine congrArg (V c main_v109 : S1x32.Idx → EReal) (funext fun d => Fin.ext ?_)
  match d with
  | ⟨0, _⟩ => show win2_9.index t (0 : Fin 2) * 1 + 1 * a.val = a.val; omega
  | ⟨1, _⟩ => show win2_9.index t (1 : Fin 2) * 32 + 1 * b.val = b.val; omega

/-- The one block of the second output weights is the whole array. -/
theorem blk10_apply (c : Dev nD) (t : Fin cfg2.N) (a : Fin 32) (b : Fin 64) :
    (iblk2 V c 10 t : Vec Ideal S32x64 .f32) (ix2 a b) = at2 (V c main_v106) a b := by
  obtain ⟨e4, e5, e6, e7, e8, e9, e10, e11⟩ := idx_consts t
  unfold iblk2
  rw [View.read_apply]
  show (V c main_v106 : S32x64.Idx → EReal) _ = (V c main_v106 : S32x64.Idx → EReal) _
  refine congrArg (V c main_v106 : S32x64.Idx → EReal) (funext fun d => Fin.ext ?_)
  match d with
  | ⟨0, _⟩ => show win2_10.index t (0 : Fin 2) * 32 + 1 * a.val = a.val; omega
  | ⟨1, _⟩ => show win2_10.index t (1 : Fin 2) * 64 + 1 * b.val = b.val; omega

/-- The one block of the second output bias is the whole array. -/
theorem blk11_apply (c : Dev nD) (t : Fin cfg2.N) (a : Fin 1) (b : Fin 64) :
    (iblk2 V c 11 t : Vec Ideal S1x64 .f32) (ix2 a b) = at2 (V c main_v110) a b := by
  obtain ⟨e4, e5, e6, e7, e8, e9, e10, e11⟩ := idx_consts t
  unfold iblk2
  rw [View.read_apply]
  show (V c main_v110 : S1x64.Idx → EReal) _ = (V c main_v110 : S1x64.Idx → EReal) _
  refine congrArg (V c main_v110 : S1x64.Idx → EReal) (funext fun d => Fin.ext ?_)
  match d with
  | ⟨0, _⟩ => show win2_11.index t (0 : Fin 2) * 1 + 1 * a.val = a.val; omega
  | ⟨1, _⟩ => show win2_11.index t (1 : Fin 2) * 64 + 1 * b.val = b.val; omega

/-! ### The body of a block as the network's rows -/

/-- The network at a row reads that row only: two settings that agree on the row, the weights and the biases give
    the same entry. -/
theorem mlp_congr {R R' : ℕ} (c2 : EReal) (x a : Fin R → Fin 64 → EReal) (x' a' : Fin R' → Fin 64 → EReal)
    (W1 W1' : Fin 64 → Fin 32 → EReal) (b1 b1' : Fin 32 → EReal) (W2 W2' : Fin 32 → Fin 64 → EReal) (b2 b2' : Fin 64 → EReal)
    (W3 W3' : Fin 64 → Fin 32 → EReal) (b3 b3' : Fin 32 → EReal) (W4 W4' : Fin 32 → Fin 64 → EReal) (b4 b4' : Fin 64 → EReal)
    (r : Fin R) (r' : Fin R') (q : Fin 64) (hx : ∀ k, x r k = x' r' k) (ha : ∀ k, a r k = a' r' k)
    (h1 : ∀ k j, W1 k j = W1' k j) (hb1 : ∀ j, b1 j = b1' j) (h2 : ∀ j k, W2 j k = W2' j k) (hb2 : ∀ k, b2 k = b2' k)
    (h3 : ∀ k j, W3 k j = W3' k j) (hb3 : ∀ j, b3 j = b3' j) (h4 : ∀ j k, W4 j k = W4' j k) (hb4 : ∀ k, b4 k = b4' k) :
    Cert.Spec.mlp c2 x a W1 b1 W2 b2 W3 b3 W4 b4 r q = Cert.Spec.mlp c2 x' a' W1' b1' W2' b2' W3' b3' W4' b4' r' q := by
  obtain rfl : W1 = W1' := funext fun k => funext fun j => h1 k j
  obtain rfl : b1 = b1' := funext hb1
  obtain rfl : W2 = W2' := funext fun j => funext fun k => h2 j k
  obtain rfl : b2 = b2' := funext hb2
  obtain rfl : W3 = W3' := funext fun k => funext fun j => h3 k j
  obtain rfl : b3 = b3' := funext hb3
  obtain rfl : W4 = W4' := funext fun j => funext fun k => h4 j k
  obtain rfl : b4 = b4' := funext hb4
  unfold Cert.Spec.mlp
  simp only [hx, ha]

/-- The body's result block is the network over the block's own rows. -/
theorem body_apply (x0 x1 x2 x3 : Vec Ideal S4000x64 .f32) (x4 : Vec Ideal S64x32 .f32) (x5 : Vec Ideal S1x32 .f32)
    (x6 : Vec Ideal S32x64 .f32) (x7 : Vec Ideal S1x64 .f32) (x8 : Vec Ideal S64x32 .f32) (x9 : Vec Ideal S1x32 .f32)
    (x10 : Vec Ideal S32x64 .f32) (x11 : Vec Ideal S1x64 .f32) (p : Fin 4000) (q : Fin 64) :
    k2_pay1 (k2_pay2 x0 x1 x2 x4 x5 x6 x7) (k2_pay3 x0 x1 x2 x4 x5 x6 x7 x8) (k2_pay4 x9) x10 x11 x3 (ix2 p q)
      = Cert.Spec.mlp c2C (fun r k => x0 (ix2 r k) * x1 (ix2 r k) + x2 (ix2 r k)) (fun r k => x3 (ix2 r k))
          (fun k j => x4 (ix2 k j)) (fun j => x5 (ix2 (0 : Fin 1) j)) (fun j k => x6 (ix2 j k)) (fun k => x7 (ix2 (0 : Fin 1) k))
          (fun k j => x8 (ix2 k j)) (fun j => x9 (ix2 (0 : Fin 1) j)) (fun j k => x10 (ix2 j k)) (fun k => x11 (ix2 (0 : Fin 1) k))
          p q := by
  rw [pay1_apply]
  simp only [pay3_apply, pay4_apply, pay2_apply]
  rfl

/-! ### The array -/

/-- The region's result array as one function of the arrays the region is entered with: the network at each row. -/
def G (c : Dev nD) : S1000000x64.Idx → EReal := fun i =>
  Cert.Spec.mlp c2C
    (fun r' k => at2 (V c main_v57) r' k * at2 (V c main_v95) r' k + at2 (V c main_v102) r' k)
    (fun r' k => at2 (V c main_arg1) r' k)
    (fun k j => at2 (V c main_v103) k j) (fun j => at2 (V c main_v107) (0 : Fin 1) j)
    (fun j k => at2 (V c main_v104) j k) (fun k => at2 (V c main_v108) (0 : Fin 1) k)
    (fun k j => at2 (V c main_v105) k j) (fun j => at2 (V c main_v109) (0 : Fin 1) j)
    (fun j k => at2 (V c main_v106) j k) (fun k => at2 (V c main_v110) (0 : Fin 1) k)
    (i 0) (i 1)

/-- What point `t` writes back is block `t` of that function. -/
theorem flushed_eq (c : Dev nD) (t : Fin cfg2.N) :
    (dat2 V c).flushed 12 t = ((cfg2.win 12).blk t).view.read (Elt Ideal) (G V c) := by
  show (cfg2.win 12).cut (grid2.coords t) ((dat2 V c).after 12 t) = _
  rw [after2_12]
  unfold out2_12
  rw [View.canon_unit_zero hz]
  simp only [View.ld_unit_zero (S := S4000x64) hz, View.ld_unit_zero (S := S64x32) hz, View.ld_unit_zero (S := S1x32) hz,
    View.ld_unit_zero (S := S32x64) hz, View.ld_unit_zero (S := S1x64) hz]
  obtain ⟨-, -, -, -, e0, e1⟩ := idx_facts t
  funext j
  obtain ⟨p, q, rfl⟩ : ∃ (p : Fin 4000) (q : Fin 64), j = ix2 p q := ⟨j 0, j 1, eq_ix2 j⟩
  have hN : cfg2.N = 250 := N_2
  have hr : t.val * 4000 + p.val < 1000000 := by have := t.isLt; have := p.isLt; omega
  have hi : ((cfg2.win 12).blk t).view.emb (ix2 p q) = ix2 (⟨t.val * 4000 + p.val, hr⟩ : Fin 1000000) q := by
    funext a; apply Fin.ext
    match a with
    | ⟨0, _⟩ => show win2_12.index t (0 : Fin 2) * 4000 + 1 * p.val = t.val * 4000 + p.val; omega
    | ⟨1, _⟩ => show win2_12.index t (1 : Fin 2) * 64 + 1 * q.val = q.val; omega
  show k2_pay1 (F := Ideal) _ _ _ _ _ _ (ix2 p q) = G V c (((cfg2.win 12).blk t).view.emb (ix2 p q))
  rw [hi]
  refine (body_apply _ _ _ _ _ _ _ _ _ _ _ _ p q).trans ?_
  exact mlp_congr c2C _ _ _ _ _ _ _ _ _ _ _ _ _ _ _ _ _ _ _ _ p (⟨t.val * 4000 + p.val, hr⟩ : Fin 1000000) q
    (fun k => congrArg₂ (· + ·) (congrArg₂ (· * ·) (blk0_apply V c t p k _ rfl) (blk1_apply V c t p k _ rfl)) (blk2_apply V c t p k _ rfl))
    (fun k => blk3_apply V c t p k _ rfl)
    (fun k j => blk4_apply V c t k j) (fun j => blk5_apply V c t 0 j)
    (fun j k => blk6_apply V c t j k) (fun k => blk7_apply V c t 0 k)
    (fun k j => blk8_apply V c t k j) (fun j => blk9_apply V c t 0 j)
    (fun j k => blk10_apply V c t j k) (fun k => blk11_apply V c t 0 k)

/-- A row lies in a point's block exactly when it is one of the block's 4000 rows. -/
theorem mem_blk (t : Fin cfg2.N) (i : S1000000x64.Idx) :
    i ∈ ((cfg2.win 12).blk t).view.set ↔ ∀ a : Fin 2, win2_12.index t a * S4000x64.size a ≤ (i a).val
      ∧ (i a).val < win2_12.index t a * S4000x64.size a + S4000x64.size a := by
  show i ∈ ((View.whole main_v111).slice (win2_12.rect t)).set ↔ _
  rw [View.set_slice_whole, Rect.mem_set_unit]
  exact Iff.rfl

/-- The blocks tile the array: row `r` lies in block `r / 4000`. -/
theorem cover (i : S1000000x64.Idx) :
    ∃ t : Fin cfg2.N, (cfg2.win 12).flush t = true ∧ i ∈ ((cfg2.win 12).blk t).view.set := by
  have hi0 : (i 0).val < 1000000 := (i 0).isLt
  have hi1 : (i 1).val < 64 := (i 1).isLt
  have hN : cfg2.N = 250 := N_2
  obtain ⟨t, ht⟩ : ∃ t : Fin cfg2.N, t.val = (i 0).val / 4000 := ⟨⟨(i 0).val / 4000, by rw [hN]; omega⟩, rfl⟩
  obtain ⟨-, -, -, -, e0, e1⟩ := idx_facts t
  refine ⟨t, flush2_12 t, ?_⟩
  rw [mem_blk]
  intro a
  match a with
  | ⟨0, _⟩ =>
    show win2_12.index t (0 : Fin 2) * 4000 ≤ (i 0).val ∧ (i 0).val < win2_12.index t (0 : Fin 2) * 4000 + 4000
    omega
  | ⟨1, _⟩ =>
    show win2_12.index t (1 : Fin 2) * 64 ≤ (i 1).val ∧ (i 1).val < win2_12.index t (1 : Fin 2) * 64 + 64
    omega

/-- The array after the region is that function. -/
theorem final (c : Dev nD) : (dat2 V c).arrAt 12 cfg2.N = G V c :=
  (dat2 V c).arrAt_eq_of_cover 12 (G V c) (fun t _ => flushed_eq V c t) cover

/-- REGION 2's result array, entry by entry, from the arrays the region is entered with. -/
theorem region2_value (c : Dev nD) (r : Fin 1000000) (c' : Fin 64) :
    at2 ((dat2 V c).arrAt 12 cfg2.N) r c'
      = Cert.Spec.mlp c2C
          (fun r' k => at2 (V c main_v57) r' k * at2 (V c main_v95) r' k
                        + at2 (V c main_v102) r' k)
          (fun r' k => at2 (V c main_arg1) r' k)
          (fun k j => at2 (V c main_v103) k j) (fun j => at2 (V c main_v107) (0 : Fin 1) j)
          (fun j k => at2 (V c main_v104) j k) (fun k => at2 (V c main_v108) (0 : Fin 1) k)
          (fun k j => at2 (V c main_v105) k j) (fun j => at2 (V c main_v109) (0 : Fin 1) j)
          (fun j k => at2 (V c main_v106) j k) (fun k => at2 (V c main_v110) (0 : Fin 1) k)
          r c' := by
  show (dat2 V c).arrAt 12 cfg2.N (ix2 r c') = _
  rw [final V c]
  rfl

end Cert.KValue2

end
-- ==== Proof.SegLib.lean ====
/-
  Segment sums and segment reads, at the ideal values.

  A table with `K` rows of width `W` is built from `R` rows by adding each row into the table row its id names
  (an id outside `0 … K-1` adds nowhere), and is read back row by row at the id moved into range: a negative id is
  first moved up by `K`, and the result is clamped into `0 … K-1`. Both operations are read here at one entry.
-/
import Idealize.ShloMosaic.PureOps.Ideal.Laws
import Idealize.ShloMosaic.Lib.ValueIdx

noncomputable section

namespace Cert.SegLib

open Idealize.ShloMosaic Idealize.ShloMosaic.ValueIdx
open scoped BigOperators

variable {K W R : ℕ}

/-- The signed id of row `r`. -/
def segZ (s : IVec ⟨1, ![R]⟩ 32) (r : Fin R) : ℤ := (s (ix1 r)).toInt

/-- An id with a negative one moved up by `kw` (the table's height as a word). -/
def normId (kw v : BitVec 32) : BitVec 32 := Scalar.select (IntOp.cmpi .slt v 0#32) (IntOp.addi v kw) v

/-- The table row that row `r` reads: its id moved up if negative, then clamped into `0 … K-1`. -/
def gatOf (K : ℕ) (hK : 0 < K) (s : IVec ⟨1, ![R]⟩ 32) (r : Fin R) : Fin K :=
  ⟨min (normId (BitVec.ofNat 32 K) (s (ix1 r))).toInt.toNat (K - 1), by omega⟩

/-- A row counted in segment `k` reads the tables at row `k`. -/
theorem gatOf_of_segZ (hK : 0 < K) (hK2 : K < 2 ^ 31) (s : IVec ⟨1, ![R]⟩ 32) (r : Fin R) (k : Fin K)
    (h : segZ s r = (k.val : ℤ)) : gatOf K hK s r = k := by
  apply Fin.ext
  show min (normId (BitVec.ofNat 32 K) (s (ix1 r))).toInt.toNat (K - 1) = k.val
  unfold segZ at h
  have hk := k.isLt
  have hnn : (s (ix1 r)).slt 0#32 = false := by
    rw [BitVec.slt_eq_decide, BitVec.toInt_zero, h]
    exact decide_eq_false (by omega)
  have hn : normId (BitVec.ofNat 32 K) (s (ix1 r)) = s (ix1 r) := by
    unfold normId
    have hc : IntOp.cmpi .slt (s (ix1 r)) 0#32 = 0#1 := by
      show BitVec.ofBool ((s (ix1 r)).slt 0#32) = 0#1
      rw [hnn]; rfl
    rw [hc, select_zero]
  rw [hn, h, Int.toNat_natCast]
  omega

/-- The accumulating scatter's dimension numbers: row `r` of the updates lands on the table row its id names. -/
abbrev segScatter (K W R : ℕ) (wf : ScatterDims.WF ⟨2, ![K, W]⟩ ⟨2, ![R, 1]⟩ ⟨2, ![R, W]⟩ [1] [0] [0] 1) :
    ScatterDims ⟨2, ![K, W]⟩ ⟨2, ![R, 1]⟩ ⟨2, ![R, W]⟩ where
  updateWindowDims := [1]
  insertedWindowDims := [0]
  scatterDimsToOperandDims := [0]
  indexVectorDim := 1
  wf := wf

/-- On the table's row axis the window of update `(r, c')` starts at the signed id of row `r`. -/
private theorem segScatter_start0 (wf : ScatterDims.WF ⟨2, ![K, W]⟩ ⟨2, ![R, 1]⟩ ⟨2, ![R, W]⟩ [1] [0] [0] 1)
    (idx : IVec ⟨2, ![R, 1]⟩ 32) (r : Fin R) (c' : Fin W) :
    (segScatter K W R wf).start (ix2 r c') idx 0 = (idx (ix2 r (0 : Fin 1))).toInt := by
  unfold ScatterDims.start
  rw [dif_pos (show (0 : Fin 2) ∈ (segScatter K W R wf).scatterDimsToOperandDims from List.mem_singleton.mpr rfl)]
  have hsi : (segScatter K W R wf).siIdx (ix2 r c') ⟨List.idxOf (0 : Fin 2) (segScatter K W R wf).scatterDimsToOperandDims,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]

/-- On the column axis the window starts at `0`. -/
private theorem segScatter_start1 (wf : ScatterDims.WF ⟨2, ![K, W]⟩ ⟨2, ![R, 1]⟩ ⟨2, ![R, W]⟩ [1] [0] [0] 1)
    (idx : IVec ⟨2, ![R, 1]⟩ 32) (r : Fin R) (c' : Fin W) :
    (segScatter K W R wf).start (ix2 r c') idx 1 = 0 := by
  unfold ScatterDims.start
  rw [dif_neg (by simp)]

/-- The row axis is inserted: its window coordinate is `0`. -/
private theorem segScatter_window0 (wf : ScatterDims.WF ⟨2, ![K, W]⟩ ⟨2, ![R, 1]⟩ ⟨2, ![R, W]⟩ [1] [0] [0] 1)
    (r : Fin R) (c' : Fin W) : (segScatter K W R wf).window (ix2 r c') 0 = 0 := by
  unfold ScatterDims.window
  rw [dif_neg (by simp [ScatterDims.sKept, Shape.kept])]

/-- The column axis carries the update's column. -/
private theorem segScatter_window1 (wf : ScatterDims.WF ⟨2, ![K, W]⟩ ⟨2, ![R, 1]⟩ ⟨2, ![R, W]⟩ [1] [0] [0] 1)
    (r : Fin R) (c' : Fin W) : (segScatter K W R wf).window (ix2 r c') 1 = c'.val := by
  unfold ScatterDims.window
  rw [dif_pos (by simp [ScatterDims.sKept, Shape.kept])]
  rfl

/-- Update `(r, c')` lands on `(k, c)` exactly when row `r`'s signed id is `k` and the columns agree. -/
private theorem segScatter_resultIdx_iff (wf : ScatterDims.WF ⟨2, ![K, W]⟩ ⟨2, ![R, 1]⟩ ⟨2, ![R, W]⟩ [1] [0] [0] 1)
    (idx : IVec ⟨2, ![R, 1]⟩ 32) (r : Fin R) (c' : Fin W) (k : Fin K) (c : Fin W) :
    (segScatter K W R wf).resultIdx? (ix2 r c') idx = some (ix2 k c)
      ↔ (idx (ix2 r (0 : Fin 1))).toInt = (k.val : ℤ) ∧ c' = c := by
  have h0 : (segScatter K W R wf).start (ix2 r c') idx 0 + ((segScatter K W R wf).window (ix2 r c') 0 : ℤ)
      = (idx (ix2 r (0 : Fin 1))).toInt := by
    rw [segScatter_start0, segScatter_window0]; simp
  have h1 : (segScatter K W R wf).start (ix2 r c') idx 1 + ((segScatter K W R wf).window (ix2 r c') 1 : ℤ)
      = (c'.val : ℤ) := by
    rw [segScatter_start1, segScatter_window1]; simp
  have hk := k.isLt
  have hc' := c'.isLt
  unfold ScatterDims.resultIdx?
  constructor
  · intro h
    split at h
    · rename_i hin
      have hf := Option.some.inj h
      have e0 := congrArg Fin.val (congrFun hf 0)
      have e1 := congrArg Fin.val (congrFun hf 1)
      have p0 := (hin 0).1
      change ((segScatter K W R wf).start (ix2 r c') idx 0 + ((segScatter K W R wf).window (ix2 r c') 0 : ℤ)).toNat = k.val at e0
      change ((segScatter K W R wf).start (ix2 r c') idx 1 + ((segScatter K W R wf).window (ix2 r c') 1 : ℤ)).toNat = c.val at e1
      rw [h0] at e0 p0
      rw [h1] at e1
      refine ⟨by omega, Fin.ext (by omega)⟩
    · exact absurd h (by simp)
  · rintro ⟨hz, rfl⟩
    have hin : ∀ a, 0 ≤ (segScatter K W R wf).start (ix2 r c') idx a + ((segScatter K W R wf).window (ix2 r c') a : ℤ)
        ∧ (segScatter K W R wf).start (ix2 r c') idx a + ((segScatter K W R wf).window (ix2 r c') a : ℤ)
          < ((⟨2, ![K, W]⟩ : Shape).size a : ℤ) := by
      intro a
      match a with
      | ⟨0, _⟩ =>
        change 0 ≤ (segScatter K W R wf).start (ix2 r c') idx 0 + ((segScatter K W R wf).window (ix2 r c') 0 : ℤ)
          ∧ (segScatter K W R wf).start (ix2 r c') idx 0 + ((segScatter K W R wf).window (ix2 r c') 0 : ℤ) < (K : ℤ)
        rw [h0]; omega
      | ⟨1, _⟩ =>
        change 0 ≤ (segScatter K W R wf).start (ix2 r c') idx 1 + ((segScatter K W R wf).window (ix2 r c') 1 : ℤ)
          ∧ (segScatter K W R wf).start (ix2 r c') idx 1 + ((segScatter K W R wf).window (ix2 r c') 1 : ℤ) < (W : ℤ)
        rw [h1]; omega
    rw [dif_pos hin]
    congr 1
    funext a
    refine Fin.ext ?_
    match a with
    | ⟨0, _⟩ =>
      change ((segScatter K W R wf).start (ix2 r c') idx 0 + ((segScatter K W R wf).window (ix2 r c') 0 : ℤ)).toNat = k.val
      rw [h0]; omega
    | ⟨1, _⟩ =>
      change ((segScatter K W R wf).start (ix2 r c') idx 1 + ((segScatter K W R wf).window (ix2 r c') 1 : ℤ)).toNat = c'.val
      rw [h1]; omega

/-- THE SEGMENT SUM READ AT `(k, c)`: the table's entry plus the sum of column `c` over the rows whose id is `k`. -/
theorem scatterAdd_apply (wf : ScatterDims.WF ⟨2, ![K, W]⟩ ⟨2, ![R, 1]⟩ ⟨2, ![R, W]⟩ [1] [0] [0] 1)
    (x0 : FVec Ideal ⟨2, ![K, W]⟩ .f32) (idx : IVec ⟨2, ![R, 1]⟩ 32) (upd : FVec Ideal ⟨2, ![R, W]⟩ .f32)
    (k : Fin K) (c : Fin W) :
    Host.scatterAdd (segScatter K W R wf) x0 idx upd (ix2 k c)
      = x0 (ix2 k c) + ∑ r : Fin R, if (idx (ix2 r (0 : Fin 1))).toInt = (k.val : ℤ) then upd (ix2 r c) else 0 := by
  show x0 (ix2 k c) + ∑ j ∈ Finset.univ.filter
      (fun j => (segScatter K W R wf).resultIdx? j idx = some (ix2 k c)), upd j = _
  congr 1
  rw [Finset.sum_filter, sum_idx2]
  refine Finset.sum_congr rfl fun r _ => ?_
  simp only [segScatter_resultIdx_iff]
  by_cases hz : (idx (ix2 r (0 : Fin 1))).toInt = (k.val : ℤ)
  · simp only [hz, true_and, if_true]
    rw [Finset.sum_ite_eq' Finset.univ c (fun c' => upd (ix2 r c'))]
    simp
  · simp only [hz, false_and, if_false]
    exact Finset.sum_const_zero

/-- The row gather's dimension numbers: result row `r` is the table row its start index names. -/
abbrev segGather (K W R : ℕ)
    (wf : GatherDims.WF ⟨2, ![K, W]⟩ ⟨2, ![R, 1]⟩ ⟨2, ![R, W]⟩ [1] [0] [] [0] [] 1 ![1, W]) :
    GatherDims ⟨2, ![K, W]⟩ ⟨2, ![R, 1]⟩ ⟨2, ![R, W]⟩ where
  offsetDims := [1]
  collapsedSliceDims := [0]
  operandBatchingDims := []
  startIndicesBatchingDims := []
  startIndexMap := [0]
  indexVectorDim := 1
  sliceSizes := ![1, W]
  wf := wf

/-- THE ROW GATHER READ AT `(r, c)`: the table at the start index read signed and clamped into `0 … K-1`. -/
theorem gather_apply {α : Type} (hK : 0 < K)
    (wf : GatherDims.WF ⟨2, ![K, W]⟩ ⟨2, ![R, 1]⟩ ⟨2, ![R, W]⟩ [1] [0] [] [0] [] 1 ![1, W])
    (x : (⟨2, ![K, W]⟩ : Shape).Idx → α) (idx : IVec ⟨2, ![R, 1]⟩ 32) (r : Fin R) (c : Fin W) :
    Host.gather (segGather K W R wf) x idx (ix2 r c)
      = x (ix2 (⟨min (idx (ix2 r (0 : Fin 1))).toInt.toNat (K - 1), by omega⟩ : Fin K) c) := by
  unfold Host.gather
  congr 1
  funext a
  refine Fin.ext ?_
  match a with
  | ⟨0, _⟩ =>
    show (segGather K W R wf).start (ix2 r c) idx 0 + (segGather K W R wf).batchCoord (ix2 r c) 0
      + (segGather K W R wf).offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (segGather K W R wf).startIndexMap from List.mem_singleton.mpr rfl)]
    have hsi : (segGather K W R wf).siIdx (ix2 r c) ⟨List.idxOf (0 : Fin 2) (segGather K W R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (segGather K W R wf).start (ix2 r c) idx 1 + (segGather K W R wf).batchCoord (ix2 r c) 1
      + (segGather K W R wf).offCoord (ix2 r c) 1 = c.val
    rw [GatherDims.batchCoord_eq_zero _ _ _ List.not_mem_nil]
    have hs : (segGather K W R wf).start (ix2 r c) idx 1 = 0 := by
      unfold GatherDims.start
      rw [dif_neg (by simp)]
    rw [hs]
    simp only [Nat.add_zero, Nat.zero_add]
    unfold GatherDims.offCoord
    rw [dif_pos ((GatherDims.mem_sKept _ _).mpr ⟨by simp, by simp⟩)]
    rfl

end Cert.SegLib

end
-- ==== Proof.KHost0.lean ====
/-
  The host operations before the first kernel: the two neighbour rows of every angle are gathered from the edge
  table and laid side by side (128 features), and the weights are transposed and cut into their first 64 rows and their
  other 128 rows. Stated from any buffer contents `Wv` the operations start from.
-/
import proofs.«173249_j46248207843562_1_alg».proof.Proof.Gen.KernelIdeal.Frame
import proofs.«173249_j46248207843562_1_alg».proof.Proof.Spec
import proofs.«173249_j46248207843562_1_alg».proof.Proof.Arr
import proofs.«173249_j46248207843562_1_alg».proof.Proof.SegLib
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
set_option maxRecDepth 16384

noncomputable section

namespace Cert.KHost0

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators
open Cert.Arr

variable (Wv : Valuation τ sig (Elt Ideal))

/-- The neighbour features as a function of the edge table and the index pairs: the operations' composed term. -/
def nbrK (x0 : (⟨S400000x64, .f32⟩ : BufTy).Contents (Elt Ideal)) (x2 : (⟨S1000000x2, .i32⟩ : BufTy).Contents (Elt Ideal)) :
    (⟨S1000000x128, .f32⟩ : BufTy).Contents (Elt Ideal) :=
  shapeCast S1000000x128
    (Host.gather gather_S400000x64_S1000000x2x1_S1000000x2x64_2_0_n_n_0_2_164 x0
      (broadcastInDim S1000000x2x1 ![0, 1] bcast_S1000000x2_S1000000x2x1_0_1
        (select
          (cmpi .slt x2 (broadcastInDim S1000000x2 ![] bcast_S_S1000000x2 (constantI S_ 32 0#32)))
          (addi x2 (broadcastInDim S1000000x2 ![] bcast_S_S1000000x2 (constantI S_ 32 400000#32)))
          x2)))
    shapeCasts_S1000000x2x64_S1000000x128

theorem host0_nbr : StableHlo.after hostOps0 Wv (Proc.devRef .tc main_v7)
    = nbrK (Wv (Proc.devRef .tc main_arg0)) (Wv (Proc.devRef .tc main_arg2)) := by
  simp only [hostOps0]
  after_results
  rfl

/-- Every neighbour feature is SOME entry of the edge table. -/
theorem nbrK_mem (x0 : (⟨S400000x64, .f32⟩ : BufTy).Contents (Elt Ideal)) (x2 : (⟨S1000000x2, .i32⟩ : BufTy).Contents (Elt Ideal))
    (i : S1000000x128.Idx) : ∃ e : S400000x64.Idx, nbrK x0 x2 i = x0 e := by
  -- the reshape reads the gathered array at one index, and a gather reads the table at one index
  unfold nbrK shapeCast Host.gather
  exact ⟨_, rfl⟩

/-- Row `k` of the first 64 rows of the transpose, at column `j`, is the weights' entry `(j, k)`. -/
private theorem wa_apply (x4 : (⟨S128x192, .f32⟩ : BufTy).Contents (Elt Ideal)) (k : Fin 64) (j : Fin 128) :
    extractStridedSlice S64x128 ![0, 0] (transpose S192x128 [1, 0] x4 transposes_S128x192_S192x128_1_0)
      slices_S192x128_S64x128_0_0 (ix2 k j) = x4 (ix2 j (Fin.castAdd 128 k)) := by
  generalize hy : transpose S192x128 [1, 0] x4 transposes_S128x192_S192x128_1_0 = y
  rw [extractStridedSlice_apply ![0, 0] y slices_S192x128_S64x128_0_0 (ix2 k j) (ix2 (Fin.castAdd 128 k) j)
    (fun a => match a with
      | ⟨0, _⟩ => by show k.val = 0 + k.val; omega
      | ⟨1, _⟩ => by show j.val = 0 + j.val; omega)]
  subst hy
  exact transpose_apply [1, 0] x4 transposes_S128x192_S192x128_1_0 (ix2 (Fin.castAdd 128 k) j) (ix2 j (Fin.castAdd 128 k))
    (fun b => match b with
      | ⟨0, _⟩ => rfl
      | ⟨1, _⟩ => rfl)

/-- Row `k` of the other 128 rows of the transpose is row `64 + k` of the transpose: the weights' entry `(j, 64 + k)`. -/
private theorem wb_apply (x4 : (⟨S128x192, .f32⟩ : BufTy).Contents (Elt Ideal)) (k : Fin 128) (j : Fin 128) :
    extractStridedSlice S128x128 ![64, 0] (transpose S192x128 [1, 0] x4 transposes_S128x192_S192x128_1_0)
      slices_S192x128_S128x128_64_0 (ix2 k j) = x4 (ix2 j (Fin.natAdd 64 k)) := by
  generalize hy : transpose S192x128 [1, 0] x4 transposes_S128x192_S192x128_1_0 = y
  rw [extractStridedSlice_apply ![64, 0] y slices_S192x128_S128x128_64_0 (ix2 k j) (ix2 (Fin.natAdd 64 k) j)
    (fun a => match a with
      | ⟨0, _⟩ => by show 64 + k.val = 64 + k.val; rfl
      | ⟨1, _⟩ => by show j.val = 0 + j.val; omega)]
  subst hy
  exact transpose_apply [1, 0] x4 transposes_S128x192_S192x128_1_0 (ix2 (Fin.natAdd 64 k) j) (ix2 j (Fin.natAdd 64 k))
    (fun b => match b with
      | ⟨0, _⟩ => rfl
      | ⟨1, _⟩ => rfl)

/-- The first 64 rows of the transposed weights. -/
theorem host0_wa (k : Fin 64) (j : Fin 128) :
    at2 (StableHlo.after hostOps0 Wv (Proc.devRef .tc main_v9)) k j = at2 (Wv (Proc.devRef .tc main_arg4)) j (Fin.castAdd 128 k) := by
  have e : StableHlo.after hostOps0 Wv (Proc.devRef .tc main_v9)
      = extractStridedSlice S64x128 ![0, 0]
          (transpose S192x128 [1, 0] (Wv (Proc.devRef .tc main_arg4)) transposes_S128x192_S192x128_1_0)
          slices_S192x128_S64x128_0_0 := by
    simp only [hostOps0]
    after_results
  rw [e]
  exact wa_apply _ k j

/-- The other 128 rows of the transposed weights. -/
theorem host0_wb (k : Fin 128) (j : Fin 128) :
    at2 (StableHlo.after hostOps0 Wv (Proc.devRef .tc main_v10)) k j = at2 (Wv (Proc.devRef .tc main_arg4)) j (Fin.natAdd 64 k) := by
  have e : StableHlo.after hostOps0 Wv (Proc.devRef .tc main_v10)
      = extractStridedSlice S128x128 ![64, 0]
          (transpose S192x128 [1, 0] (Wv (Proc.devRef .tc main_arg4)) transposes_S128x192_S192x128_1_0)
          slices_S192x128_S128x128_64_0 := by
    simp only [hostOps0]
    after_results
  rw [e]
  exact wb_apply _ k j

end Cert.KHost0

end
-- ==== Proof.KHost1.lean ====
/-
  The host operations between the first and the second kernel: per crystal, the count (at least one), the mean and the
  mean of squares of every column of the linear layer's output, folded into a scale `g / sqrt(max(E[x²] − E[x]², 0) + eps)`
  and a shift `b − E[x] · scale`, each gathered back to the rows. Stated from any buffer contents `Wv`.
-/
import proofs.«173249_j46248207843562_1_alg».proof.Proof.Gen.KernelIdeal.Frame
import proofs.«173249_j46248207843562_1_alg».proof.Proof.Spec
import proofs.«173249_j46248207843562_1_alg».proof.Proof.Arr
import proofs.«173249_j46248207843562_1_alg».proof.Proof.SegLib
import Idealize.ShloMosaic.Lib.Pipeline.Value
import Idealize.ShloMosaic.Lib.ValueIdx
import Idealize.ShloMosaic.Lib.ValueLayout
import Idealize.ShloMosaic.Lib.StableHlo.Run
import Idealize.ShloMosaic.Lib.IdealHost
import Idealize.ShloMosaic.PureOps.Ideal.Laws
set_option maxRecDepth 16384

noncomputable section

namespace Cert.KHost1

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators
open Cert.Arr

variable (Wv : Valuation τ sig (Elt Ideal))

/-- The small constant added to a variance, as the program's literal. -/
abbrev epsC : EReal := Ideal.ofBits .f32 0x3727C5AC#32

/-! ### Constants and broadcasts read at an index -/

/-- A scalar broadcast to any shape reads the scalar everywhere. -/
private theorem bcast0_apply {α : Type} {t : Shape} (h : S_.BroadcastsInDim t (![] : Fin 0 → Fin t.rank))
    (x : S_.Idx → α) (j : t.Idx) : broadcastInDim t ![] h x j = x ix0 :=
  broadcastInDim_apply _ h x j ix0 (fun a => a.elim0)

/-- An integer scalar broadcast to any shape reads the scalar everywhere. -/
private theorem bcastI_apply {t : Shape} (h : S_.BroadcastsInDim t (![] : Fin 0 → Fin t.rank)) (w : BitVec 32) (j : t.Idx) :
    broadcastInDim t ![] h (constantI S_ 32 w) j = w :=
  broadcastInDim_apply _ h _ j ix0 (fun a => a.elim0)

/-- A column `[2048,1]` broadcast along the columns reads its row. -/
private theorem bcastCol_apply (y : FVec Ideal S2048x1 .f32) (k : Fin 2048) (j : Fin 128) :
    broadcastInDim S2048x128 ![0, 1] bcast_S2048x1_S2048x128_0_1 y (ix2 k j) = y (ix2 k (0 : Fin 1)) :=
  broadcastInDim_apply _ bcast_S2048x1_S2048x128_0_1 y (ix2 k j) (ix2 k (0 : Fin 1)) (fun a => match a with
    | ⟨0, _⟩ => by show k.val = if (2048 : Nat) = 1 then 0 else k.val; rw [if_neg (by decide)]
    | ⟨1, _⟩ => by show 0 = if (1 : Nat) = 1 then 0 else j.val; rw [if_pos rfl])

/-- A vector `[128]` laid as a row and broadcast along the rows reads its column. -/
private theorem bcastRow_apply (y : FVec Ideal S128 .f32) (k : Fin 2048) (j : Fin 128) :
    broadcastInDim S2048x128 ![0, 1] bcast_S1x128_S2048x128_0_1
        (broadcastInDim S1x128 ![1] bcast_S128_S1x128_1 y) (ix2 k j) = y (ix1 j) := by
  refine (broadcastInDim_apply _ bcast_S1x128_S2048x128_0_1 _ (ix2 k j) (ix2 (0 : Fin 1) j) (fun a => match a with
    | ⟨0, _⟩ => by show 0 = if (1 : Nat) = 1 then 0 else k.val; rw [if_pos rfl]
    | ⟨1, _⟩ => by show j.val = if (128 : Nat) = 1 then 0 else j.val; rw [if_neg (by decide)])).trans ?_
  exact broadcastInDim_apply _ bcast_S128_S1x128_1 y (ix2 (0 : Fin 1) j) (ix1 j) (fun a => match a with
    | ⟨0, _⟩ => by show j.val = if (128 : Nat) = 1 then 0 else j.val; rw [if_neg (by decide)])

/-- A vector of ids laid as a column reads its row. -/
private theorem idCol_apply (v : IVec S1000000 32) (r : Fin 1000000) :
    broadcastInDim S1000000x1 ![0] bcast_S1000000_S1000000x1_0 v (ix2 r (0 : Fin 1)) = v (ix1 r) :=
  broadcastInDim_apply _ bcast_S1000000_S1000000x1_0 v (ix2 r (0 : Fin 1)) (ix1 r) (fun a => match a with
    | ⟨0, _⟩ => by show r.val = if (1000000 : Nat) = 1 then 0 else r.val; rw [if_neg (by decide)])

/-! ### The stretch's tables as functions of the ids, the rows, the gain and the bias -/

/-- The per-crystal count, at least one. -/
private def cntT (seg : IVec S1000000 32) : FVec Ideal S2048x1 .f32 :=
  maximumf
    (Host.scatterAdd scatter_S2048x1_S1000000x1_S1000000x1_1_0_0_1
      (broadcastInDim S2048x1 ![] bcast_S_S2048x1 (constant S_ .f32 0x00000000#32))
      (broadcastInDim S1000000x1 ![0] bcast_S1000000_S1000000x1_0 seg)
      (broadcastInDim S1000000x1 ![] bcast_S_S1000000x1 (constant S_ .f32 0x3F800000#32)))
    (broadcastInDim S2048x1 ![] bcast_S_S2048x1 (constant S_ .f32 0x3F800000#32))

/-- The per-crystal sums of the columns of `u`. -/
private def sumT (seg : IVec S1000000 32) (u : FVec Ideal S1000000x128 .f32) : FVec Ideal S2048x128 .f32 :=
  Host.scatterAdd scatter_S2048x128_S1000000x1_S1000000x128_1_0_0_1
    (broadcastInDim S2048x128 ![] bcast_S_S2048x128 (constant S_ .f32 0x00000000#32))
    (broadcastInDim S1000000x1 ![0] bcast_S1000000_S1000000x1_0 seg) u

/-- The per-crystal means. -/
private def meanT (seg : IVec S1000000 32) (x : FVec Ideal S1000000x128 .f32) : FVec Ideal S2048x128 .f32 :=
  Host.divf (sumT seg x) (broadcastInDim S2048x128 ![0, 1] bcast_S2048x1_S2048x128_0_1 (cntT seg))

/-- The per-crystal variances, clamped at zero. -/
private def varT (seg : IVec S1000000 32) (x : FVec Ideal S1000000x128 .f32) : FVec Ideal S2048x128 .f32 :=
  maximumf
    (subf (Host.divf (sumT seg (mulf x x)) (broadcastInDim S2048x128 ![0, 1] bcast_S2048x1_S2048x128_0_1 (cntT seg)))
      (mulf (meanT seg x) (meanT seg x)))
    (broadcastInDim S2048x128 ![] bcast_S_S2048x128 (constant S_ .f32 0x00000000#32))

/-- The per-crystal scales. -/
private def scaleT (seg : IVec S1000000 32) (x : FVec Ideal S1000000x128 .f32) (g : FVec Ideal S128 .f32) :
    FVec Ideal S2048x128 .f32 :=
  mulf (broadcastInDim S2048x128 ![0, 1] bcast_S1x128_S2048x128_0_1 (broadcastInDim S1x128 ![1] bcast_S128_S1x128_1 g))
    (Host.rsqrt (addf (varT seg x)
      (broadcastInDim S2048x128 ![] bcast_S_S2048x128 (constant S_ .f32 0x3727C5AC#32))))

/-- The per-crystal shifts. -/
private def shiftT (seg : IVec S1000000 32) (x : FVec Ideal S1000000x128 .f32) (g b : FVec Ideal S128 .f32) :
    FVec Ideal S2048x128 .f32 :=
  subf (broadcastInDim S2048x128 ![0, 1] bcast_S1x128_S2048x128_0_1 (broadcastInDim S1x128 ![1] bcast_S128_S1x128_1 b))
    (mulf (meanT seg x) (scaleT seg x g))

/-- The ids moved into range, as a column. -/
private def gidT (seg : IVec S1000000 32) : IVec S1000000x1 32 :=
  broadcastInDim S1000000x1 ![0] bcast_S1000000_S1000000x1_0
    (select (cmpi .slt seg (broadcastInDim S1000000 ![] bcast_S_S1000000 (constantI S_ 32 0#32)))
      (addi seg (broadcastInDim S1000000 ![] bcast_S_S1000000 (constantI S_ 32 2048#32))) seg)

/-! ### Each table read at an entry -/

private theorem hrsqrt_apply {s : Shape} (a : FVec Ideal s .f32) (i : s.Idx) :
    Host.rsqrt a i = Ideal.rsqrt (a i) := rfl

/-- The segment sum of one-wide rows, at an entry. -/
private theorem scat1_apply (x0 : FVec Ideal S2048x1 .f32) (idx : IVec S1000000x1 32) (upd : FVec Ideal S1000000x1 .f32)
    (k : Fin 2048) :
    Host.scatterAdd scatter_S2048x1_S1000000x1_S1000000x1_1_0_0_1 x0 idx upd (ix2 k (0 : Fin 1))
      = x0 (ix2 k (0 : Fin 1)) + ∑ r : Fin 1000000,
          if (idx (ix2 r (0 : Fin 1))).toInt = (k.val : ℤ) then upd (ix2 r (0 : Fin 1)) else 0 :=
  Cert.SegLib.scatterAdd_apply (K := 2048) (W := 1) (R := 1000000)
    scatter_S2048x1_S1000000x1_S1000000x1_1_0_0_1_wf x0 idx upd k (0 : Fin 1)

/-- The segment sum of the 128-wide rows, at an entry. -/
private theorem scat128_apply (x0 : FVec Ideal S2048x128 .f32) (idx : IVec S1000000x1 32) (upd : FVec Ideal S1000000x128 .f32)
    (k : Fin 2048) (j : Fin 128) :
    Host.scatterAdd scatter_S2048x128_S1000000x1_S1000000x128_1_0_0_1 x0 idx upd (ix2 k j)
      = x0 (ix2 k j) + ∑ r : Fin 1000000,
          if (idx (ix2 r (0 : Fin 1))).toInt = (k.val : ℤ) then upd (ix2 r j) else 0 :=
  Cert.SegLib.scatterAdd_apply (K := 2048) (W := 128) (R := 1000000)
    scatter_S2048x128_S1000000x1_S1000000x128_1_0_0_1_wf x0 idx upd k j

/-- The row gather of a 128-wide table, at an entry. -/
private theorem gath128_apply (t : FVec Ideal S2048x128 .f32) (idx : IVec S1000000x1 32) (r : Fin 1000000) (j : Fin 128) :
    Host.gather gather_S2048x128_S1000000x1_S1000000x128_1_0_n_n_0_1_1128 t idx (ix2 r j)
      = t (ix2 (⟨min (idx (ix2 r (0 : Fin 1))).toInt.toNat (2048 - 1), by omega⟩ : Fin 2048) j) :=
  Cert.SegLib.gather_apply (K := 2048) (W := 128) (R := 1000000) (by decide)
    gather_S2048x128_S1000000x1_S1000000x128_1_0_n_n_0_1_1128_wf t idx r j

private theorem cntT_apply (seg : IVec S1000000 32) (k : Fin 2048) :
    cntT seg (ix2 k (0 : Fin 1)) = Cert.Spec.cnt (Cert.SegLib.segZ seg) k := by
  unfold cntT Cert.Spec.cnt Cert.Spec.segSum
  rw [maximumf_apply, scat1_apply, bcast0_apply, bcast0_apply, constant_apply, constant_apply,
    Ideal.ofBits_zero_f32, Ideal.ofBits_one_f32, zero_add]
  refine congrArg (fun t => max t 1) (Finset.sum_congr rfl fun r _ => ?_)
  rw [idCol_apply, bcast0_apply, constant_apply, Ideal.ofBits_one_f32]
  rfl

private theorem sumT_apply (seg : IVec S1000000 32) (u : FVec Ideal S1000000x128 .f32) (k : Fin 2048) (j : Fin 128) :
    sumT seg u (ix2 k j) = Cert.Spec.segSum (Cert.SegLib.segZ seg) (fun r => u (ix2 r j)) k := by
  unfold sumT Cert.Spec.segSum
  rw [scat128_apply, bcast0_apply, constant_apply, Ideal.ofBits_zero_f32, zero_add]
  refine Finset.sum_congr rfl fun r _ => ?_
  rw [idCol_apply]
  rfl

private theorem meanT_apply (seg : IVec S1000000 32) (x : FVec Ideal S1000000x128 .f32) (k : Fin 2048) (j : Fin 128) :
    meanT seg x (ix2 k j) = Cert.Spec.mean (Cert.SegLib.segZ seg) (fun r => x (ix2 r j)) k := by
  unfold meanT Cert.Spec.mean
  rw [hostDivf_apply, sumT_apply, bcastCol_apply, cntT_apply]

private theorem varT_apply (seg : IVec S1000000 32) (x : FVec Ideal S1000000x128 .f32) (k : Fin 2048) (j : Fin 128) :
    varT seg x (ix2 k j)
      = max (Ideal.div (Cert.Spec.segSum (Cert.SegLib.segZ seg) (fun r => x (ix2 r j) * x (ix2 r j)) k)
              (Cert.Spec.cnt (Cert.SegLib.segZ seg) k)
            - Cert.Spec.mean (Cert.SegLib.segZ seg) (fun r => x (ix2 r j)) k
              * Cert.Spec.mean (Cert.SegLib.segZ seg) (fun r => x (ix2 r j)) k) 0 := by
  unfold varT
  rw [maximumf_apply, subf_apply, mulf_apply, hostDivf_apply, sumT_apply, bcastCol_apply, cntT_apply, meanT_apply,
    bcast0_apply, constant_apply, Ideal.ofBits_zero_f32]
  rfl

private theorem scaleT_apply (seg : IVec S1000000 32) (x : FVec Ideal S1000000x128 .f32) (g : FVec Ideal S128 .f32)
    (k : Fin 2048) (j : Fin 128) :
    scaleT seg x g (ix2 k j)
      = Cert.Spec.scaleK epsC (Cert.SegLib.segZ seg) (fun r => x (ix2 r j)) (g (ix1 j)) k := by
  unfold scaleT Cert.Spec.scaleK
  rw [mulf_apply, bcastRow_apply, hrsqrt_apply, addf_apply, varT_apply, bcast0_apply, constant_apply]

private theorem shiftT_apply (seg : IVec S1000000 32) (x : FVec Ideal S1000000x128 .f32) (g b : FVec Ideal S128 .f32)
    (k : Fin 2048) (j : Fin 128) :
    shiftT seg x g b (ix2 k j)
      = Cert.Spec.shiftK epsC (Cert.SegLib.segZ seg) (fun r => x (ix2 r j)) (g (ix1 j)) (b (ix1 j)) k := by
  unfold shiftT Cert.Spec.shiftK
  rw [subf_apply, mulf_apply, bcastRow_apply, meanT_apply, scaleT_apply]

private theorem gidT_apply (seg : IVec S1000000 32) (r : Fin 1000000) :
    gidT seg (ix2 r (0 : Fin 1)) = Cert.SegLib.normId (BitVec.ofNat 32 2048) (seg (ix1 r)) := by
  unfold gidT Cert.SegLib.normId
  rw [idCol_apply, select_apply]
  show Scalar.select (IntOp.cmpi .slt (seg (ix1 r))
        (broadcastInDim S1000000 ![] bcast_S_S1000000 (constantI S_ 32 0#32) (ix1 r)))
      (IntOp.addi (seg (ix1 r)) (broadcastInDim S1000000 ![] bcast_S_S1000000 (constantI S_ 32 2048#32) (ix1 r)))
      (seg (ix1 r)) = _
  rw [bcastI_apply, bcastI_apply]

/-- A table gathered at the ids moved into range reads the table at the row's crystal. -/
private theorem gath_apply (t : FVec Ideal S2048x128 .f32) (seg : IVec S1000000 32) (r : Fin 1000000) (j : Fin 128) :
    Host.gather gather_S2048x128_S1000000x1_S1000000x128_1_0_n_n_0_1_1128 t (gidT seg) (ix2 r j)
      = t (ix2 (Cert.SegLib.gatOf 2048 (by decide) seg r) j) := by
  rw [gath128_apply]
  refine congrArg (fun q : Fin 2048 => t (ix2 q j)) (Fin.ext ?_)
  show min (gidT seg (ix2 r (0 : Fin 1))).toInt.toNat (2048 - 1)
    = min (Cert.SegLib.normId (BitVec.ofNat 32 2048) (seg (ix1 r))).toInt.toNat (2048 - 1)
  rw [gidT_apply]

/-! ### The two results of the stretch -/

/-- The gathered scale of the one-pass normalisation, entry by entry. -/
theorem host1_scale (r : Fin 1000000) (j : Fin 128) :
    at2 (StableHlo.after hostOps1 Wv (Proc.devRef .tc main_v49)) r j
      = Cert.Spec.scaleK epsC (Cert.SegLib.segZ (words (Wv (Proc.devRef .tc main_arg3))))
          (fun r' => at2 (Wv (Proc.devRef .tc main_v11)) r' j) (at1 (Wv (Proc.devRef .tc main_arg6)) j)
          (Cert.SegLib.gatOf 2048 (by decide) (words (Wv (Proc.devRef .tc main_arg3))) r) := by
  have e : StableHlo.after hostOps1 Wv (Proc.devRef .tc main_v49)
      = Host.gather gather_S2048x128_S1000000x1_S1000000x128_1_0_n_n_0_1_1128
          (scaleT (Wv (Proc.devRef .tc main_arg3)) (Wv (Proc.devRef .tc main_v11)) (Wv (Proc.devRef .tc main_arg6)))
          (gidT (Wv (Proc.devRef .tc main_arg3))) := by
    simp only [hostOps1]; after_results_simp; rfl
  show StableHlo.after hostOps1 Wv (Proc.devRef .tc main_v49) (ix2 r j) = _
  rw [e, gath_apply, scaleT_apply]

/-- The gathered shift of the one-pass normalisation, entry by entry. -/
theorem host1_shift (r : Fin 1000000) (j : Fin 128) :
    at2 (StableHlo.after hostOps1 Wv (Proc.devRef .tc main_v56)) r j
      = Cert.Spec.shiftK epsC (Cert.SegLib.segZ (words (Wv (Proc.devRef .tc main_arg3))))
          (fun r' => at2 (Wv (Proc.devRef .tc main_v11)) r' j) (at1 (Wv (Proc.devRef .tc main_arg6)) j) (at1 (Wv (Proc.devRef .tc main_arg7)) j)
          (Cert.SegLib.gatOf 2048 (by decide) (words (Wv (Proc.devRef .tc main_arg3))) r) := by
  have e : StableHlo.after hostOps1 Wv (Proc.devRef .tc main_v56)
      = Host.gather gather_S2048x128_S1000000x1_S1000000x128_1_0_n_n_0_1_1128
          (shiftT (Wv (Proc.devRef .tc main_arg3)) (Wv (Proc.devRef .tc main_v11)) (Wv (Proc.devRef .tc main_arg6))
            (Wv (Proc.devRef .tc main_arg7)))
          (gidT (Wv (Proc.devRef .tc main_arg3))) := by
    simp only [hostOps1]; after_results_simp; rfl
  show StableHlo.after hostOps1 Wv (Proc.devRef .tc main_v56) (ix2 r j) = _
  rw [e, gath_apply, shiftT_apply]

end Cert.KHost1

end
-- ==== Proof.KHost2.lean ====
/-
  The host operations between the second and the third kernel: the scale and the shift of the second per-crystal
  normalisation (over the gate's output, 64 columns), gathered back to the rows; the four weight matrices transposed;
  the four biases laid out as one-row arrays. Stated from any buffer contents `Wv`.
-/
import proofs.«173249_j46248207843562_1_alg».proof.Proof.Gen.KernelIdeal.Frame
import proofs.«173249_j46248207843562_1_alg».proof.Proof.Spec
import proofs.«173249_j46248207843562_1_alg».proof.Proof.Arr
import proofs.«173249_j46248207843562_1_alg».proof.Proof.SegLib
import Idealize.ShloMosaic.Lib.Pipeline.Value
import Idealize.ShloMosaic.Lib.ValueIdx
import Idealize.ShloMosaic.Lib.ValueLayout
import Idealize.ShloMosaic.Lib.StableHlo.Run
import Idealize.ShloMosaic.Lib.IdealHost
import Idealize.ShloMosaic.PureOps.Ideal.Laws
set_option maxRecDepth 16384

noncomputable section

namespace Cert.KHost2

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators
open Cert.Arr

variable (Wv : Valuation τ sig (Elt Ideal))

/-- The small constant added to a variance, as the program's literal. -/
abbrev epsC : EReal := Ideal.ofBits .f32 0x3727C5AC#32

/-! ## The tables of the normalisation as functions of the ids, the rows, the gain and the bias -/

section Chain

variable (seg : IVec S1000000 32) (x : FVec Ideal S1000000x64 .f32) (g b : FVec Ideal S64 .f32)

/-- The dimension numbers of the two segment sums and of the row read, in the form the segment lemmas are stated for. -/
private theorem scat1_eq : scatter_S2048x1_S1000000x1_S1000000x1_1_0_0_1
    = Cert.SegLib.segScatter 2048 1 1000000 scatter_S2048x1_S1000000x1_S1000000x1_1_0_0_1_wf := rfl
private theorem scat64_eq : scatter_S2048x64_S1000000x1_S1000000x64_1_0_0_1
    = Cert.SegLib.segScatter 2048 64 1000000 scatter_S2048x64_S1000000x1_S1000000x64_1_0_0_1_wf := rfl
private theorem gat64_eq : gather_S2048x64_S1000000x1_S1000000x64_1_0_n_n_0_1_164
    = Cert.SegLib.segGather 2048 64 1000000 gather_S2048x64_S1000000x1_S1000000x64_1_0_n_n_0_1_164_wf := rfl

/-- A constant spread over any shape reads the constant's value. -/
private theorem splat_apply {T : Shape} (h : S_.BroadcastsInDim T ![]) (w : BitVec 32) (i : T.Idx) :
    broadcastInDim T ![] h (constant (F := Ideal) S_ .f32 w) i = Ideal.ofBits .f32 w :=
  broadcastInDim_apply _ h _ i (fun a => a.elim0) (fun a => a.elim0)

/-- The ids laid out as one column. -/
private def segCol : IVec S1000000x1 32 :=
  broadcastInDim S1000000x1 ![0] bcast_S1000000_S1000000x1_0 seg

private theorem segCol_apply (r : Fin 1000000) : segCol seg (ix2 r (0 : Fin 1)) = seg (ix1 r) := by
  unfold segCol
  generalize seg = y
  exact broadcastInDim_apply _ bcast_S1000000_S1000000x1_0 y _ (ix1 r) (fun a => match a with
    | ⟨0, _⟩ => by show r.val = if (1000000 : Nat) = 1 then 0 else r.val; rw [if_neg (by decide)])

/-- The number of rows of each segment, at least one. -/
private def cntTab : FVec Ideal S2048x1 .f32 :=
  maximumf
    (Host.scatterAdd scatter_S2048x1_S1000000x1_S1000000x1_1_0_0_1
      (broadcastInDim S2048x1 ![] bcast_S_S2048x1 (constant (F := Ideal) S_ .f32 0x00000000#32))
      (segCol seg)
      (broadcastInDim S1000000x1 ![] bcast_S_S1000000x1 (constant (F := Ideal) S_ .f32 0x3F800000#32)))
    (broadcastInDim S2048x1 ![] bcast_S_S2048x1 (constant (F := Ideal) S_ .f32 0x3F800000#32))

private theorem cntTab_apply (k : Fin 2048) :
    cntTab seg (ix2 k (0 : Fin 1)) = Cert.Spec.cnt (Cert.SegLib.segZ (words seg)) k := by
  unfold cntTab Cert.Spec.cnt Cert.Spec.segSum
  rw [maximumf_apply, scat1_eq, Cert.SegLib.scatterAdd_apply, splat_apply bcast_S_S2048x1, splat_apply bcast_S_S2048x1,
    Ideal.ofBits_zero_f32, Ideal.ofBits_one_f32, zero_add]
  refine congrArg (fun t => max t 1) (Finset.sum_congr rfl fun r _ => ?_)
  rw [segCol_apply, splat_apply bcast_S_S1000000x1, Ideal.ofBits_one_f32]
  rfl

/-- The sum of each column of `u` over each segment. -/
private def sumTab (u : FVec Ideal S1000000x64 .f32) : FVec Ideal S2048x64 .f32 :=
  Host.scatterAdd scatter_S2048x64_S1000000x1_S1000000x64_1_0_0_1
    (broadcastInDim S2048x64 ![] bcast_S_S2048x64 (constant (F := Ideal) S_ .f32 0x00000000#32)) (segCol seg) u

private theorem sumTab_apply (u : FVec Ideal S1000000x64 .f32) (k : Fin 2048) (j : Fin 64) :
    sumTab seg u (ix2 k j) = Cert.Spec.segSum (Cert.SegLib.segZ (words seg)) (fun r => u (ix2 r j)) k := by
  unfold sumTab Cert.Spec.segSum
  rw [scat64_eq, Cert.SegLib.scatterAdd_apply, splat_apply bcast_S_S2048x64, Ideal.ofBits_zero_f32, zero_add]
  refine Finset.sum_congr rfl fun r _ => ?_
  rw [segCol_apply]
  rfl

/-- The count spread over the columns. -/
private def cntWide : FVec Ideal S2048x64 .f32 :=
  broadcastInDim S2048x64 ![0, 1] bcast_S2048x1_S2048x64_0_1 (cntTab seg)

private theorem cntWide_apply (k : Fin 2048) (j : Fin 64) :
    cntWide seg (ix2 k j) = Cert.Spec.cnt (Cert.SegLib.segZ (words seg)) k := by
  unfold cntWide
  rw [← cntTab_apply]
  generalize cntTab seg = y
  exact broadcastInDim_apply _ bcast_S2048x1_S2048x64_0_1 y _ (ix2 k (0 : Fin 1)) (fun a => match a with
    | ⟨0, _⟩ => by show k.val = if (2048 : Nat) = 1 then 0 else k.val; rw [if_neg (by decide)]
    | ⟨1, _⟩ => by show 0 = if (1 : Nat) = 1 then 0 else j.val; rw [if_pos rfl])

/-- The mean of each column over each segment. -/
private def meanTab : FVec Ideal S2048x64 .f32 := Host.divf (sumTab seg x) (cntWide seg)

private theorem meanTab_apply (k : Fin 2048) (j : Fin 64) :
    meanTab seg x (ix2 k j) = Cert.Spec.mean (Cert.SegLib.segZ (words seg)) (fun r => x (ix2 r j)) k := by
  unfold meanTab Cert.Spec.mean
  rw [hostDivf_apply, sumTab_apply, cntWide_apply]

/-- The variance of each column over each segment, cut at zero. -/
private def varTab : FVec Ideal S2048x64 .f32 :=
  maximumf (subf (Host.divf (sumTab seg (mulf x x)) (cntWide seg)) (mulf (meanTab seg x) (meanTab seg x)))
    (broadcastInDim S2048x64 ![] bcast_S_S2048x64 (constant (F := Ideal) S_ .f32 0x00000000#32))

private theorem varTab_apply (k : Fin 2048) (j : Fin 64) :
    varTab seg x (ix2 k j)
      = max (Ideal.div (Cert.Spec.segSum (Cert.SegLib.segZ (words seg)) (fun r => x (ix2 r j) * x (ix2 r j)) k)
              (Cert.Spec.cnt (Cert.SegLib.segZ (words seg)) k)
            - Cert.Spec.mean (Cert.SegLib.segZ (words seg)) (fun r => x (ix2 r j)) k
              * Cert.Spec.mean (Cert.SegLib.segZ (words seg)) (fun r => x (ix2 r j)) k) 0 := by
  unfold varTab
  rw [maximumf_apply, subf_apply, mulf_apply, hostDivf_apply, sumTab_apply, cntWide_apply, meanTab_apply,
    splat_apply bcast_S_S2048x64, Ideal.ofBits_zero_f32]
  rfl

/-- A row of 64 spread over the segments. -/
private theorem rowWide_apply (v : FVec Ideal S64 .f32) (k : Fin 2048) (j : Fin 64) :
    broadcastInDim S2048x64 ![0, 1] bcast_S1x64_S2048x64_0_1 (broadcastInDim S1x64 ![1] bcast_S64_S1x64_1 v) (ix2 k j)
      = v (ix1 j) := by
  generalize hy : broadcastInDim S1x64 ![1] bcast_S64_S1x64_1 v = y
  rw [broadcastInDim_apply _ bcast_S1x64_S2048x64_0_1 y _ (ix2 (0 : Fin 1) j) (fun a => match a with
    | ⟨0, _⟩ => by show 0 = if (1 : Nat) = 1 then 0 else k.val; rw [if_pos rfl]
    | ⟨1, _⟩ => by show j.val = if (64 : Nat) = 1 then 0 else j.val; rw [if_neg (by decide)])]
  subst hy
  exact broadcastInDim_apply _ bcast_S64_S1x64_1 v _ (ix1 j) (fun a => match a with
    | ⟨0, _⟩ => by show j.val = if (64 : Nat) = 1 then 0 else j.val; rw [if_neg (by decide)])

/-- The host's reciprocal square root reads entry by entry. -/
private theorem hostRsqrt_apply {s : Shape} (v : FVec Ideal s .f32) (i : s.Idx) : Host.rsqrt v i = Ideal.rsqrt (v i) := rfl

/-- The scale of each column on each segment. -/
private def scaleTab : FVec Ideal S2048x64 .f32 :=
  mulf (broadcastInDim S2048x64 ![0, 1] bcast_S1x64_S2048x64_0_1 (broadcastInDim S1x64 ![1] bcast_S64_S1x64_1 g))
    (Host.rsqrt (addf (varTab seg x)
      (broadcastInDim S2048x64 ![] bcast_S_S2048x64 (constant (F := Ideal) S_ .f32 0x3727C5AC#32))))

private theorem scaleTab_apply (k : Fin 2048) (j : Fin 64) :
    scaleTab seg x g (ix2 k j)
      = Cert.Spec.scaleK epsC (Cert.SegLib.segZ (words seg)) (fun r => x (ix2 r j)) (g (ix1 j)) k := by
  unfold scaleTab Cert.Spec.scaleK
  rw [mulf_apply, rowWide_apply, hostRsqrt_apply, addf_apply, varTab_apply, splat_apply bcast_S_S2048x64]

/-- The shift of each column on each segment. -/
private def shiftTab : FVec Ideal S2048x64 .f32 :=
  subf (broadcastInDim S2048x64 ![0, 1] bcast_S1x64_S2048x64_0_1 (broadcastInDim S1x64 ![1] bcast_S64_S1x64_1 b))
    (mulf (meanTab seg x) (scaleTab seg x g))

private theorem shiftTab_apply (k : Fin 2048) (j : Fin 64) :
    shiftTab seg x g b (ix2 k j)
      = Cert.Spec.shiftK epsC (Cert.SegLib.segZ (words seg)) (fun r => x (ix2 r j)) (g (ix1 j)) (b (ix1 j)) k := by
  unfold shiftTab Cert.Spec.shiftK
  rw [subf_apply, mulf_apply, rowWide_apply, meanTab_apply, scaleTab_apply]

/-- An integer constant spread over any shape reads the constant. -/
private theorem splatI_apply {T : Shape} (h : S_.BroadcastsInDim T ![]) (w : BitVec 32) (i : T.Idx) :
    broadcastInDim T ![] h (constantI S_ 32 w) i = w :=
  broadcastInDim_apply _ h _ i (fun a => a.elim0) (fun a => a.elim0)

/-- The ids with a negative one moved up by the table's height. -/
private def normVec : IVec S1000000 32 :=
  select (cmpi .slt seg (broadcastInDim S1000000 ![] bcast_S_S1000000 (constantI S_ 32 0#32)))
    (addi seg (broadcastInDim S1000000 ![] bcast_S_S1000000 (constantI S_ 32 2048#32))) seg

private theorem normVec_apply (r : Fin 1000000) :
    normVec seg (ix1 r) = Cert.SegLib.normId (BitVec.ofNat 32 2048) (seg (ix1 r)) := by
  unfold normVec Cert.SegLib.normId
  rw [select_apply]
  show Scalar.select (IntOp.cmpi .slt (seg (ix1 r)) (broadcastInDim S1000000 ![] bcast_S_S1000000 (constantI S_ 32 0#32) (ix1 r)))
      (IntOp.addi (seg (ix1 r)) (broadcastInDim S1000000 ![] bcast_S_S1000000 (constantI S_ 32 2048#32) (ix1 r))) (seg (ix1 r)) = _
  rw [splatI_apply bcast_S_S1000000, splatI_apply bcast_S_S1000000]

/-- A table read row by row at the moved ids is the table at each row's clamped segment. -/
private theorem gatherRow (T : FVec Ideal S2048x64 .f32) (r : Fin 1000000) (j : Fin 64) :
    Host.gather gather_S2048x64_S1000000x1_S1000000x64_1_0_n_n_0_1_164 T (segCol (normVec seg)) (ix2 r j)
      = T (ix2 (Cert.SegLib.gatOf 2048 (by decide) (words seg) r) j) := by
  rw [gat64_eq, Cert.SegLib.gather_apply (by decide)]
  refine congrArg (fun q : Fin 2048 => T (ix2 q j)) (Fin.ext ?_)
  show min (segCol (normVec seg) (ix2 r (0 : Fin 1))).toInt.toNat (2048 - 1)
    = min (Cert.SegLib.normId (BitVec.ofNat 32 2048) (seg (ix1 r))).toInt.toNat (2048 - 1)
  rw [segCol_apply, normVec_apply]

end Chain

/-- The gathered scale of the one-pass normalisation, entry by entry. -/
theorem host2_scale (r : Fin 1000000) (j : Fin 64) :
    at2 (StableHlo.after hostOps2 Wv (Proc.devRef .tc main_v95)) r j
      = Cert.Spec.scaleK epsC (Cert.SegLib.segZ (words (Wv (Proc.devRef .tc main_arg3))))
          (fun r' => at2 (Wv (Proc.devRef .tc main_v57)) r' j) (at1 (Wv (Proc.devRef .tc main_arg8)) j)
          (Cert.SegLib.gatOf 2048 (by decide) (words (Wv (Proc.devRef .tc main_arg3))) r) := by
  have e : StableHlo.after hostOps2 Wv (Proc.devRef .tc main_v95)
      = Host.gather gather_S2048x64_S1000000x1_S1000000x64_1_0_n_n_0_1_164
          (scaleTab (Wv (Proc.devRef .tc main_arg3)) (Wv (Proc.devRef .tc main_v57)) (Wv (Proc.devRef .tc main_arg8)))
          (segCol (normVec (Wv (Proc.devRef .tc main_arg3)))) := by
    simp only [hostOps2]; after_results_simp; rfl
  show StableHlo.after hostOps2 Wv (Proc.devRef .tc main_v95) (ix2 r j) = _
  rw [e, gatherRow, scaleTab_apply]

/-- The gathered shift of the one-pass normalisation, entry by entry. -/
theorem host2_shift (r : Fin 1000000) (j : Fin 64) :
    at2 (StableHlo.after hostOps2 Wv (Proc.devRef .tc main_v102)) r j
      = Cert.Spec.shiftK epsC (Cert.SegLib.segZ (words (Wv (Proc.devRef .tc main_arg3))))
          (fun r' => at2 (Wv (Proc.devRef .tc main_v57)) r' j) (at1 (Wv (Proc.devRef .tc main_arg8)) j) (at1 (Wv (Proc.devRef .tc main_arg9)) j)
          (Cert.SegLib.gatOf 2048 (by decide) (words (Wv (Proc.devRef .tc main_arg3))) r) := by
  have e : StableHlo.after hostOps2 Wv (Proc.devRef .tc main_v102)
      = Host.gather gather_S2048x64_S1000000x1_S1000000x64_1_0_n_n_0_1_164
          (shiftTab (Wv (Proc.devRef .tc main_arg3)) (Wv (Proc.devRef .tc main_v57)) (Wv (Proc.devRef .tc main_arg8))
            (Wv (Proc.devRef .tc main_arg9)))
          (segCol (normVec (Wv (Proc.devRef .tc main_arg3)))) := by
    simp only [hostOps2]; after_results_simp; rfl
  show StableHlo.after hostOps2 Wv (Proc.devRef .tc main_v102) (ix2 r j) = _
  rw [e, gatherRow, shiftTab_apply]

theorem host2_w1a (k : Fin 64) (j : Fin 32) :
    at2 (StableHlo.after hostOps2 Wv (Proc.devRef .tc main_v103)) k j = at2 (Wv (Proc.devRef .tc main_arg10)) j k := by
  have e : StableHlo.after hostOps2 Wv (Proc.devRef .tc main_v103)
      = transpose S64x32 [1, 0] (Wv (Proc.devRef .tc main_arg10)) transposes_S32x64_S64x32_1_0 := by
    simp only [hostOps2]; after_results_simp
  show StableHlo.after hostOps2 Wv (Proc.devRef .tc main_v103) (ix2 k j) = _
  rw [e]
  exact transpose_ix2_apply _ _ k j

theorem host2_w1b (j : Fin 32) (k : Fin 64) :
    at2 (StableHlo.after hostOps2 Wv (Proc.devRef .tc main_v104)) j k = at2 (Wv (Proc.devRef .tc main_arg12)) k j := by
  have e : StableHlo.after hostOps2 Wv (Proc.devRef .tc main_v104)
      = transpose S32x64 [1, 0] (Wv (Proc.devRef .tc main_arg12)) transposes_S64x32_S32x64_1_0 := by
    simp only [hostOps2]; after_results_simp
  show StableHlo.after hostOps2 Wv (Proc.devRef .tc main_v104) (ix2 j k) = _
  rw [e]
  exact transpose_ix2_apply _ _ j k

theorem host2_w2a (k : Fin 64) (j : Fin 32) :
    at2 (StableHlo.after hostOps2 Wv (Proc.devRef .tc main_v105)) k j = at2 (Wv (Proc.devRef .tc main_arg14)) j k := by
  have e : StableHlo.after hostOps2 Wv (Proc.devRef .tc main_v105)
      = transpose S64x32 [1, 0] (Wv (Proc.devRef .tc main_arg14)) transposes_S32x64_S64x32_1_0 := by
    simp only [hostOps2]; after_results_simp
  show StableHlo.after hostOps2 Wv (Proc.devRef .tc main_v105) (ix2 k j) = _
  rw [e]
  exact transpose_ix2_apply _ _ k j

theorem host2_w2b (j : Fin 32) (k : Fin 64) :
    at2 (StableHlo.after hostOps2 Wv (Proc.devRef .tc main_v106)) j k = at2 (Wv (Proc.devRef .tc main_arg16)) k j := by
  have e : StableHlo.after hostOps2 Wv (Proc.devRef .tc main_v106)
      = transpose S32x64 [1, 0] (Wv (Proc.devRef .tc main_arg16)) transposes_S64x32_S32x64_1_0 := by
    simp only [hostOps2]; after_results_simp
  show StableHlo.after hostOps2 Wv (Proc.devRef .tc main_v106) (ix2 j k) = _
  rw [e]
  exact transpose_ix2_apply _ _ j k

theorem host2_b1a (j : Fin 32) : at2 (StableHlo.after hostOps2 Wv (Proc.devRef .tc main_v107)) (0 : Fin 1) j = at1 (Wv (Proc.devRef .tc main_arg11)) j := by
  have e : StableHlo.after hostOps2 Wv (Proc.devRef .tc main_v107)
      = shapeCast S1x32 (Wv (Proc.devRef .tc main_arg11)) shapeCasts_S32_S1x32 := by
    simp only [hostOps2]; after_results_simp; rfl
  show StableHlo.after hostOps2 Wv (Proc.devRef .tc main_v107) (ix2 0 j) = _
  rw [e]
  exact shapeCast_a_1a_apply _ _ 0 j
theorem host2_b1b (k : Fin 64) : at2 (StableHlo.after hostOps2 Wv (Proc.devRef .tc main_v108)) (0 : Fin 1) k = at1 (Wv (Proc.devRef .tc main_arg13)) k := by
  have e : StableHlo.after hostOps2 Wv (Proc.devRef .tc main_v108)
      = shapeCast S1x64 (Wv (Proc.devRef .tc main_arg13)) shapeCasts_S64_S1x64 := by
    simp only [hostOps2]; after_results_simp; rfl
  show StableHlo.after hostOps2 Wv (Proc.devRef .tc main_v108) (ix2 0 k) = _
  rw [e]
  exact shapeCast_a_1a_apply _ _ 0 k
theorem host2_b2a (j : Fin 32) : at2 (StableHlo.after hostOps2 Wv (Proc.devRef .tc main_v109)) (0 : Fin 1) j = at1 (Wv (Proc.devRef .tc main_arg15)) j := by
  have e : StableHlo.after hostOps2 Wv (Proc.devRef .tc main_v109)
      = shapeCast S1x32 (Wv (Proc.devRef .tc main_arg15)) shapeCasts_S32_S1x32 := by
    simp only [hostOps2]; after_results_simp; rfl
  show StableHlo.after hostOps2 Wv (Proc.devRef .tc main_v109) (ix2 0 j) = _
  rw [e]
  exact shapeCast_a_1a_apply _ _ 0 j
theorem host2_b2b (k : Fin 64) : at2 (StableHlo.after hostOps2 Wv (Proc.devRef .tc main_v110)) (0 : Fin 1) k = at1 (Wv (Proc.devRef .tc main_arg17)) k := by
  have e : StableHlo.after hostOps2 Wv (Proc.devRef .tc main_v110)
      = shapeCast S1x64 (Wv (Proc.devRef .tc main_arg17)) shapeCasts_S64_S1x64 := by
    simp only [hostOps2]; after_results_simp; rfl
  show StableHlo.after hostOps2 Wv (Proc.devRef .tc main_v110) (ix2 0 k) = _
  rw [e]
  exact shapeCast_a_1a_apply _ _ 0 k

end Cert.KHost2

end
-- ==== Proof.KChain.lean ====
/-
  The kernel program's result as one formula of its arguments.

  The run threads three dense stages through two per-crystal normalisations. Each stage's output array is read off the
  stage's own description (the region's blocks tile the array; the host operations in between are read entry by
  entry), and each array a later stage reads is followed back to the stage that wrote it, or to the launch memory for an
  argument. Composed, the result at entry `(r, c)` is the one-pass form of the whole network.
-/
import proofs.«173249_j46248207843562_1_alg».proof.Proof.KRun
import proofs.«173249_j46248207843562_1_alg».proof.Proof.KReg0
import proofs.«173249_j46248207843562_1_alg».proof.Proof.KReg1
import proofs.«173249_j46248207843562_1_alg».proof.Proof.KReg2
import proofs.«173249_j46248207843562_1_alg».proof.Proof.KHost0
import proofs.«173249_j46248207843562_1_alg».proof.Proof.KHost1
import proofs.«173249_j46248207843562_1_alg».proof.Proof.KHost2
import proofs.«173249_j46248207843562_1_alg».proof.Proof.Spec
import proofs.«173249_j46248207843562_1_alg».proof.Proof.Arr
import proofs.«173249_j46248207843562_1_alg».proof.Proof.SegLib

set_option maxRecDepth 16384

noncomputable section

namespace Cert.KChain

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators
open Cert.Arr

variable (m : (ℓ : Loc nD τ sig) → Buf (Elt Ideal) ℓ) (ρ : Dev nD → PrngReg) (c : Dev nD)

/-- The small constant added to a variance, as the program's literal. -/
abbrev epsC : EReal := Ideal.ofBits .f32 0x3727C5AC#32
/-- The final scale `1/√2` rounded to single precision, as the program's literal. -/
abbrev c2C : EReal := Ideal.ofBits .f32 0x3F3504F3#32

/-! ## The arguments as coordinate functions -/

/-- The crystal id of every angle, as words. -/
abbrev segW : IVec ⟨1, ![1000000]⟩ 32 := words (m ((c : Thread nD τ).loc main_arg3))
/-- The angle features. -/
abbrev A : Fin 1000000 → Fin 64 → EReal := fun r k => at2 (m ((c : Thread nD τ).loc main_arg1)) r k
/-- The two gathered neighbour rows of every angle, side by side. -/
abbrev Nb : Fin 1000000 → Fin 128 → EReal := fun r k => at2 (Cert.KHost0.nbrK (m ((c : Thread nD τ).loc main_arg0)) (m ((c : Thread nD τ).loc main_arg2))) r k
/-- The fused weights. -/
abbrev Wf : Fin 128 → Fin 192 → EReal := fun j k => at2 (m ((c : Thread nD τ).loc main_arg4)) j k
/-- The mask weights. -/
abbrev wm : Fin 64 → EReal := fun k => at2 (m ((c : Thread nD τ).loc main_arg5)) (0 : Fin 1) k
abbrev g1 : Fin 128 → EReal := fun j => at1 (m ((c : Thread nD τ).loc main_arg6)) j
abbrev b1 : Fin 128 → EReal := fun j => at1 (m ((c : Thread nD τ).loc main_arg7)) j
abbrev g2 : Fin 64 → EReal := fun j => at1 (m ((c : Thread nD τ).loc main_arg8)) j
abbrev b2 : Fin 64 → EReal := fun j => at1 (m ((c : Thread nD τ).loc main_arg9)) j
/-- The residual blocks' weights, transposed, and their biases. -/
abbrev W1aT : Fin 64 → Fin 32 → EReal := fun k j => at2 (m ((c : Thread nD τ).loc main_arg10)) j k
abbrev b1a : Fin 32 → EReal := fun j => at1 (m ((c : Thread nD τ).loc main_arg11)) j
abbrev W1bT : Fin 32 → Fin 64 → EReal := fun j k => at2 (m ((c : Thread nD τ).loc main_arg12)) k j
abbrev b1b : Fin 64 → EReal := fun k => at1 (m ((c : Thread nD τ).loc main_arg13)) k
abbrev W2aT : Fin 64 → Fin 32 → EReal := fun k j => at2 (m ((c : Thread nD τ).loc main_arg14)) j k
abbrev b2a : Fin 32 → EReal := fun j => at1 (m ((c : Thread nD τ).loc main_arg15)) j
abbrev W2bT : Fin 32 → Fin 64 → EReal := fun j k => at2 (m ((c : Thread nD τ).loc main_arg16)) k j
abbrev b2b : Fin 64 → EReal := fun k => at1 (m ((c : Thread nD τ).loc main_arg17)) k

/-- The linear layer's output in the two-product form. -/
abbrev gatedF : Fin 1000000 → Fin 128 → EReal := Cert.Spec.gatedK (A m c) (Nb m c) (Wf m c)
/-- The first normalisation, one-pass form. -/
abbrev norm1F : Fin 1000000 → Fin 128 → EReal := fun r j =>
  Cert.Spec.normK epsC (Cert.SegLib.segZ (segW m c)) (Cert.SegLib.gatOf 2048 (by decide) (segW m c)) (fun r₀ => gatedF m c r₀ j) (g1 m c j) (b1 m c j) r
/-- The gate's output. -/
abbrev gateF : Fin 1000000 → Fin 64 → EReal := Cert.Spec.gate (norm1F m c) (wm m c)
/-- The second normalisation, one-pass form. -/
abbrev norm2F : Fin 1000000 → Fin 64 → EReal := fun r k =>
  Cert.Spec.normK epsC (Cert.SegLib.segZ (segW m c)) (Cert.SegLib.gatOf 2048 (by decide) (segW m c)) (fun r₀ => gateF m c r₀ k) (g2 m c k) (b2 m c k) r

/-! ## Stage by stage -/

/-- After the first kernel: the linear layer's output. -/
theorem gated_eq (r : Fin 1000000) (j : Fin 128) :
    at2 (W2 m ρ c (Proc.devRef .tc main_v11)) r j = gatedF m c r j := by
  have e2 : W2 m ρ c (Proc.devRef .tc main_v11) = (dat0 (V1 m ρ) c).arrAt 4 cfg0.N := W2_arr m ρ c 4
  rw [e2, Cert.KValue.region0_value (V1 m ρ) c r j]
  have eA : V1 m ρ c main_arg1 = (m ((c : Thread nD τ).loc main_arg1)) := W1_main_arg1 m ρ c
  have eN : V1 m ρ c main_v7 = Cert.KHost0.nbrK (m ((c : Thread nD τ).loc main_arg0)) (m ((c : Thread nD τ).loc main_arg2)) :=
    Cert.KHost0.host0_nbr (W0 m ρ c)
  have ea : ∀ (k : Fin 64), at2 (V1 m ρ c main_v9) k j = at2 (m ((c : Thread nD τ).loc main_arg4)) j (Fin.castAdd 128 k) :=
    fun k => Cert.KHost0.host0_wa (W0 m ρ c) k j
  have eb : ∀ (k : Fin 128), at2 (V1 m ρ c main_v10) k j = at2 (m ((c : Thread nD τ).loc main_arg4)) j (Fin.natAdd 64 k) :=
    fun k => Cert.KHost0.host0_wb (W0 m ρ c) k j
  rw [eA, eN]
  simp only [ea, eb]
  rfl

/-- After the second kernel: the gate's output over the first normalisation. -/
theorem summed_eq (r : Fin 1000000) (k : Fin 64) :
    at2 (W4 m ρ c (Proc.devRef .tc main_v57)) r k = gateF m c r k := by
  have e4 : W4 m ρ c (Proc.devRef .tc main_v57) = (dat1 (V3 m ρ) c).arrAt 4 cfg1.N := W4_arr m ρ c 4
  rw [e4, Cert.KValue1.region1_value (V3 m ρ) c r k]
  refine congrArg₂ (fun xn w => Cert.Spec.gate xn w r k) ?_ ?_
  · funext r' j
    have ex : V3 m ρ c main_v11 = W2 m ρ c (Proc.devRef .tc main_v11) := W3_main_v11 m ρ c
    have es : at2 (V3 m ρ c main_v49) r' j = _ := Cert.KHost1.host1_scale (W2 m ρ c) r' j
    have eh : at2 (V3 m ρ c main_v56) r' j = _ := Cert.KHost1.host1_shift (W2 m ρ c) r' j
    have e3 : W2 m ρ c (Proc.devRef .tc main_arg3) = (m ((c : Thread nD τ).loc main_arg3)) := W2_main_arg3 m ρ c
    have e6 : W2 m ρ c (Proc.devRef .tc main_arg6) = (m ((c : Thread nD τ).loc main_arg6)) := W2_main_arg6 m ρ c
    have e7 : W2 m ρ c (Proc.devRef .tc main_arg7) = (m ((c : Thread nD τ).loc main_arg7)) := W2_main_arg7 m ρ c
    rw [es, eh, ex, e3, e6, e7]
    simp only [gated_eq m ρ c]
    rfl
  · funext k'
    have e5 : V3 m ρ c main_arg5 = (m ((c : Thread nD τ).loc main_arg5)) := W3_main_arg5 m ρ c
    rw [e5]

/-- After the third kernel: the residual blocks over the second normalisation. THE KERNEL PROGRAM'S RESULT. -/
theorem kernel_value (r : Fin 1000000) (k : Fin 64) :
    at2 (W6 m ρ c (Proc.devRef .tc main_v111)) r k
      = Cert.Spec.outK epsC c2C (Cert.SegLib.segZ (segW m c)) (Cert.SegLib.gatOf 2048 (by decide) (segW m c))
          (A m c) (Nb m c) (Wf m c) (wm m c) (g1 m c) (b1 m c) (g2 m c) (b2 m c)
          (W1aT m c) (b1a m c) (W1bT m c) (b1b m c) (W2aT m c) (b2a m c) (W2bT m c) (b2b m c) r k := by
  have e6 : W6 m ρ c (Proc.devRef .tc main_v111) = (dat2 (V5 m ρ) c).arrAt 12 cfg2.N := W6_arr m ρ c 12
  rw [e6, Cert.KValue2.region2_value (V5 m ρ) c r k]
  show _ = Cert.Spec.mlp c2C (norm2F m c) (A m c) (W1aT m c) (b1a m c) (W1bT m c) (b1b m c) (W2aT m c) (b2a m c) (W2bT m c) (b2b m c) r k
  have hx : (fun r' k' => at2 (V5 m ρ c main_v57) r' k' * at2 (V5 m ρ c main_v95) r' k' + at2 (V5 m ρ c main_v102) r' k') = norm2F m c := by
    funext r' k'
    have ex : V5 m ρ c main_v57 = W4 m ρ c (Proc.devRef .tc main_v57) := W5_main_v57 m ρ c
    have es : at2 (V5 m ρ c main_v95) r' k' = _ := Cert.KHost2.host2_scale (W4 m ρ c) r' k'
    have eh : at2 (V5 m ρ c main_v102) r' k' = _ := Cert.KHost2.host2_shift (W4 m ρ c) r' k'
    have e3 : W4 m ρ c (Proc.devRef .tc main_arg3) = (m ((c : Thread nD τ).loc main_arg3)) := W4_main_arg3 m ρ c
    have e8 : W4 m ρ c (Proc.devRef .tc main_arg8) = (m ((c : Thread nD τ).loc main_arg8)) := W4_main_arg8 m ρ c
    have e9 : W4 m ρ c (Proc.devRef .tc main_arg9) = (m ((c : Thread nD τ).loc main_arg9)) := W4_main_arg9 m ρ c
    rw [es, eh, ex, e3, e8, e9]
    simp only [summed_eq m ρ c]
    rfl
  have hA : (fun r' k' => at2 (V5 m ρ c main_arg1) r' k') = A m c := by
    have e1 : V5 m ρ c main_arg1 = (m ((c : Thread nD τ).loc main_arg1)) := W5_main_arg1 m ρ c
    rw [e1]
  have h1 : (fun k' j => at2 (V5 m ρ c main_v103) k' j) = W1aT m c := by
    funext k' j
    have e := Cert.KHost2.host2_w1a (W4 m ρ c) k' j
    have ea : W4 m ρ c (Proc.devRef .tc main_arg10) = (m ((c : Thread nD τ).loc main_arg10)) := W4_main_arg10 m ρ c
    rw [ea] at e; exact e
  have h2 : (fun j => at2 (V5 m ρ c main_v107) (0 : Fin 1) j) = b1a m c := by
    funext j
    have e := Cert.KHost2.host2_b1a (W4 m ρ c) j
    have ea : W4 m ρ c (Proc.devRef .tc main_arg11) = (m ((c : Thread nD τ).loc main_arg11)) := W4_main_arg11 m ρ c
    rw [ea] at e; exact e
  have h3 : (fun j k' => at2 (V5 m ρ c main_v104) j k') = W1bT m c := by
    funext j k'
    have e := Cert.KHost2.host2_w1b (W4 m ρ c) j k'
    have ea : W4 m ρ c (Proc.devRef .tc main_arg12) = (m ((c : Thread nD τ).loc main_arg12)) := W4_main_arg12 m ρ c
    rw [ea] at e; exact e
  have h4 : (fun k' => at2 (V5 m ρ c main_v108) (0 : Fin 1) k') = b1b m c := by
    funext k'
    have e := Cert.KHost2.host2_b1b (W4 m ρ c) k'
    have ea : W4 m ρ c (Proc.devRef .tc main_arg13) = (m ((c : Thread nD τ).loc main_arg13)) := W4_main_arg13 m ρ c
    rw [ea] at e; exact e
  have h5 : (fun k' j => at2 (V5 m ρ c main_v105) k' j) = W2aT m c := by
    funext k' j
    have e := Cert.KHost2.host2_w2a (W4 m ρ c) k' j
    have ea : W4 m ρ c (Proc.devRef .tc main_arg14) = (m ((c : Thread nD τ).loc main_arg14)) := W4_main_arg14 m ρ c
    rw [ea] at e; exact e
  have h6 : (fun j => at2 (V5 m ρ c main_v109) (0 : Fin 1) j) = b2a m c := by
    funext j
    have e := Cert.KHost2.host2_b2a (W4 m ρ c) j
    have ea : W4 m ρ c (Proc.devRef .tc main_arg15) = (m ((c : Thread nD τ).loc main_arg15)) := W4_main_arg15 m ρ c
    rw [ea] at e; exact e
  have h7 : (fun j k' => at2 (V5 m ρ c main_v106) j k') = W2bT m c := by
    funext j k'
    have e := Cert.KHost2.host2_w2b (W4 m ρ c) j k'
    have ea : W4 m ρ c (Proc.devRef .tc main_arg16) = (m ((c : Thread nD τ).loc main_arg16)) := W4_main_arg16 m ρ c
    rw [ea] at e; exact e
  have h8 : (fun k' => at2 (V5 m ρ c main_v110) (0 : Fin 1) k') = b2b m c := by
    funext k'
    have e := Cert.KHost2.host2_b2b (W4 m ρ c) k'
    have ea : W4 m ρ c (Proc.devRef .tc main_arg17) = (m ((c : Thread nD τ).loc main_arg17)) := W4_main_arg17 m ρ c
    rw [ea] at e; exact e
  rw [hx, hA, h1, h2, h3, h4, h5, h6, h7, h8]

end Cert.KChain

end
-- ==== Proof.RValA.lean ====
/-
  The reference program read entry by entry, the joined features against the weights, and the gate over the
  normalised array.
-/
import proofs.«173249_j46248207843562_1_alg».proof.Proof.Gen.ReferenceIdeal.Read
import proofs.«173249_j46248207843562_1_alg».proof.Proof.Spec
import proofs.«173249_j46248207843562_1_alg».proof.Proof.SegLib
import Idealize.ShloMosaic.Lib.Pipeline.Value
import Idealize.ShloMosaic.Lib.ValueIdx
import Idealize.ShloMosaic.PureOps.Ideal.Laws

noncomputable section

namespace Cert.RValue

open Cert.ReferenceIdeal Cert.ReferenceIdeal.Read Cert.ReferenceIdeal.Gen
open Idealize.ShloMosaic Idealize.ShloMosaic.ValueIdx
open scoped BigOperators

/-- The small constant added to a variance, as the program's literal. -/
abbrev epsC : EReal := Ideal.ofBits .f32 0x3727C5AC#32
/-- The final scale `1/√2` rounded to single precision, as the program's literal. -/
abbrev c2C : EReal := Ideal.ofBits .f32 0x3F3504F3#32

/-- The joined features at row r, column k: the first 64 columns are the first array's, the next 128 the second's. -/
private theorem v8_at (x0 : (⟨S400000x64, .f32⟩ : BufTy).Contents (Elt Ideal)) (x1 : (⟨S1000000x64, .f32⟩ : BufTy).Contents (Elt Ideal)) (x2 : (⟨S1000000x2, .i32⟩ : BufTy).Contents (Elt Ideal)) (r : Fin 1000000) (k : Fin 192) :
    val_main_v8 (F := Ideal) x0 x1 x2 (ix2 r k)
      = (Fin.addCases (fun k : Fin 64 => x1 (ix2 r k)) (fun k : Fin 128 => val_main_v7 (F := Ideal) x0 x2 (ix2 r k)) k : EReal) := by
  unfold val_main_v8
  generalize val_main_v7 (F := Ideal) x0 x2 = y
  refine Fin.addCases (m := 64) (n := 128) (fun k => ?_) (fun k => ?_) k
  · rw [Fin.addCases_left]
    exact concatenate_pair_apply_left 1 x1 y concatenates_S1000000x64_S1000000x128_S1000000x192_d1 _ rfl _ (fun b => by
      match b with
      | ⟨0, _⟩ => rfl
      | ⟨1, _⟩ => rfl)
  · rw [Fin.addCases_right]
    exact concatenate_pair_apply_right 1 x1 y concatenates_S1000000x64_S1000000x128_S1000000x192_d1 _ rfl rfl _
      (fun b hb => by
        match b with
        | ⟨0, _⟩ => rfl
        | ⟨1, _⟩ => exact absurd rfl hb)
      (by show k.val + 64 = 64 + k.val; omega)

/-- The fused linear layer: entry (r, j) is the sum over the 192 joined features. -/
theorem ref_gated (x0 : (⟨S400000x64, .f32⟩ : BufTy).Contents (Elt Ideal)) (x1 : (⟨S1000000x64, .f32⟩ : BufTy).Contents (Elt Ideal)) (x2 : (⟨S1000000x2, .i32⟩ : BufTy).Contents (Elt Ideal)) (x3 : (⟨S1000000, .i32⟩ : BufTy).Contents (Elt Ideal)) (x4 : (⟨S128x192, .f32⟩ : BufTy).Contents (Elt Ideal)) (r : Fin 1000000) (j : Fin 128) :
    val_main_v10 (F := Ideal) x0 x1 x2 x4 (ix2 r j)
      = Cert.Spec.gatedR (fun r k => x1 (ix2 r k)) (fun r k => val_main_v7 (F := Ideal) x0 x2 (ix2 r k)) (fun j k => x4 (ix2 j k)) r j := by
  rw [val_main_v10_apply]
  unfold Cert.Spec.gatedR
  refine Finset.sum_congr rfl fun k _ => ?_
  have el : lidx_main_v10 (ix2 r j) k = ix2 r k := funext fun a => Fin.ext (by
    match a with
    | ⟨0, _⟩ => rfl
    | ⟨1, _⟩ => rfl)
  have er : idx_main_v9 (ridx_main_v10 (ix2 r j) k) = ix2 j k := funext fun a => Fin.ext (by
    match a with
    | ⟨0, _⟩ => rfl
    | ⟨1, _⟩ => rfl)
  rw [val_main_v9_apply, el, er, v8_at]

/-- The gate over the normalised array. -/
theorem ref_gate (x0 : (⟨S400000x64, .f32⟩ : BufTy).Contents (Elt Ideal)) (x1 : (⟨S1000000x64, .f32⟩ : BufTy).Contents (Elt Ideal)) (x2 : (⟨S1000000x2, .i32⟩ : BufTy).Contents (Elt Ideal)) (x3 : (⟨S1000000, .i32⟩ : BufTy).Contents (Elt Ideal)) (x4 : (⟨S128x192, .f32⟩ : BufTy).Contents (Elt Ideal)) (x5 : (⟨S1x64, .f32⟩ : BufTy).Contents (Elt Ideal)) (x6 x7 : (⟨S128, .f32⟩ : BufTy).Contents (Elt Ideal)) (r : Fin 1000000) (c : Fin 64) :
    val_main_v60 (F := Ideal) x0 x1 x2 x3 x4 x5 x6 x7 (ix2 r c)
      = Cert.Spec.gate (fun r' j => val_main_v52 (F := Ideal) x0 x1 x2 x3 x4 x6 x7 (ix2 r' j)) (fun k => x5 (ix2 (0 : Fin 1) k)) r c := by
  rw [val_main_v60_apply, val_main_v59_apply, val_main_v58_apply, val_main_v57_apply, val_main_v55_apply,
    val_main_v53_apply, val_main_call0_v0_apply, val_main_call0_cst_apply]
  unfold Cert.Spec.gate
  simp only [Ideal.mulf_def, Ideal.maximumf_def, Ideal.hostUnary_tanh_def, Ideal.ofBits_def, Ideal.ofBits_zero_f32]
  have e53 : idx_main_v53 (ix2 r c) = (ix2 r (Fin.castAdd 64 c : Fin 128) : S1000000x128.Idx) :=
    funext fun a => Fin.ext (by
      match a with
      | ⟨0, _⟩ => rfl
      | ⟨1, _⟩ => rfl)
  have esum : ∀ k : Fin 64,
      val_main_v54 (F := Ideal) x0 x1 x2 x3 x4 x6 x7 (lidx_main_v57 (idx_main_v59 (ix2 r c)) k)
          * val_main_v56 (F := Ideal) x5 (ridx_main_v57 (idx_main_v59 (ix2 r c)) k)
        = val_main_v52 (F := Ideal) x0 x1 x2 x3 x4 x6 x7 (ix2 r (Fin.natAdd 64 k : Fin 128)) * x5 (ix2 (0 : Fin 1) k) := by
    intro k
    have e54 : idx_main_v54 (lidx_main_v57 (idx_main_v59 (ix2 r c)) k) = (ix2 r (Fin.natAdd 64 k : Fin 128) : S1000000x128.Idx) :=
      funext fun a => Fin.ext (by
        match a with
        | ⟨0, _⟩ => rfl
        | ⟨1, _⟩ => rfl)
    have e56 : idx_main_v56 (ridx_main_v57 (idx_main_v59 (ix2 r c)) k) = (ix2 (0 : Fin 1) k : S1x64.Idx) :=
      funext fun a => Fin.ext (by
        match a with
        | ⟨0, _⟩ => rfl
        | ⟨1, _⟩ => rfl)
    rw [val_main_v54_apply, val_main_v56_apply, e54, e56]
  rw [e53, Finset.sum_congr rfl fun k _ => esum k]

end Cert.RValue

end
-- ==== Proof.RNorm.lean ====
/-
  The reference program's two per-crystal normalisations read entry by entry, in the two-pass form: centre each
  column at its crystal's mean, divide by the root of the mean of the centred squares plus a small constant, scale
  and shift. The first runs over the 128 columns of the linear layer's output, the second over the 64 columns of the
  gate's output.
-/
import proofs.«173249_j46248207843562_1_alg».proof.Proof.Gen.ReferenceIdeal.Read
import proofs.«173249_j46248207843562_1_alg».proof.Proof.Spec
import proofs.«173249_j46248207843562_1_alg».proof.Proof.SegLib
import Idealize.ShloMosaic.Lib.Pipeline.Value
import Idealize.ShloMosaic.Lib.ValueIdx
import Idealize.ShloMosaic.Lib.IdealHost
import Idealize.ShloMosaic.PureOps.Ideal.Laws

noncomputable section

namespace Cert.RNorm

open Cert.ReferenceIdeal Cert.ReferenceIdeal.Read
open Idealize.ShloMosaic Idealize.ShloMosaic.ValueIdx
open scoped BigOperators

/-- The small constant added to a variance, as the program's literal. -/
abbrev epsC : EReal := Ideal.ofBits .f32 0x3727C5AC#32
/-- The final scale `1/√2` rounded to single precision, as the program's literal. -/
abbrev c2C : EReal := Ideal.ofBits .f32 0x3F3504F3#32

/-! ### Segment sums and segment reads over a table of 2048 rows -/

/-- A table that is zero everywhere receives at `(k, c)` the sum of column `c` over the rows whose id is `k`. -/
private theorem seg_table {W : ℕ}
    (wf : ScatterDims.WF ⟨2, ![2048, W]⟩ ⟨2, ![1000000, 1]⟩ ⟨2, ![1000000, W]⟩ [1] [0] [0] 1)
    (z : FVec Ideal ⟨2, ![2048, W]⟩ .f32) (idx : IVec ⟨2, ![1000000, 1]⟩ 32)
    (upd : FVec Ideal ⟨2, ![1000000, W]⟩ .f32) (x3 : IVec ⟨1, ![1000000]⟩ 32)
    (hz : ∀ i, z i = 0) (hidx : ∀ r : Fin 1000000, idx (ix2 r (0 : Fin 1)) = x3 (ix1 r))
    (k : Fin 2048) (c : Fin W) :
    Host.scatterAdd (Cert.SegLib.segScatter 2048 W 1000000 wf) z idx upd (ix2 k c)
      = Cert.Spec.segSum (Cert.SegLib.segZ x3) (fun r => upd (ix2 r c)) k := by
  rw [Cert.SegLib.scatterAdd_apply, hz, zero_add]
  unfold Cert.Spec.segSum Cert.SegLib.segZ
  simp only [hidx]

/-- A row reads the table at its id moved into range. -/
private theorem seg_read {W : ℕ}
    (wf : GatherDims.WF ⟨2, ![2048, W]⟩ ⟨2, ![1000000, 1]⟩ ⟨2, ![1000000, W]⟩ [1] [0] [] [0] [] 1 ![1, W])
    (T : FVec Ideal ⟨2, ![2048, W]⟩ .f32) (idx : IVec ⟨2, ![1000000, 1]⟩ 32) (x3 : IVec ⟨1, ![1000000]⟩ 32)
    (hidx : ∀ r : Fin 1000000,
      idx (ix2 r (0 : Fin 1)) = Cert.SegLib.normId (BitVec.ofNat 32 2048) (x3 (ix1 r)))
    (r : Fin 1000000) (c : Fin W) :
    Host.gather (Cert.SegLib.segGather 2048 W 1000000 wf) T idx (ix2 r c)
      = T (ix2 (Cert.SegLib.gatOf 2048 (by decide) x3 r) c) := by
  rw [Cert.SegLib.gather_apply (by decide)]
  have h : (⟨min (idx (ix2 r (0 : Fin 1))).toInt.toNat (2048 - 1), by omega⟩ : Fin 2048)
      = Cert.SegLib.gatOf 2048 (by decide) x3 r := by
    apply Fin.ext
    show min (idx (ix2 r (0 : Fin 1))).toInt.toNat (2048 - 1)
      = min (Cert.SegLib.normId (BitVec.ofNat 32 2048) (x3 (ix1 r))).toInt.toNat (2048 - 1)
    rw [hidx]
  exact congrArg (fun q => T (ix2 q c)) h

/-- The count table's dimension numbers are the segment sum's at width one. -/
private theorem scat1_eq : scatter_S2048x1_S1000000x1_S1000000x1_1_0_0_1
    = Cert.SegLib.segScatter 2048 1 1000000 Facts₀.scatter_S2048x1_S1000000x1_S1000000x1_1_0_0_1_wf := rfl

/-! ### The first normalisation: 128 columns -/

section First

variable (x0 : (⟨S400000x64, .f32⟩ : BufTy).Contents (Elt Ideal)) (x1 : (⟨S1000000x64, .f32⟩ : BufTy).Contents (Elt Ideal))
  (x2 : (⟨S1000000x2, .i32⟩ : BufTy).Contents (Elt Ideal)) (x3 : (⟨S1000000, .i32⟩ : BufTy).Contents (Elt Ideal))
  (x4 : (⟨S128x192, .f32⟩ : BufTy).Contents (Elt Ideal)) (x6 x7 : (⟨S128, .f32⟩ : BufTy).Contents (Elt Ideal))

/-- The width-128 segment sum's dimension numbers. -/
private theorem scat128_eq : scatter_S2048x128_S1000000x1_S1000000x128_1_0_0_1
    = Cert.SegLib.segScatter 2048 128 1000000 Facts₀.scatter_S2048x128_S1000000x1_S1000000x128_1_0_0_1_wf := rfl

/-- The width-128 segment read's dimension numbers. -/
private theorem gath128_eq : gather_S2048x128_S1000000x1_S1000000x128_1_0_n_n_0_1_1128
    = Cert.SegLib.segGather 2048 128 1000000 Facts₀.gather_S2048x128_S1000000x1_S1000000x128_1_0_n_n_0_1_1128_wf := rfl

/-- The ids as a column, for the count. -/
private theorem n1_seg_a (r : Fin 1000000) : val_main_v13 (F := Ideal) x3 (ix2 r (0 : Fin 1)) = x3 (ix1 r) := by
  rw [val_main_v13_apply]
  exact congrArg x3 (funext fun a => Fin.ext (by match a with | ⟨0, _⟩ => rfl))

/-- The ids as a column, for the sums. -/
private theorem n1_seg_b (r : Fin 1000000) : val_main_v18 (F := Ideal) x3 (ix2 r (0 : Fin 1)) = x3 (ix1 r) := by
  rw [val_main_v18_apply]
  exact congrArg x3 (funext fun a => Fin.ext (by match a with | ⟨0, _⟩ => rfl))

/-- The ids as a column, for the sums of squares. -/
private theorem n1_seg_c (r : Fin 1000000) : val_main_v32 (F := Ideal) x3 (ix2 r (0 : Fin 1)) = x3 (ix1 r) := by
  rw [val_main_v32_apply]
  exact congrArg x3 (funext fun a => Fin.ext (by match a with | ⟨0, _⟩ => rfl))

/-- The ids moved into range, as a column, for the read of the means. -/
private theorem n1_gat_a (r : Fin 1000000) :
    val_main_v27 (F := Ideal) x3 (ix2 r (0 : Fin 1)) = Cert.SegLib.normId (BitVec.ofNat 32 2048) (x3 (ix1 r)) := by
  have e : idx_main_v27 (ix2 r (0 : Fin 1)) = ix1 r := funext fun a => Fin.ext (by match a with | ⟨0, _⟩ => rfl)
  rw [val_main_v27_apply, val_main_v26_apply, val_main_v23_apply, val_main_v25_apply, val_main_v22_apply, val_main_v24_apply,
    val_main_c_4_apply, val_main_c_5_apply, e]
  rfl

/-- The ids moved into range, as a column, for the read of the scales. -/
private theorem n1_gat_b (r : Fin 1000000) :
    val_main_v44 (F := Ideal) x3 (ix2 r (0 : Fin 1)) = Cert.SegLib.normId (BitVec.ofNat 32 2048) (x3 (ix1 r)) := by
  have e : idx_main_v44 (ix2 r (0 : Fin 1)) = ix1 r := funext fun a => Fin.ext (by match a with | ⟨0, _⟩ => rfl)
  rw [val_main_v44_apply, val_main_v43_apply, val_main_v40_apply, val_main_v42_apply, val_main_v39_apply, val_main_v41_apply,
    val_main_c_8_apply, val_main_c_9_apply, e]
  rfl

/-- The count of a crystal's rows, at least one. -/
private theorem n1_cnt_at (k : Fin 2048) :
    val_main_v16 (F := Ideal) x3 (ix2 k (0 : Fin 1)) = Cert.Spec.cnt (Cert.SegLib.segZ x3) k := by
  rw [val_main_v16_apply, val_main_v15_apply, val_main_cst_2_apply]
  unfold val_main_v14
  rw [scat1_eq, seg_table _ _ _ _ x3
    (fun i => by rw [val_main_v12_apply, val_main_cst_1_apply]; exact Ideal.ofBits_zero_f32) (n1_seg_a x3)]
  simp only [val_main_v11_apply, val_main_cst_apply, Ideal.ofBits_def, Ideal.ofBits_one_f32, Ideal.maximumf_def]
  rfl

/-- The sum of a column over a crystal. -/
private theorem n1_sum_at (k : Fin 2048) (j : Fin 128) :
    val_main_v19 (F := Ideal) x0 x1 x2 x3 x4 (ix2 k j) = Cert.Spec.segSum (Cert.SegLib.segZ x3) (fun r' => val_main_v10 (F := Ideal) x0 x1 x2 x4 (ix2 r' j)) k := by
  unfold val_main_v19
  rw [scat128_eq]
  exact seg_table _ _ _ _ x3
    (fun i => by rw [val_main_v17_apply, val_main_cst_3_apply]; exact Ideal.ofBits_zero_f32) (n1_seg_b x3) k j

/-- The mean of a column over a crystal. -/
private theorem n1_mean_at (k : Fin 2048) (j : Fin 128) :
    val_main_v21 (F := Ideal) x0 x1 x2 x3 x4 (ix2 k j) = Cert.Spec.mean (Cert.SegLib.segZ x3) (fun r' => val_main_v10 (F := Ideal) x0 x1 x2 x4 (ix2 r' j)) k := by
  have e : idx_main_v20 (ix2 k j) = ix2 k (0 : Fin 1) := funext fun a => Fin.ext (by match a with | ⟨0, _⟩ => rfl | ⟨1, _⟩ => rfl)
  rw [val_main_v21_apply, n1_sum_at, val_main_v20_apply, e, n1_cnt_at]
  rfl

/-- The mean read back at a row's crystal. -/
private theorem n1_meanrow_at (r : Fin 1000000) (j : Fin 128) :
    val_main_v28 (F := Ideal) x0 x1 x2 x3 x4 (ix2 r j) = Cert.Spec.mean (Cert.SegLib.segZ x3) (fun r' => val_main_v10 (F := Ideal) x0 x1 x2 x4 (ix2 r' j)) ((Cert.SegLib.gatOf 2048 (by decide) x3) r) := by
  unfold val_main_v28
  rw [gath128_eq, seg_read _ _ _ x3 (n1_gat_a x3), n1_mean_at]

/-- The centred column. -/
private theorem n1_cen_at (r : Fin 1000000) (j : Fin 128) :
    val_main_v29 (F := Ideal) x0 x1 x2 x3 x4 (ix2 r j) = Cert.Spec.cen (Cert.SegLib.segZ x3) (Cert.SegLib.gatOf 2048 (by decide) x3) (fun r' => val_main_v10 (F := Ideal) x0 x1 x2 x4 (ix2 r' j)) r := by
  rw [val_main_v29_apply, n1_meanrow_at]
  rfl

/-- The sum of the centred squares over a crystal. -/
private theorem n1_sqsum_at (k : Fin 2048) (j : Fin 128) :
    val_main_v33 (F := Ideal) x0 x1 x2 x3 x4 (ix2 k j)
      = Cert.Spec.segSum (Cert.SegLib.segZ x3)
          (fun r => Cert.Spec.cen (Cert.SegLib.segZ x3) (Cert.SegLib.gatOf 2048 (by decide) x3) (fun r' => val_main_v10 (F := Ideal) x0 x1 x2 x4 (ix2 r' j)) r * Cert.Spec.cen (Cert.SegLib.segZ x3) (Cert.SegLib.gatOf 2048 (by decide) x3) (fun r' => val_main_v10 (F := Ideal) x0 x1 x2 x4 (ix2 r' j)) r) k := by
  unfold val_main_v33
  rw [scat128_eq, seg_table _ _ _ _ x3
    (fun i => by rw [val_main_v31_apply, val_main_cst_6_apply]; exact Ideal.ofBits_zero_f32) (n1_seg_c x3)]
  simp only [val_main_v30_apply, n1_cen_at, Ideal.mulf_def]

/-- The mean of the centred squares over a crystal. -/
private theorem n1_var_at (k : Fin 2048) (j : Fin 128) :
    val_main_v35 (F := Ideal) x0 x1 x2 x3 x4 (ix2 k j) = Cert.Spec.varR (Cert.SegLib.segZ x3) (Cert.SegLib.gatOf 2048 (by decide) x3) (fun r' => val_main_v10 (F := Ideal) x0 x1 x2 x4 (ix2 r' j)) k := by
  have e : idx_main_v34 (ix2 k j) = ix2 k (0 : Fin 1) := funext fun a => Fin.ext (by match a with | ⟨0, _⟩ => rfl | ⟨1, _⟩ => rfl)
  rw [val_main_v35_apply, n1_sqsum_at, val_main_v34_apply, e, n1_cnt_at]
  rfl

/-- The reciprocal root of the variance plus the small constant, per crystal. -/
private theorem n1_rs_at (k : Fin 2048) (j : Fin 128) :
    val_main_v38 (F := Ideal) x0 x1 x2 x3 x4 (ix2 k j)
      = Ideal.rsqrt (Cert.Spec.varR (Cert.SegLib.segZ x3) (Cert.SegLib.gatOf 2048 (by decide) x3) (fun r' => val_main_v10 (F := Ideal) x0 x1 x2 x4 (ix2 r' j)) k + epsC) := by
  rw [val_main_v38_apply, val_main_v37_apply, n1_var_at, val_main_v36_apply, val_main_cst_7_apply]
  simp only [Ideal.hostUnary_rsqrt_def, Ideal.addf_def, Ideal.ofBits_def]

/-- The reciprocal root read back at a row's crystal. -/
private theorem n1_rsrow_at (r : Fin 1000000) (j : Fin 128) :
    val_main_v45 (F := Ideal) x0 x1 x2 x3 x4 (ix2 r j)
      = Ideal.rsqrt (Cert.Spec.varR (Cert.SegLib.segZ x3) (Cert.SegLib.gatOf 2048 (by decide) x3) (fun r' => val_main_v10 (F := Ideal) x0 x1 x2 x4 (ix2 r' j)) ((Cert.SegLib.gatOf 2048 (by decide) x3) r) + epsC) := by
  unfold val_main_v45
  rw [gath128_eq, seg_read _ _ _ x3 (n1_gat_b x3), n1_rs_at]

/-- The scale vector spread over the rows. -/
private theorem n1_g_at (r : Fin 1000000) (j : Fin 128) :
    val_main_v48 (F := Ideal) x6 (ix2 r j) = x6 (ix1 j) := by
  rw [val_main_v48_apply, val_main_v47_apply]
  exact congrArg x6 (funext fun a => Fin.ext (by match a with | ⟨0, _⟩ => rfl))

/-- The shift vector spread over the rows. -/
private theorem n1_b_at (r : Fin 1000000) (j : Fin 128) :
    val_main_v51 (F := Ideal) x7 (ix2 r j) = x7 (ix1 j) := by
  rw [val_main_v51_apply, val_main_v50_apply]
  exact congrArg x7 (funext fun a => Fin.ext (by match a with | ⟨0, _⟩ => rfl))

end First

/-- The first normalisation, in the two-pass form, column by column of the linear layer's output. -/
theorem ref_norm1 (x0 : (⟨S400000x64, .f32⟩ : BufTy).Contents (Elt Ideal)) (x1 : (⟨S1000000x64, .f32⟩ : BufTy).Contents (Elt Ideal)) (x2 : (⟨S1000000x2, .i32⟩ : BufTy).Contents (Elt Ideal)) (x3 : (⟨S1000000, .i32⟩ : BufTy).Contents (Elt Ideal)) (x4 : (⟨S128x192, .f32⟩ : BufTy).Contents (Elt Ideal)) (x6 x7 : (⟨S128, .f32⟩ : BufTy).Contents (Elt Ideal)) (r : Fin 1000000) (j : Fin 128) :
    val_main_v52 (F := Ideal) x0 x1 x2 x3 x4 x6 x7 (ix2 r j)
      = Cert.Spec.normR epsC (Cert.SegLib.segZ x3) (Cert.SegLib.gatOf 2048 (by decide) x3)
          (fun r' => val_main_v10 (F := Ideal) x0 x1 x2 x4 (ix2 r' j)) (x6 (ix1 j)) (x7 (ix1 j)) r := by
  rw [val_main_v52_apply, val_main_v49_apply, val_main_v46_apply, n1_cen_at, n1_rsrow_at, n1_g_at, n1_b_at]
  rfl

/-! ### The second normalisation: 64 columns -/

section Second

variable (x0 : (⟨S400000x64, .f32⟩ : BufTy).Contents (Elt Ideal)) (x1 : (⟨S1000000x64, .f32⟩ : BufTy).Contents (Elt Ideal))
  (x2 : (⟨S1000000x2, .i32⟩ : BufTy).Contents (Elt Ideal)) (x3 : (⟨S1000000, .i32⟩ : BufTy).Contents (Elt Ideal))
  (x4 : (⟨S128x192, .f32⟩ : BufTy).Contents (Elt Ideal)) (x5 : (⟨S1x64, .f32⟩ : BufTy).Contents (Elt Ideal))
  (x6 x7 : (⟨S128, .f32⟩ : BufTy).Contents (Elt Ideal)) (x8 x9 : (⟨S64, .f32⟩ : BufTy).Contents (Elt Ideal))

/-- The width-64 segment sum's dimension numbers. -/
private theorem scat64_eq : scatter_S2048x64_S1000000x1_S1000000x64_1_0_0_1
    = Cert.SegLib.segScatter 2048 64 1000000 Facts₀.scatter_S2048x64_S1000000x1_S1000000x64_1_0_0_1_wf := rfl

/-- The width-64 segment read's dimension numbers. -/
private theorem gath64_eq : gather_S2048x64_S1000000x1_S1000000x64_1_0_n_n_0_1_164
    = Cert.SegLib.segGather 2048 64 1000000 Facts₀.gather_S2048x64_S1000000x1_S1000000x64_1_0_n_n_0_1_164_wf := rfl

/-- The ids as a column, for the count. -/
private theorem n2_seg_a (r : Fin 1000000) : val_main_v63 (F := Ideal) x3 (ix2 r (0 : Fin 1)) = x3 (ix1 r) := by
  rw [val_main_v63_apply]
  exact congrArg x3 (funext fun a => Fin.ext (by match a with | ⟨0, _⟩ => rfl))

/-- The ids as a column, for the sums. -/
private theorem n2_seg_b (r : Fin 1000000) : val_main_v68 (F := Ideal) x3 (ix2 r (0 : Fin 1)) = x3 (ix1 r) := by
  rw [val_main_v68_apply]
  exact congrArg x3 (funext fun a => Fin.ext (by match a with | ⟨0, _⟩ => rfl))

/-- The ids as a column, for the sums of squares. -/
private theorem n2_seg_c (r : Fin 1000000) : val_main_v82 (F := Ideal) x3 (ix2 r (0 : Fin 1)) = x3 (ix1 r) := by
  rw [val_main_v82_apply]
  exact congrArg x3 (funext fun a => Fin.ext (by match a with | ⟨0, _⟩ => rfl))

/-- The ids moved into range, as a column, for the read of the means. -/
private theorem n2_gat_a (r : Fin 1000000) :
    val_main_v77 (F := Ideal) x3 (ix2 r (0 : Fin 1)) = Cert.SegLib.normId (BitVec.ofNat 32 2048) (x3 (ix1 r)) := by
  have e : idx_main_v77 (ix2 r (0 : Fin 1)) = ix1 r := funext fun a => Fin.ext (by match a with | ⟨0, _⟩ => rfl)
  rw [val_main_v77_apply, val_main_v76_apply, val_main_v73_apply, val_main_v75_apply, val_main_v72_apply, val_main_v74_apply,
    val_main_c_14_apply, val_main_c_15_apply, e]
  rfl

/-- The ids moved into range, as a column, for the read of the scales. -/
private theorem n2_gat_b (r : Fin 1000000) :
    val_main_v94 (F := Ideal) x3 (ix2 r (0 : Fin 1)) = Cert.SegLib.normId (BitVec.ofNat 32 2048) (x3 (ix1 r)) := by
  have e : idx_main_v94 (ix2 r (0 : Fin 1)) = ix1 r := funext fun a => Fin.ext (by match a with | ⟨0, _⟩ => rfl)
  rw [val_main_v94_apply, val_main_v93_apply, val_main_v90_apply, val_main_v92_apply, val_main_v89_apply, val_main_v91_apply,
    val_main_c_18_apply, val_main_c_19_apply, e]
  rfl

/-- The count of a crystal's rows, at least one. -/
private theorem n2_cnt_at (k : Fin 2048) :
    val_main_v66 (F := Ideal) x3 (ix2 k (0 : Fin 1)) = Cert.Spec.cnt (Cert.SegLib.segZ x3) k := by
  rw [val_main_v66_apply, val_main_v65_apply, val_main_cst_12_apply]
  unfold val_main_v64
  rw [scat1_eq, seg_table _ _ _ _ x3
    (fun i => by rw [val_main_v62_apply, val_main_cst_11_apply]; exact Ideal.ofBits_zero_f32) (n2_seg_a x3)]
  simp only [val_main_v61_apply, val_main_cst_10_apply, Ideal.ofBits_def, Ideal.ofBits_one_f32, Ideal.maximumf_def]
  rfl

/-- The sum of a column over a crystal. -/
private theorem n2_sum_at (k : Fin 2048) (j : Fin 64) :
    val_main_v69 (F := Ideal) x0 x1 x2 x3 x4 x5 x6 x7 (ix2 k j) = Cert.Spec.segSum (Cert.SegLib.segZ x3) (fun r' => val_main_v60 (F := Ideal) x0 x1 x2 x3 x4 x5 x6 x7 (ix2 r' j)) k := by
  unfold val_main_v69
  rw [scat64_eq]
  exact seg_table _ _ _ _ x3
    (fun i => by rw [val_main_v67_apply, val_main_cst_13_apply]; exact Ideal.ofBits_zero_f32) (n2_seg_b x3) k j

/-- The mean of a column over a crystal. -/
private theorem n2_mean_at (k : Fin 2048) (j : Fin 64) :
    val_main_v71 (F := Ideal) x0 x1 x2 x3 x4 x5 x6 x7 (ix2 k j) = Cert.Spec.mean (Cert.SegLib.segZ x3) (fun r' => val_main_v60 (F := Ideal) x0 x1 x2 x3 x4 x5 x6 x7 (ix2 r' j)) k := by
  have e : idx_main_v70 (ix2 k j) = ix2 k (0 : Fin 1) := funext fun a => Fin.ext (by match a with | ⟨0, _⟩ => rfl | ⟨1, _⟩ => rfl)
  rw [val_main_v71_apply, n2_sum_at, val_main_v70_apply, e, n2_cnt_at]
  rfl

/-- The mean read back at a row's crystal. -/
private theorem n2_meanrow_at (r : Fin 1000000) (j : Fin 64) :
    val_main_v78 (F := Ideal) x0 x1 x2 x3 x4 x5 x6 x7 (ix2 r j) = Cert.Spec.mean (Cert.SegLib.segZ x3) (fun r' => val_main_v60 (F := Ideal) x0 x1 x2 x3 x4 x5 x6 x7 (ix2 r' j)) ((Cert.SegLib.gatOf 2048 (by decide) x3) r) := by
  unfold val_main_v78
  rw [gath64_eq, seg_read _ _ _ x3 (n2_gat_a x3), n2_mean_at]

/-- The centred column. -/
private theorem n2_cen_at (r : Fin 1000000) (j : Fin 64) :
    val_main_v79 (F := Ideal) x0 x1 x2 x3 x4 x5 x6 x7 (ix2 r j) = Cert.Spec.cen (Cert.SegLib.segZ x3) (Cert.SegLib.gatOf 2048 (by decide) x3) (fun r' => val_main_v60 (F := Ideal) x0 x1 x2 x3 x4 x5 x6 x7 (ix2 r' j)) r := by
  rw [val_main_v79_apply, n2_meanrow_at]
  rfl

/-- The sum of the centred squares over a crystal. -/
private theorem n2_sqsum_at (k : Fin 2048) (j : Fin 64) :
    val_main_v83 (F := Ideal) x0 x1 x2 x3 x4 x5 x6 x7 (ix2 k j)
      = Cert.Spec.segSum (Cert.SegLib.segZ x3)
          (fun r => Cert.Spec.cen (Cert.SegLib.segZ x3) (Cert.SegLib.gatOf 2048 (by decide) x3) (fun r' => val_main_v60 (F := Ideal) x0 x1 x2 x3 x4 x5 x6 x7 (ix2 r' j)) r * Cert.Spec.cen (Cert.SegLib.segZ x3) (Cert.SegLib.gatOf 2048 (by decide) x3) (fun r' => val_main_v60 (F := Ideal) x0 x1 x2 x3 x4 x5 x6 x7 (ix2 r' j)) r) k := by
  unfold val_main_v83
  rw [scat64_eq, seg_table _ _ _ _ x3
    (fun i => by rw [val_main_v81_apply, val_main_cst_16_apply]; exact Ideal.ofBits_zero_f32) (n2_seg_c x3)]
  simp only [val_main_v80_apply, n2_cen_at, Ideal.mulf_def]

/-- The mean of the centred squares over a crystal. -/
private theorem n2_var_at (k : Fin 2048) (j : Fin 64) :
    val_main_v85 (F := Ideal) x0 x1 x2 x3 x4 x5 x6 x7 (ix2 k j) = Cert.Spec.varR (Cert.SegLib.segZ x3) (Cert.SegLib.gatOf 2048 (by decide) x3) (fun r' => val_main_v60 (F := Ideal) x0 x1 x2 x3 x4 x5 x6 x7 (ix2 r' j)) k := by
  have e : idx_main_v84 (ix2 k j) = ix2 k (0 : Fin 1) := funext fun a => Fin.ext (by match a with | ⟨0, _⟩ => rfl | ⟨1, _⟩ => rfl)
  rw [val_main_v85_apply, n2_sqsum_at, val_main_v84_apply, e, n2_cnt_at]
  rfl

/-- The reciprocal root of the variance plus the small constant, per crystal. -/
private theorem n2_rs_at (k : Fin 2048) (j : Fin 64) :
    val_main_v88 (F := Ideal) x0 x1 x2 x3 x4 x5 x6 x7 (ix2 k j)
      = Ideal.rsqrt (Cert.Spec.varR (Cert.SegLib.segZ x3) (Cert.SegLib.gatOf 2048 (by decide) x3) (fun r' => val_main_v60 (F := Ideal) x0 x1 x2 x3 x4 x5 x6 x7 (ix2 r' j)) k + epsC) := by
  rw [val_main_v88_apply, val_main_v87_apply, n2_var_at, val_main_v86_apply, val_main_cst_17_apply]
  simp only [Ideal.hostUnary_rsqrt_def, Ideal.addf_def, Ideal.ofBits_def]

/-- The reciprocal root read back at a row's crystal. -/
private theorem n2_rsrow_at (r : Fin 1000000) (j : Fin 64) :
    val_main_v95 (F := Ideal) x0 x1 x2 x3 x4 x5 x6 x7 (ix2 r j)
      = Ideal.rsqrt (Cert.Spec.varR (Cert.SegLib.segZ x3) (Cert.SegLib.gatOf 2048 (by decide) x3) (fun r' => val_main_v60 (F := Ideal) x0 x1 x2 x3 x4 x5 x6 x7 (ix2 r' j)) ((Cert.SegLib.gatOf 2048 (by decide) x3) r) + epsC) := by
  unfold val_main_v95
  rw [gath64_eq, seg_read _ _ _ x3 (n2_gat_b x3), n2_rs_at]

/-- The scale vector spread over the rows. -/
private theorem n2_g_at (r : Fin 1000000) (j : Fin 64) :
    val_main_v98 (F := Ideal) x8 (ix2 r j) = x8 (ix1 j) := by
  rw [val_main_v98_apply, val_main_v97_apply]
  exact congrArg x8 (funext fun a => Fin.ext (by match a with | ⟨0, _⟩ => rfl))

/-- The shift vector spread over the rows. -/
private theorem n2_b_at (r : Fin 1000000) (j : Fin 64) :
    val_main_v101 (F := Ideal) x9 (ix2 r j) = x9 (ix1 j) := by
  rw [val_main_v101_apply, val_main_v100_apply]
  exact congrArg x9 (funext fun a => Fin.ext (by match a with | ⟨0, _⟩ => rfl))

end Second

/-- The second normalisation, in the two-pass form, column by column of the gate's output. -/
theorem ref_norm2 (x0 : (⟨S400000x64, .f32⟩ : BufTy).Contents (Elt Ideal)) (x1 : (⟨S1000000x64, .f32⟩ : BufTy).Contents (Elt Ideal)) (x2 : (⟨S1000000x2, .i32⟩ : BufTy).Contents (Elt Ideal)) (x3 : (⟨S1000000, .i32⟩ : BufTy).Contents (Elt Ideal)) (x4 : (⟨S128x192, .f32⟩ : BufTy).Contents (Elt Ideal)) (x5 : (⟨S1x64, .f32⟩ : BufTy).Contents (Elt Ideal)) (x6 x7 : (⟨S128, .f32⟩ : BufTy).Contents (Elt Ideal)) (x8 x9 : (⟨S64, .f32⟩ : BufTy).Contents (Elt Ideal)) (r : Fin 1000000) (c : Fin 64) :
    val_main_v102 (F := Ideal) x0 x1 x2 x3 x4 x5 x6 x7 x8 x9 (ix2 r c)
      = Cert.Spec.normR epsC (Cert.SegLib.segZ x3) (Cert.SegLib.gatOf 2048 (by decide) x3)
          (fun r' => val_main_v60 (F := Ideal) x0 x1 x2 x3 x4 x5 x6 x7 (ix2 r' c)) (x8 (ix1 c)) (x9 (ix1 c)) r := by
  rw [val_main_v102_apply, val_main_v99_apply, val_main_v96_apply, n2_cen_at, n2_rsrow_at, n2_g_at, n2_b_at]
  rfl

end Cert.RNorm

end
-- ==== Proof.RMlp.lean ====
/-
  The reference program's residual blocks read entry by entry: twice `x + relu(x W₁ᵀ + b₁) W₂ᵀ + b₂` over the second
  normalisation's output, then the angle features added, rectified and scaled.
-/
import proofs.«173249_j46248207843562_1_alg».proof.Proof.Gen.ReferenceIdeal.Read
import proofs.«173249_j46248207843562_1_alg».proof.Proof.Spec
import proofs.«173249_j46248207843562_1_alg».proof.Proof.SegLib
import Idealize.ShloMosaic.Lib.Pipeline.Value
import Idealize.ShloMosaic.Lib.ValueIdx
import Idealize.ShloMosaic.PureOps.Ideal.Laws

noncomputable section

namespace Cert.RMlp

open Cert.ReferenceIdeal Cert.ReferenceIdeal.Read
open Idealize.ShloMosaic Idealize.ShloMosaic.ValueIdx
open scoped BigOperators

/-- The small constant added to a variance, as the program's literal. -/
abbrev epsC : EReal := Ideal.ofBits .f32 0x3727C5AC#32
/-- The final scale `1/√2` rounded to single precision, as the program's literal. -/
abbrev c2C : EReal := Ideal.ofBits .f32 0x3F3504F3#32

section Stages

variable (x0 : (⟨S400000x64, .f32⟩ : BufTy).Contents (Elt Ideal)) (x1 : (⟨S1000000x64, .f32⟩ : BufTy).Contents (Elt Ideal)) (x2 : (⟨S1000000x2, .i32⟩ : BufTy).Contents (Elt Ideal)) (x3 : (⟨S1000000, .i32⟩ : BufTy).Contents (Elt Ideal)) (x4 : (⟨S128x192, .f32⟩ : BufTy).Contents (Elt Ideal)) (x5 : (⟨S1x64, .f32⟩ : BufTy).Contents (Elt Ideal)) (x6 : (⟨S128, .f32⟩ : BufTy).Contents (Elt Ideal)) (x7 : (⟨S128, .f32⟩ : BufTy).Contents (Elt Ideal)) (x8 : (⟨S64, .f32⟩ : BufTy).Contents (Elt Ideal)) (x9 : (⟨S64, .f32⟩ : BufTy).Contents (Elt Ideal)) (x10 : (⟨S32x64, .f32⟩ : BufTy).Contents (Elt Ideal)) (x11 : (⟨S32, .f32⟩ : BufTy).Contents (Elt Ideal)) (x12 : (⟨S64x32, .f32⟩ : BufTy).Contents (Elt Ideal)) (x13 : (⟨S64, .f32⟩ : BufTy).Contents (Elt Ideal)) (x14 : (⟨S32x64, .f32⟩ : BufTy).Contents (Elt Ideal)) (x15 : (⟨S32, .f32⟩ : BufTy).Contents (Elt Ideal)) (x16 : (⟨S64x32, .f32⟩ : BufTy).Contents (Elt Ideal)) (x17 : (⟨S64, .f32⟩ : BufTy).Contents (Elt Ideal))

/-! ### The weights transposed, the biases spread over the rows, the zero of a rectifier -/

private theorem wT1a (k : Fin 64) (j : Fin 32) : val_main_v103 (F := Ideal) x10 (ix2 k j) = x10 (ix2 j k) := by
  rw [val_main_v103_apply]; exact congrArg x10 (funext fun a => Fin.ext (by match a with | ⟨0, _⟩ => rfl | ⟨1, _⟩ => rfl))
private theorem wT1b (j : Fin 32) (c : Fin 64) : val_main_v109 (F := Ideal) x12 (ix2 j c) = x12 (ix2 c j) := by
  rw [val_main_v109_apply]; exact congrArg x12 (funext fun a => Fin.ext (by match a with | ⟨0, _⟩ => rfl | ⟨1, _⟩ => rfl))
private theorem wT2a (k : Fin 64) (j : Fin 32) : val_main_v115 (F := Ideal) x14 (ix2 k j) = x14 (ix2 j k) := by
  rw [val_main_v115_apply]; exact congrArg x14 (funext fun a => Fin.ext (by match a with | ⟨0, _⟩ => rfl | ⟨1, _⟩ => rfl))
private theorem wT2b (j : Fin 32) (c : Fin 64) : val_main_v121 (F := Ideal) x16 (ix2 j c) = x16 (ix2 c j) := by
  rw [val_main_v121_apply]; exact congrArg x16 (funext fun a => Fin.ext (by match a with | ⟨0, _⟩ => rfl | ⟨1, _⟩ => rfl))

private theorem bias1a (r : Fin 1000000) (j : Fin 32) : val_main_v106 (F := Ideal) x11 (ix2 r j) = x11 (ix1 j) := by
  rw [val_main_v106_apply, val_main_v105_apply]; exact congrArg x11 (funext fun a => Fin.ext (by match a with | ⟨0, _⟩ => rfl))
private theorem bias1b (r : Fin 1000000) (c : Fin 64) : val_main_v113 (F := Ideal) x13 (ix2 r c) = x13 (ix1 c) := by
  rw [val_main_v113_apply, val_main_v112_apply]; exact congrArg x13 (funext fun a => Fin.ext (by match a with | ⟨0, _⟩ => rfl))
private theorem bias2a (r : Fin 1000000) (j : Fin 32) : val_main_v118 (F := Ideal) x15 (ix2 r j) = x15 (ix1 j) := by
  rw [val_main_v118_apply, val_main_v117_apply]; exact congrArg x15 (funext fun a => Fin.ext (by match a with | ⟨0, _⟩ => rfl))
private theorem bias2b (r : Fin 1000000) (c : Fin 64) : val_main_v125 (F := Ideal) x17 (ix2 r c) = x17 (ix1 c) := by
  rw [val_main_v125_apply, val_main_v124_apply]; exact congrArg x17 (funext fun a => Fin.ext (by match a with | ⟨0, _⟩ => rfl))

private theorem zero1 (i : S1000000x32.Idx) : (val_main_call1_v0 (F := Ideal) i : EReal) = 0 := by
  rw [val_main_call1_v0_apply, val_main_call1_cst_apply]; exact Ideal.ofBits_zero_f32
private theorem zero2 (i : S1000000x32.Idx) : (val_main_call2_v0 (F := Ideal) i : EReal) = 0 := by
  rw [val_main_call2_v0_apply, val_main_call2_cst_apply]; exact Ideal.ofBits_zero_f32
private theorem zero3 (i : S1000000x64.Idx) : (val_main_call3_v0 (F := Ideal) i : EReal) = 0 := by
  rw [val_main_call3_v0_apply, val_main_call3_cst_apply]; exact Ideal.ofBits_zero_f32
private theorem scale (i : S1000000x64.Idx) : (val_main_v129 (F := Ideal) i : EReal) = c2C := by
  rw [val_main_v129_apply, val_main_cst_20_apply]; rfl

/-! ### Where the products read their operands -/

private theorem l104 (r : Fin 1000000) (j : Fin 32) (k : Fin 64) : lidx_main_v104 (ix2 r j) k = ix2 r k := funext fun a => Fin.ext (by match a with | ⟨0, _⟩ => rfl | ⟨1, _⟩ => rfl)
private theorem r104 (r : Fin 1000000) (j : Fin 32) (k : Fin 64) : ridx_main_v104 (ix2 r j) k = ix2 k j := funext fun a => Fin.ext (by match a with | ⟨0, _⟩ => rfl | ⟨1, _⟩ => rfl)
private theorem l110 (r : Fin 1000000) (c : Fin 64) (j : Fin 32) : lidx_main_v110 (ix2 r c) j = ix2 r j := funext fun a => Fin.ext (by match a with | ⟨0, _⟩ => rfl | ⟨1, _⟩ => rfl)
private theorem r110 (r : Fin 1000000) (c : Fin 64) (j : Fin 32) : ridx_main_v110 (ix2 r c) j = ix2 j c := funext fun a => Fin.ext (by match a with | ⟨0, _⟩ => rfl | ⟨1, _⟩ => rfl)
private theorem l116 (r : Fin 1000000) (j : Fin 32) (k : Fin 64) : lidx_main_v116 (ix2 r j) k = ix2 r k := funext fun a => Fin.ext (by match a with | ⟨0, _⟩ => rfl | ⟨1, _⟩ => rfl)
private theorem r116 (r : Fin 1000000) (j : Fin 32) (k : Fin 64) : ridx_main_v116 (ix2 r j) k = ix2 k j := funext fun a => Fin.ext (by match a with | ⟨0, _⟩ => rfl | ⟨1, _⟩ => rfl)
private theorem l122 (r : Fin 1000000) (c : Fin 64) (j : Fin 32) : lidx_main_v122 (ix2 r c) j = ix2 r j := funext fun a => Fin.ext (by match a with | ⟨0, _⟩ => rfl | ⟨1, _⟩ => rfl)
private theorem r122 (r : Fin 1000000) (c : Fin 64) (j : Fin 32) : ridx_main_v122 (ix2 r c) j = ix2 j c := funext fun a => Fin.ext (by match a with | ⟨0, _⟩ => rfl | ⟨1, _⟩ => rfl)

/-! ### The four stages at a row -/

/-- The first block's hidden layer. -/
private def H1 (r : Fin 1000000) (j : Fin 32) : EReal :=
  max ((∑ k : Fin 64, (val_main_v102 (F := Ideal) x0 x1 x2 x3 x4 x5 x6 x7 x8 x9 (ix2 r k) : EReal) * x10 (ix2 j k)) + x11 (ix1 j)) 0
/-- The first block's output. -/
private def X1 (r : Fin 1000000) (c : Fin 64) : EReal :=
  ((val_main_v102 (F := Ideal) x0 x1 x2 x3 x4 x5 x6 x7 x8 x9 (ix2 r c) : EReal) + ∑ j : Fin 32, H1 x0 x1 x2 x3 x4 x5 x6 x7 x8 x9 x10 x11 r j * x12 (ix2 c j)) + x13 (ix1 c)
/-- The second block's hidden layer. -/
private def H2 (r : Fin 1000000) (j : Fin 32) : EReal :=
  max ((∑ k : Fin 64, X1 x0 x1 x2 x3 x4 x5 x6 x7 x8 x9 x10 x11 x12 x13 r k * x14 (ix2 j k)) + x15 (ix1 j)) 0
/-- The second block's output. -/
private def X2 (r : Fin 1000000) (c : Fin 64) : EReal :=
  (X1 x0 x1 x2 x3 x4 x5 x6 x7 x8 x9 x10 x11 x12 x13 r c + ∑ j : Fin 32, H2 x0 x1 x2 x3 x4 x5 x6 x7 x8 x9 x10 x11 x12 x13 x14 x15 r j * x16 (ix2 c j)) + x17 (ix1 c)

private theorem v108_at (r : Fin 1000000) (j : Fin 32) :
    val_main_v108 (F := Ideal) x0 x1 x2 x3 x4 x5 x6 x7 x8 x9 x10 x11 (ix2 r j) = H1 x0 x1 x2 x3 x4 x5 x6 x7 x8 x9 x10 x11 r j := by
  rw [val_main_v108_apply, val_main_v107_apply, val_main_v104_apply, zero1, bias1a]
  simp only [Ideal.maximumf_def, Ideal.addf_def, l104, r104, wT1a]
  rfl

private theorem v114_at (r : Fin 1000000) (c : Fin 64) :
    val_main_v114 (F := Ideal) x0 x1 x2 x3 x4 x5 x6 x7 x8 x9 x10 x11 x12 x13 (ix2 r c) = X1 x0 x1 x2 x3 x4 x5 x6 x7 x8 x9 x10 x11 x12 x13 r c := by
  rw [val_main_v114_apply, val_main_v111_apply, val_main_v110_apply, bias1b]
  simp only [Ideal.addf_def, l110, r110, wT1b, v108_at]
  rfl

private theorem v120_at (r : Fin 1000000) (j : Fin 32) :
    val_main_v120 (F := Ideal) x0 x1 x2 x3 x4 x5 x6 x7 x8 x9 x10 x11 x12 x13 x14 x15 (ix2 r j) = H2 x0 x1 x2 x3 x4 x5 x6 x7 x8 x9 x10 x11 x12 x13 x14 x15 r j := by
  rw [val_main_v120_apply, val_main_v119_apply, val_main_v116_apply, zero2, bias2a]
  simp only [Ideal.maximumf_def, Ideal.addf_def, l116, r116, wT2a, v114_at]
  rfl

private theorem v126_at (r : Fin 1000000) (c : Fin 64) :
    val_main_v126 (F := Ideal) x0 x1 x2 x3 x4 x5 x6 x7 x8 x9 x10 x11 x12 x13 x14 x15 x16 x17 (ix2 r c) = X2 x0 x1 x2 x3 x4 x5 x6 x7 x8 x9 x10 x11 x12 x13 x14 x15 x16 x17 r c := by
  rw [val_main_v126_apply, val_main_v123_apply, val_main_v122_apply, bias2b]
  simp only [Ideal.addf_def, l122, r122, wT2b, v120_at, v114_at]
  rfl

private theorem v130_at (r : Fin 1000000) (c : Fin 64) :
    val_main_v130 (F := Ideal) x0 x1 x2 x3 x4 x5 x6 x7 x8 x9 x10 x11 x12 x13 x14 x15 x16 x17 (ix2 r c) = c2C * max ((x1 (ix2 r c) : EReal) + X2 x0 x1 x2 x3 x4 x5 x6 x7 x8 x9 x10 x11 x12 x13 x14 x15 x16 x17 r c) 0 := by
  rw [val_main_v130_apply, val_main_v128_apply, val_main_v127_apply, scale, zero3, v126_at]
  simp only [Ideal.mulf_def, Ideal.maximumf_def, Ideal.addf_def]

end Stages

/-- The residual blocks and the final rectified sum over the normalised array. -/
theorem ref_mlp (x0 : (⟨S400000x64, .f32⟩ : BufTy).Contents (Elt Ideal)) (x1 : (⟨S1000000x64, .f32⟩ : BufTy).Contents (Elt Ideal)) (x2 : (⟨S1000000x2, .i32⟩ : BufTy).Contents (Elt Ideal)) (x3 : (⟨S1000000, .i32⟩ : BufTy).Contents (Elt Ideal)) (x4 : (⟨S128x192, .f32⟩ : BufTy).Contents (Elt Ideal)) (x5 : (⟨S1x64, .f32⟩ : BufTy).Contents (Elt Ideal)) (x6 x7 : (⟨S128, .f32⟩ : BufTy).Contents (Elt Ideal)) (x8 x9 : (⟨S64, .f32⟩ : BufTy).Contents (Elt Ideal)) (x10 : (⟨S32x64, .f32⟩ : BufTy).Contents (Elt Ideal)) (x11 : (⟨S32, .f32⟩ : BufTy).Contents (Elt Ideal)) (x12 : (⟨S64x32, .f32⟩ : BufTy).Contents (Elt Ideal)) (x13 : (⟨S64, .f32⟩ : BufTy).Contents (Elt Ideal)) (x14 : (⟨S32x64, .f32⟩ : BufTy).Contents (Elt Ideal)) (x15 : (⟨S32, .f32⟩ : BufTy).Contents (Elt Ideal)) (x16 : (⟨S64x32, .f32⟩ : BufTy).Contents (Elt Ideal)) (x17 : (⟨S64, .f32⟩ : BufTy).Contents (Elt Ideal)) (r : Fin 1000000) (c : Fin 64) :
    val_main_v130 (F := Ideal) x0 x1 x2 x3 x4 x5 x6 x7 x8 x9 x10 x11 x12 x13 x14 x15 x16 x17 (ix2 r c)
      = Cert.Spec.mlp c2C (fun r' c' => val_main_v102 (F := Ideal) x0 x1 x2 x3 x4 x5 x6 x7 x8 x9 (ix2 r' c')) (fun r' c' => x1 (ix2 r' c'))
          (fun k j => x10 (ix2 j k)) (fun j => x11 (ix1 j)) (fun j c' => x12 (ix2 c' j)) (fun c' => x13 (ix1 c'))
          (fun k j => x14 (ix2 j k)) (fun j => x15 (ix1 j)) (fun j c' => x16 (ix2 c' j)) (fun c' => x17 (ix1 c')) r c := by
  rw [v130_at]
  rfl

end Cert.RMlp

end
-- ==== Proof.RAll.lean ====
/-
  The reference program's result as one formula of its arguments: the residual blocks over the second normalisation
  over the gate over the first normalisation over the one-product linear layer, each normalisation in its two-pass form.
-/
import proofs.«173249_j46248207843562_1_alg».proof.Proof.RValA
import proofs.«173249_j46248207843562_1_alg».proof.Proof.RNorm
import proofs.«173249_j46248207843562_1_alg».proof.Proof.RMlp

noncomputable section

namespace Cert.RAll

open Cert.ReferenceIdeal Cert.ReferenceIdeal.Read
open Idealize.ShloMosaic Idealize.ShloMosaic.ValueIdx
open scoped BigOperators

/-- The small constant added to a variance, as the program's literal. -/
abbrev epsC : EReal := Ideal.ofBits .f32 0x3727C5AC#32
/-- The final scale `1/√2` rounded to single precision, as the program's literal. -/
abbrev c2C : EReal := Ideal.ofBits .f32 0x3F3504F3#32

/-- THE REFERENCE PROGRAM'S RESULT, entry by entry. -/
theorem ref_value (x0 : (⟨S400000x64, .f32⟩ : BufTy).Contents (Elt Ideal)) (x1 : (⟨S1000000x64, .f32⟩ : BufTy).Contents (Elt Ideal)) (x2 : (⟨S1000000x2, .i32⟩ : BufTy).Contents (Elt Ideal)) (x3 : (⟨S1000000, .i32⟩ : BufTy).Contents (Elt Ideal)) (x4 : (⟨S128x192, .f32⟩ : BufTy).Contents (Elt Ideal)) (x5 : (⟨S1x64, .f32⟩ : BufTy).Contents (Elt Ideal)) (x6 x7 : (⟨S128, .f32⟩ : BufTy).Contents (Elt Ideal)) (x8 x9 : (⟨S64, .f32⟩ : BufTy).Contents (Elt Ideal)) (x10 : (⟨S32x64, .f32⟩ : BufTy).Contents (Elt Ideal)) (x11 : (⟨S32, .f32⟩ : BufTy).Contents (Elt Ideal)) (x12 : (⟨S64x32, .f32⟩ : BufTy).Contents (Elt Ideal)) (x13 : (⟨S64, .f32⟩ : BufTy).Contents (Elt Ideal)) (x14 : (⟨S32x64, .f32⟩ : BufTy).Contents (Elt Ideal)) (x15 : (⟨S32, .f32⟩ : BufTy).Contents (Elt Ideal)) (x16 : (⟨S64x32, .f32⟩ : BufTy).Contents (Elt Ideal)) (x17 : (⟨S64, .f32⟩ : BufTy).Contents (Elt Ideal)) (r : Fin 1000000) (c : Fin 64) :
    val_main_v130 (F := Ideal) x0 x1 x2 x3 x4 x5 x6 x7 x8 x9 x10 x11 x12 x13 x14 x15 x16 x17 (ix2 r c)
      = Cert.Spec.outR epsC c2C (Cert.SegLib.segZ x3) (Cert.SegLib.gatOf 2048 (by decide) x3)
          (fun r k => x1 (ix2 r k)) (fun r k => val_main_v7 (F := Ideal) x0 x2 (ix2 r k)) (fun j k => x4 (ix2 j k))
          (fun k => x5 (ix2 (0 : Fin 1) k)) (fun j => x6 (ix1 j)) (fun j => x7 (ix1 j)) (fun c' => x8 (ix1 c')) (fun c' => x9 (ix1 c'))
          (fun k j => x10 (ix2 j k)) (fun j => x11 (ix1 j)) (fun j c' => x12 (ix2 c' j)) (fun c' => x13 (ix1 c'))
          (fun k j => x14 (ix2 j k)) (fun j => x15 (ix1 j)) (fun j c' => x16 (ix2 c' j)) (fun c' => x17 (ix1 c')) r c := by
  have hg : (fun r₀ j => val_main_v10 (F := Ideal) x0 x1 x2 x4 (ix2 r₀ j))
      = Cert.Spec.gatedR (fun r k => x1 (ix2 r k)) (fun r k => val_main_v7 (F := Ideal) x0 x2 (ix2 r k)) (fun j k => x4 (ix2 j k)) := by
    funext r₀ j; exact Cert.RValue.ref_gated x0 x1 x2 x3 x4 r₀ j
  have hn1 : (fun r' j => val_main_v52 (F := Ideal) x0 x1 x2 x3 x4 x6 x7 (ix2 r' j))
      = fun r' j => Cert.Spec.normR epsC (Cert.SegLib.segZ x3) (Cert.SegLib.gatOf 2048 (by decide) x3)
          (fun r₀ => Cert.Spec.gatedR (fun r k => x1 (ix2 r k)) (fun r k => val_main_v7 (F := Ideal) x0 x2 (ix2 r k)) (fun j k => x4 (ix2 j k)) r₀ j)
          (x6 (ix1 j)) (x7 (ix1 j)) r' := by
    funext r' j
    rw [Cert.RNorm.ref_norm1 x0 x1 x2 x3 x4 x6 x7 r' j]
    exact congrArg (fun f : Fin 1000000 → Fin 128 → EReal => Cert.Spec.normR epsC (Cert.SegLib.segZ x3) (Cert.SegLib.gatOf 2048 (by decide) x3) (fun r₀ => f r₀ j) (x6 (ix1 j)) (x7 (ix1 j)) r') hg
  have hgt : (fun r' c' => val_main_v60 (F := Ideal) x0 x1 x2 x3 x4 x5 x6 x7 (ix2 r' c'))
      = Cert.Spec.gate (fun r' j => Cert.Spec.normR epsC (Cert.SegLib.segZ x3) (Cert.SegLib.gatOf 2048 (by decide) x3)
          (fun r₀ => Cert.Spec.gatedR (fun r k => x1 (ix2 r k)) (fun r k => val_main_v7 (F := Ideal) x0 x2 (ix2 r k)) (fun j k => x4 (ix2 j k)) r₀ j)
          (x6 (ix1 j)) (x7 (ix1 j)) r') (fun k => x5 (ix2 (0 : Fin 1) k)) := by
    funext r' c'
    rw [Cert.RValue.ref_gate x0 x1 x2 x3 x4 x5 x6 x7 r' c', hn1]
  have hn2 : (fun r' c' => val_main_v102 (F := Ideal) x0 x1 x2 x3 x4 x5 x6 x7 x8 x9 (ix2 r' c'))
      = fun r' c' => Cert.Spec.normR epsC (Cert.SegLib.segZ x3) (Cert.SegLib.gatOf 2048 (by decide) x3)
          (fun r'' => Cert.Spec.gate (fun r₃ j => Cert.Spec.normR epsC (Cert.SegLib.segZ x3) (Cert.SegLib.gatOf 2048 (by decide) x3)
            (fun r₀ => Cert.Spec.gatedR (fun r k => x1 (ix2 r k)) (fun r k => val_main_v7 (F := Ideal) x0 x2 (ix2 r k)) (fun j k => x4 (ix2 j k)) r₀ j)
            (x6 (ix1 j)) (x7 (ix1 j)) r₃) (fun k => x5 (ix2 (0 : Fin 1) k)) r'' c')
          (x8 (ix1 c')) (x9 (ix1 c')) r' := by
    funext r' c'
    rw [Cert.RNorm.ref_norm2 x0 x1 x2 x3 x4 x5 x6 x7 x8 x9 r' c']
    exact congrArg (fun f : Fin 1000000 → Fin 64 → EReal => Cert.Spec.normR epsC (Cert.SegLib.segZ x3) (Cert.SegLib.gatOf 2048 (by decide) x3) (fun r'' => f r'' c') (x8 (ix1 c')) (x9 (ix1 c')) r') hgt
  rw [Cert.RMlp.ref_mlp x0 x1 x2 x3 x4 x5 x6 x7 x8 x9 x10 x11 x12 x13 x14 x15 x16 x17 r c, hn2]
  rfl

end Cert.RAll

end
-- ==== Proof.NormMath.lean ====
/-
  The one-pass and the two-pass normalisation agree on real data, and so do the two forms of the whole network.

  On a segment with `n ≥ 1` rows, `Σ (x − μ)² / n = Σ x² / n − μ²` with `μ = Σ x / n`, and the left side is a sum of
  squares, so the clamp at zero in the one-pass form changes nothing; on an empty segment both sides are `0`. A row
  counted in segment `k` reads the tables at row `k`, so centring at the gathered mean is centring at the segment's
  own mean. With the variances equal, `x · (g r) + (b − μ (g r)) = (x − μ) r g + b` for real numbers. The laws used
  (distributivity, cancelling) need real entries: hence the hypotheses.
-/
import proofs.«173249_j46248207843562_1_alg».proof.Proof.Spec
import Mathlib.Data.EReal.Operations
import Mathlib.Analysis.SpecialFunctions.Trigonometric.DerivHyp
import Mathlib.Algebra.BigOperators.Fin
import Mathlib.Algebra.Order.BigOperators.Group.Finset
import Mathlib.Tactic.Ring
import Mathlib.Tactic.Linarith
import Mathlib.Tactic.Positivity
import Mathlib.Tactic.FieldSimp

noncomputable section

namespace Cert.Spec

open Idealize.ShloMosaic
open scoped BigOperators

variable {R K : ℕ}

/-- An extended real that is a real number. -/
def IsReal (x : EReal) : Prop := ∃ v : ℝ, x = (v : EReal)

/-! ### The coercion from the reals commutes with finite sums and with `max` -/

private theorem coe_fsum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

private theorem coe_max' (a b : ℝ) : ((max a b : ℝ) : EReal) = max (a : EReal) (b : EReal) :=
  EReal.coe_strictMono.monotone.map_max

/-! ### The real numbers are closed under the operations of the network -/

private theorem isReal_coe (a : ℝ) : IsReal (a : EReal) := ⟨a, rfl⟩

private theorem isReal_zero : IsReal (0 : EReal) := ⟨0, rfl⟩

private theorem IsReal.add {x y : EReal} (hx : IsReal x) (hy : IsReal y) : IsReal (x + y) := by
  obtain ⟨a, rfl⟩ := hx; obtain ⟨b, rfl⟩ := hy; exact ⟨a + b, (EReal.coe_add a b).symm⟩

private theorem IsReal.sub {x y : EReal} (hx : IsReal x) (hy : IsReal y) : IsReal (x - y) := by
  obtain ⟨a, rfl⟩ := hx; obtain ⟨b, rfl⟩ := hy; exact ⟨a - b, (EReal.coe_sub a b).symm⟩

private theorem IsReal.mul {x y : EReal} (hx : IsReal x) (hy : IsReal y) : IsReal (x * y) := by
  obtain ⟨a, rfl⟩ := hx; obtain ⟨b, rfl⟩ := hy; exact ⟨a * b, (EReal.coe_mul a b).symm⟩

private theorem IsReal.max {x y : EReal} (hx : IsReal x) (hy : IsReal y) : IsReal (max x y) := by
  obtain ⟨a, rfl⟩ := hx; obtain ⟨b, rfl⟩ := hy; exact ⟨Max.max a b, (coe_max' a b).symm⟩

private theorem IsReal.tanh {x : EReal} (hx : IsReal x) : IsReal (Ideal.tanh x) := by
  obtain ⟨a, rfl⟩ := hx; exact ⟨Real.tanh a, Ideal.tanh_coe a⟩

private theorem isReal_sum {ι : Type} (s : Finset ι) (f : ι → EReal) (h : ∀ i ∈ s, IsReal (f i)) :
    IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-! ### The real mirror of the per-segment quantities -/

/-- The real sum of `f` over the rows counted in segment `k`. -/
private def rsum (seg : Fin R → ℤ) (f : Fin R → ℝ) (k : Fin K) : ℝ :=
  ∑ r : Fin R, if seg r = (k.val : ℤ) then f r else 0

/-- The number of rows of segment `k`, at least one, as a real. -/
private def rcnt (seg : Fin R → ℤ) (k : Fin K) : ℝ := Max.max (rsum seg (fun _ => (1 : ℝ)) k) 1

private def rmean (seg : Fin R → ℤ) (f : Fin R → ℝ) (k : Fin K) : ℝ := rsum seg f k * (1 / rcnt seg k)

/-- The clamped one-pass variance. -/
private def rvarK (seg : Fin R → ℤ) (f : Fin R → ℝ) (k : Fin K) : ℝ :=
  Max.max (rsum seg (fun r => f r * f r) k * (1 / rcnt seg k) - rmean seg f k * rmean seg f k) 0

/-- The two-pass variance. -/
private def rvarR (seg : Fin R → ℤ) (gat : Fin R → Fin K) (f : Fin R → ℝ) (k : Fin K) : ℝ :=
  rsum seg (fun r => (f r - rmean seg f (gat r)) * (f r - rmean seg f (gat r))) k * (1 / rcnt seg k)

private theorem rcnt_pos (seg : Fin R → ℤ) (k : Fin K) : 0 < rcnt seg k :=
  lt_of_lt_of_le one_pos (le_max_right _ _)

private theorem segSum_coe (seg : Fin R → ℤ) (f : Fin R → ℝ) (k : Fin K) :
    segSum seg (fun r => (f r : EReal)) k = ((rsum seg f k : ℝ) : EReal) := by
  unfold segSum rsum
  rw [coe_fsum]
  refine Finset.sum_congr rfl fun r _ => ?_
  split_ifs <;> rfl

private theorem segSum_sq_coe (seg : Fin R → ℤ) (f : Fin R → ℝ) (k : Fin K) :
    segSum seg (fun r => (f r : EReal) * (f r : EReal)) k = ((rsum seg (fun r => f r * f r) k : ℝ) : EReal) := by
  rw [← segSum_coe]
  simp only [EReal.coe_mul]

private theorem cnt_coe (seg : Fin R → ℤ) (k : Fin K) : cnt seg k = ((rcnt seg k : ℝ) : EReal) := by
  unfold cnt rcnt
  rw [coe_max', ← segSum_coe]
  rfl

private theorem mean_coe (seg : Fin R → ℤ) (f : Fin R → ℝ) (k : Fin K) :
    mean seg (fun r => (f r : EReal)) k = ((rmean seg f k : ℝ) : EReal) := by
  unfold mean rmean
  rw [segSum_coe, cnt_coe, Ideal.div_coe (rcnt_pos seg k).ne', EReal.coe_mul]

private theorem rsqrt_coe_pos {v : ℝ} (hv : 0 < v) :
    Ideal.rsqrt (v : EReal) = (((Real.sqrt v)⁻¹ : ℝ) : EReal) := by
  rw [Ideal.rsqrt_coe, if_neg (not_lt.2 hv.le), if_neg hv.ne']

private theorem scaleK_coe (e : ℝ) (he : 0 < e) (seg : Fin R → ℤ) (f : Fin R → ℝ) (g : ℝ) (k : Fin K) :
    scaleK (e : EReal) seg (fun r => (f r : EReal)) (g : EReal) k
      = ((g * (Real.sqrt (rvarK seg f k + e))⁻¹ : ℝ) : EReal) := by
  have hv : 0 < rvarK seg f k + e := add_pos_of_nonneg_of_pos (le_max_right _ _) he
  unfold scaleK
  rw [mean_coe, segSum_sq_coe, cnt_coe, Ideal.div_coe (rcnt_pos seg k).ne',
    show (0 : EReal) = ((0 : ℝ) : EReal) from rfl]
  simp only [← EReal.coe_mul, ← EReal.coe_sub, ← coe_max', ← EReal.coe_add]
  rw [show Max.max (rsum seg (fun r => f r * f r) k * (1 / rcnt seg k) - rmean seg f k * rmean seg f k) 0
      = rvarK seg f k from rfl, rsqrt_coe_pos hv, ← EReal.coe_mul]

private theorem varR_coe (seg : Fin R → ℤ) (gat : Fin R → Fin K) (f : Fin R → ℝ) (k : Fin K) :
    varR seg gat (fun r => (f r : EReal)) k = ((rvarR seg gat f k : ℝ) : EReal) := by
  have h : (fun r => cen seg gat (fun r => (f r : EReal)) r * cen seg gat (fun r => (f r : EReal)) r)
      = fun r => (((f r - rmean seg f (gat r)) * (f r - rmean seg f (gat r)) : ℝ) : EReal) := by
    funext r
    unfold cen
    rw [mean_coe, ← EReal.coe_sub, ← EReal.coe_mul]
  unfold varR rvarR
  rw [h, segSum_coe, cnt_coe, Ideal.div_coe (rcnt_pos seg k).ne', ← EReal.coe_mul]

/-! ### The variance identity, in the reals -/

/-- `Σ (f − m)² = Σ f² − 2 m Σ f + m² n` over one segment. -/
private theorem rsum_centre (seg : Fin R → ℤ) (f : Fin R → ℝ) (m : ℝ) (k : Fin K) :
    rsum seg (fun r => (f r - m) * (f r - m)) k
      = rsum seg (fun r => f r * f r) k - 2 * m * rsum seg f k + m * m * rsum seg (fun _ => (1 : ℝ)) k := by
  unfold rsum
  rw [Finset.mul_sum, Finset.mul_sum, ← Finset.sum_sub_distrib, ← Finset.sum_add_distrib]
  refine Finset.sum_congr rfl fun r _ => ?_
  split_ifs <;> ring

/-- Under the sum over segment `k`, a table read at the row's own segment is read at `k`. -/
private theorem rsum_gat (seg : Fin R → ℤ) (gat : Fin R → Fin K)
    (hgat : ∀ r (k : Fin K), seg r = (k.val : ℤ) → gat r = k) (F : Fin K → Fin R → ℝ) (k : Fin K) :
    rsum seg (fun r => F (gat r) r) k = rsum seg (fun r => F k r) k := by
  unfold rsum
  refine Finset.sum_congr rfl fun r _ => ?_
  split_ifs with h
  · show F (gat r) r = F k r
    rw [hgat r k h]
  · rfl

private theorem rsum_sq_nonneg (seg : Fin R → ℤ) (f : Fin R → ℝ) (k : Fin K) :
    0 ≤ rsum seg (fun r => f r * f r) k := by
  unfold rsum
  refine Finset.sum_nonneg fun r _ => ?_
  split_ifs
  · exact mul_self_nonneg _
  · exact le_rfl

/-- A segment has at least one row, or none. -/
private theorem rsum_one_cases (seg : Fin R → ℤ) (k : Fin K) :
    1 ≤ rsum seg (fun _ => (1 : ℝ)) k ∨ ∀ r, seg r ≠ (k.val : ℤ) := by
  by_cases h : ∃ r, seg r = (k.val : ℤ)
  · left
    obtain ⟨r₀, h₀⟩ := h
    have := Finset.single_le_sum (f := fun r => if seg r = (k.val : ℤ) then (1 : ℝ) else 0) (s := Finset.univ)
      (fun i _ => by split_ifs <;> norm_num) (Finset.mem_univ r₀)
    simp only [if_pos h₀] at this
    exact this
  · right
    exact fun r hr => h ⟨r, hr⟩

private theorem rvar_eq (seg : Fin R → ℤ) (gat : Fin R → Fin K)
    (hgat : ∀ r (k : Fin K), seg r = (k.val : ℤ) → gat r = k) (f : Fin R → ℝ) (k : Fin K) :
    rvarK seg f k = rvarR seg gat f k := by
  have hR : rvarR seg gat f k
      = rsum seg (fun r => (f r - rmean seg f k) * (f r - rmean seg f k)) k * (1 / rcnt seg k) := by
    unfold rvarR
    rw [rsum_gat seg gat hgat (fun k' r => (f r - rmean seg f k') * (f r - rmean seg f k')) k]
  have hnn : 0 ≤ rvarR seg gat f k := by
    rw [hR]
    have hc := rcnt_pos seg k
    exact mul_nonneg (rsum_sq_nonneg seg (fun r => f r - rmean seg f k) k) (by positivity)
  have hid : rsum seg (fun r => f r * f r) k * (1 / rcnt seg k) - rmean seg f k * rmean seg f k
      = rvarR seg gat f k := by
    rw [hR, rsum_centre]
    rcases rsum_one_cases seg k with h | h
    · have hc : rcnt seg k = rsum seg (fun _ => (1 : ℝ)) k := max_eq_left h
      have hn : rsum seg (fun _ => (1 : ℝ)) k ≠ 0 := by linarith
      unfold rmean
      rw [hc]
      field_simp
      ring
    · have z : ∀ g : Fin R → ℝ, rsum seg g k = 0 := fun g => Finset.sum_eq_zero fun r _ => if_neg (h r)
      unfold rmean
      rw [z, z, z]
      ring
  unfold rvarK
  rw [hid]
  exact max_eq_left hnn

/-! ### The laws -/

/-- Splitting the joined features' sum into its two groups: no hypothesis (sums of extended reals regroup freely). -/
theorem gatedK_eq_gatedR (A : Fin R → Fin 64 → EReal) (Nb : Fin R → Fin 128 → EReal) (Wf : Fin 128 → Fin 192 → EReal)
    (r : Fin R) (j : Fin 128) : gatedK A Nb Wf r j = gatedR A Nb Wf r j := by
  unfold gatedK gatedR
  have h := Fin.sum_univ_add (a := 64) (b := 128) (fun k => (Fin.addCases (A r) (Nb r) k : EReal) * Wf j k)
  simp only [Fin.addCases_left, Fin.addCases_right] at h
  exact h.symm

theorem gatedR_isReal (A : Fin R → Fin 64 → EReal) (Nb : Fin R → Fin 128 → EReal) (Wf : Fin 128 → Fin 192 → EReal)
    (hA : ∀ r k, IsReal (A r k)) (hNb : ∀ r k, IsReal (Nb r k)) (hWf : ∀ j k, IsReal (Wf j k))
    (r : Fin R) (j : Fin 128) : IsReal (gatedR A Nb Wf r j) := by
  unfold gatedR
  refine isReal_sum _ _ fun k _ => IsReal.mul ?_ (hWf j k)
  refine Fin.addCases (motive := fun k => IsReal (Fin.addCases (A r) (Nb r) k : EReal)) (fun i => ?_) (fun i => ?_) k
  · rw [Fin.addCases_left]; exact hA r i
  · rw [Fin.addCases_right]; exact hNb r i

/-- THE NORMALISATION LAW. -/
theorem normK_eq_normR (eps : EReal) (heps : ∃ e : ℝ, 0 < e ∧ eps = (e : EReal)) (seg : Fin R → ℤ) (gat : Fin R → Fin K)
    (hgat : ∀ r (k : Fin K), seg r = (k.val : ℤ) → gat r = k)
    (x : Fin R → EReal) (hx : ∀ r, IsReal (x r)) (g b : EReal) (hg : IsReal g) (hb : IsReal b) (r : Fin R) :
    normK eps seg gat x g b r = normR eps seg gat x g b r := by
  obtain ⟨e, he, rfl⟩ := heps
  obtain ⟨gv, rfl⟩ := hg
  obtain ⟨bv, rfl⟩ := hb
  obtain ⟨f, rfl⟩ : ∃ f : Fin R → ℝ, x = fun r => (f r : EReal) :=
    ⟨fun r => (hx r).choose, funext fun r => (hx r).choose_spec⟩
  have hvR : 0 < rvarR seg gat f (gat r) + e := by
    rw [← rvar_eq seg gat hgat]
    exact add_pos_of_nonneg_of_pos (le_max_right _ _) he
  unfold normK normR shiftK cen
  rw [scaleK_coe e he, mean_coe, varR_coe, ← EReal.coe_add, rsqrt_coe_pos hvR, rvar_eq seg gat hgat]
  simp only [← EReal.coe_mul, ← EReal.coe_sub, ← EReal.coe_add]
  congr 1
  ring

theorem normR_isReal (eps : EReal) (heps : ∃ e : ℝ, 0 < e ∧ eps = (e : EReal)) (seg : Fin R → ℤ) (gat : Fin R → Fin K)
    (hgat : ∀ r (k : Fin K), seg r = (k.val : ℤ) → gat r = k)
    (x : Fin R → EReal) (hx : ∀ r, IsReal (x r)) (g b : EReal) (hg : IsReal g) (hb : IsReal b) (r : Fin R) :
    IsReal (normR eps seg gat x g b r) := by
  obtain ⟨e, he, rfl⟩ := heps
  obtain ⟨f, rfl⟩ : ∃ f : Fin R → ℝ, x = fun r => (f r : EReal) :=
    ⟨fun r => (hx r).choose, funext fun r => (hx r).choose_spec⟩
  have hvR : 0 < rvarR seg gat f (gat r) + e := by
    rw [← rvar_eq seg gat hgat]
    exact add_pos_of_nonneg_of_pos (le_max_right _ _) he
  unfold normR cen
  rw [mean_coe, varR_coe, ← EReal.coe_add, rsqrt_coe_pos hvR]
  exact ((((isReal_coe _).sub (isReal_coe _)).mul (isReal_coe _)).mul hg).add hb

theorem gate_isReal (xn : Fin R → Fin 128 → EReal) (wm : Fin 64 → EReal)
    (hxn : ∀ r j, IsReal (xn r j)) (hwm : ∀ k, IsReal (wm k)) (r : Fin R) (c : Fin 64) : IsReal (gate xn wm r c) := by
  unfold gate
  exact (isReal_sum _ _ fun k _ => (hxn r _).mul (hwm k)).tanh.mul ((hxn r _).max isReal_zero)

/-- THE TWO FORMS OF THE NETWORK AGREE on real inputs (the residual blocks' weights may be anything: after the second
    normalisation the two forms apply the same formula to equal arguments). -/
theorem outK_eq_outR (eps c2 : EReal) (heps : ∃ e : ℝ, 0 < e ∧ eps = (e : EReal)) (seg : Fin R → ℤ) (gat : Fin R → Fin K)
    (hgat : ∀ r (k : Fin K), seg r = (k.val : ℤ) → gat r = k)
    (A : Fin R → Fin 64 → EReal) (Nb : Fin R → Fin 128 → EReal) (Wf : Fin 128 → Fin 192 → EReal) (wm : Fin 64 → EReal)
    (g1 b1 : Fin 128 → EReal) (g2 b2 : Fin 64 → EReal)
    (hA : ∀ r k, IsReal (A r k)) (hNb : ∀ r k, IsReal (Nb r k)) (hWf : ∀ j k, IsReal (Wf j k)) (hwm : ∀ k, IsReal (wm k))
    (hg1 : ∀ j, IsReal (g1 j)) (hb1 : ∀ j, IsReal (b1 j)) (hg2 : ∀ c, IsReal (g2 c)) (hb2 : ∀ c, IsReal (b2 c))
    (W1aT : Fin 64 → Fin 32 → EReal) (b1a : Fin 32 → EReal) (W1bT : Fin 32 → Fin 64 → EReal) (b1b : Fin 64 → EReal)
    (W2aT : Fin 64 → Fin 32 → EReal) (b2a : Fin 32 → EReal) (W2bT : Fin 32 → Fin 64 → EReal) (b2b : Fin 64 → EReal) :
    outK eps c2 seg gat A Nb Wf wm g1 b1 g2 b2 W1aT b1a W1bT b1b W2aT b2a W2bT b2b
      = outR eps c2 seg gat A Nb Wf wm g1 b1 g2 b2 W1aT b1a W1bT b1b W2aT b2a W2bT b2b := by
  -- the first normalisation, over the fused linear layer
  have h1 : (fun (r'' : Fin R) (j : Fin 128) =>
        normK eps seg gat (fun r₀ => gatedK A Nb Wf r₀ j) (g1 j) (b1 j) r'')
      = fun r'' j => normR eps seg gat (fun r₀ => gatedR A Nb Wf r₀ j) (g1 j) (b1 j) r'' := by
    funext r'' j
    have hk : (fun r₀ => gatedK A Nb Wf r₀ j) = fun r₀ => gatedR A Nb Wf r₀ j :=
      funext fun r₀ => gatedK_eq_gatedR A Nb Wf r₀ j
    rw [hk]
    exact normK_eq_normR eps heps seg gat hgat _ (fun r₀ => gatedR_isReal A Nb Wf hA hNb hWf r₀ j) _ _
      (hg1 j) (hb1 j) r''
  -- the second normalisation, over the gate's output
  have h2 : (fun (r : Fin R) (c : Fin 64) => normK eps seg gat
        (fun r' => gate (fun r'' j => normK eps seg gat (fun r₀ => gatedK A Nb Wf r₀ j) (g1 j) (b1 j) r'') wm r' c)
        (g2 c) (b2 c) r)
      = fun r c => normR eps seg gat
        (fun r' => gate (fun r'' j => normR eps seg gat (fun r₀ => gatedR A Nb Wf r₀ j) (g1 j) (b1 j) r'') wm r' c)
        (g2 c) (b2 c) r := by
    rw [h1]
    funext r c
    refine normK_eq_normR eps heps seg gat hgat _ (fun r' => gate_isReal _ wm (fun r'' j => ?_) hwm r' c) _ _
      (hg2 c) (hb2 c) r
    exact normR_isReal eps heps seg gat hgat _ (fun r₀ => gatedR_isReal A Nb Wf hA hNb hWf r₀ j) _ _
      (hg1 j) (hb1 j) r''
  unfold outK outR
  rw [h2]

end Cert.Spec

end
-- ==== Proof.FinIn.lean ====
/-
  What the precondition says: every entry of the float arrays the normalisations depend on is a real number.

  The precondition is the conjunction, array by array, of "every entry's absolute value is below +∞"; an extended real
  whose absolute value is below +∞ is neither +∞ nor −∞, so it is (the image of) a real.
-/
import proofs.«173249_j46248207843562_1_alg».proof.Pre_finite_inputs
import Idealize.ShloMosaic.PureOps.Ideal.Laws
import Idealize.ShloMosaic.Lib.ValueIdx
import Idealize.ShloMosaic.Lib.ReduceAll

noncomputable section

namespace Cert.FinIn

open Cert.Pre_finite_inputs
open Idealize.ShloMosaic Idealize.ShloMosaic.ValueIdx

/-- The scalar shape has exactly one index. -/
instance : Subsingleton S_.Idx := ⟨fun a b => funext fun d => d.elim0⟩

/-- The word with all exponent bits set and a zero fraction is +∞. -/
theorem inf_word : Ideal.ofBits .f32 0x7F800000#32 = (⊤ : EReal) := by
  simp [Ideal.ofBits, Ideal.ieee]

/-- An extended real whose absolute value max(x, −x) is below +∞ is a real: +∞ and −∞ both have absolute value +∞. -/
theorem real_of_abs_lt_top (x : EReal) (h : max x (-x) < ⊤) : ∃ v : ℝ, x = (v : EReal) := by
  induction x using EReal.rec with
  | bot => simp at h
  | coe v => exact ⟨v, rfl⟩
  | top => simp at h

/-- One array: if the conjunction over all entries of "|a i| < +∞" is true, every entry of a is a real. -/
theorem reals_of_all {s : Shape} {axes : List (Fin s.rank)} (a : FVec Ideal s .f32)
    (hb : S_.BroadcastsInDim s (![] : Fin 0 → Fin s.rank)) (hr : s.ReducesTo axes S_) (hu : 0 < S_.numel)
    (h : Host.reduce IntOp.andi (cmpf .olt (Host.absf a) (broadcastInDim s ![] hb (constant S_ .f32 0x7F800000#32)))
      (constantI S_ 1 1#1) hr hu ix0 = 1#1) :
    ∀ i, ∃ v : ℝ, a i = (v : EReal) := by
  intro i
  have hi := Host.reduce_andi_all _ _ hr hu ix0 h i
  apply real_of_abs_lt_top
  have e : cmpf .olt (Host.absf a) (broadcastInDim s ![] hb (constant S_ .f32 0x7F800000#32)) i
      = Ideal.cmp .olt (max (a i) (-(a i))) (Ideal.ofBits .f32 0x7F800000#32) := rfl
  rw [e, inf_word] at hi
  by_contra hn
  simp [Ideal.cmp, hn] at hi

/-- From the precondition to real entries, for the eight arrays the proof needs real: the edge table, the angle
    features, the fused weights, the mask weights and the two pairs of normalisation parameters. -/
theorem reals_of_pre [Cert.Pre_finite_inputs.Facts]
    (a0 : FVec Ideal S400000x64 .f32) (a1 : FVec Ideal S1000000x64 .f32) (a2 : IVec S1000000x2 32) (a3 : IVec S1000000 32)
    (a4 : FVec Ideal S128x192 .f32) (a5 : FVec Ideal S1x64 .f32) (a6 : FVec Ideal S128 .f32) (a7 : FVec Ideal S128 .f32)
    (a8 : FVec Ideal S64 .f32) (a9 : FVec Ideal S64 .f32) (a10 : FVec Ideal S32x64 .f32) (a11 : FVec Ideal S32 .f32)
    (a12 : FVec Ideal S64x32 .f32) (a13 : FVec Ideal S64 .f32) (a14 : FVec Ideal S32x64 .f32) (a15 : FVec Ideal S32 .f32)
    (a16 : FVec Ideal S64x32 .f32) (a17 : FVec Ideal S64 .f32)
    (h : fn (F := Ideal) a0 a1 a2 a3 a4 a5 a6 a7 a8 a9 a10 a11 a12 a13 a14 a15 a16 a17 = (fun _ => 1#1)) :
    (∀ i, ∃ v : ℝ, a0 i = (v : EReal)) ∧ (∀ i, ∃ v : ℝ, a1 i = (v : EReal)) ∧ (∀ i, ∃ v : ℝ, a4 i = (v : EReal))
      ∧ (∀ i, ∃ v : ℝ, a5 i = (v : EReal)) ∧ (∀ i, ∃ v : ℝ, a6 i = (v : EReal)) ∧ (∀ i, ∃ v : ℝ, a7 i = (v : EReal))
      ∧ (∀ i, ∃ v : ℝ, a8 i = (v : EReal)) ∧ (∀ i, ∃ v : ℝ, a9 i = (v : EReal)) := by
  -- The precondition at the single index of the scalar result is a left-nested conjunction of sixteen array facts;
  -- peel it from the right, keeping the eight the statement names.
  have h0 := congrFun h ix0
  unfold fn fn_part1 fn_part2 fn_part3 fn_part4 at h0
  dsimp only at h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, h9⟩ := IntOp.andi_eq_one.1 h0
  obtain ⟨h0, h8⟩ := IntOp.andi_eq_one.1 h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h1⟩ := IntOp.andi_eq_one.1 h0
  exact ⟨reals_of_all a0 _ _ _ h0, reals_of_all a1 _ _ _ h1, reals_of_all a4 _ _ _ h4, reals_of_all a5 _ _ _ h5,
    reals_of_all a6 _ _ _ h6, reals_of_all a7 _ _ _ h7, reals_of_all a8 _ _ _ h8, reals_of_all a9 _ _ _ h9⟩

/-- The small constant added to a variance is a positive real. -/
theorem eps_pos : ∃ e : ℝ, 0 < e ∧ Ideal.ofBits .f32 0x3727C5AC#32 = (e : EReal) := by
  -- sign 0, exponent field 110, fraction 2606508: the normal value (2^23 + 2606508) · 2^(110 − 127 − 23).
  refine ⟨((2^23 + 2606508 : ℕ) : ℝ) * 2 ^ ((110 : ℤ) - 127 - 23), by positivity, ?_⟩
  simp [Ideal.ofBits, Ideal.ieee]

end Cert.FinIn

end
-- ==== Proof.lean ====
/-
  The certificate: the three programs run to the end leaving their arguments alone, and the idealized kernel and the
  idealized reference compute the same array.

  The frames are the generated ones; the reference's is its generated run with the result dropped. The rewrites of the
  ideal pass are none, so the kernel and its idealization are related trivially. For the equivalence: the kernel
  program's result is the one-pass form of the network at its arguments (its three kernels' blocks tile their arrays;
  the host operations in between are read entry by entry), the reference program's result is the two-pass form at the
  same arguments, and the two forms agree because the precondition makes every array the normalisations depend on an
  array of real numbers: on real data the variance of a crystal's rows is the mean of squares minus the squared mean,
  which is never negative, and `x·s + (b − μ·s) = (x − μ)·ρ·g + b` with `s = g·ρ`.
-/
import proofs.«173249_j46248207843562_1_alg».proof.Defs
import proofs.«173249_j46248207843562_1_alg».proof.Proof.Gen.Kernel
import proofs.«173249_j46248207843562_1_alg».proof.Proof.Gen.Kernel.Skeleton
import proofs.«173249_j46248207843562_1_alg».proof.Proof.Gen.Kernel.Launch
import proofs.«173249_j46248207843562_1_alg».proof.Proof.Gen.Kernel.Points
import proofs.«173249_j46248207843562_1_alg».proof.Proof.Gen.Kernel.Frame
import proofs.«173249_j46248207843562_1_alg».proof.Proof.Gen.KernelIdeal
import proofs.«173249_j46248207843562_1_alg».proof.Proof.Gen.KernelIdeal.Skeleton
import proofs.«173249_j46248207843562_1_alg».proof.Proof.Gen.KernelIdeal.Launch
import proofs.«173249_j46248207843562_1_alg».proof.Proof.Gen.KernelIdeal.Points
import proofs.«173249_j46248207843562_1_alg».proof.Proof.Gen.KernelIdeal.Frame
import proofs.«173249_j46248207843562_1_alg».proof.Proof.Gen.ReferenceIdeal
import proofs.«173249_j46248207843562_1_alg».proof.Proof.Gen.ReferenceIdeal.Run
import proofs.«173249_j46248207843562_1_alg».proof.Proof.Gen.ReferenceIdeal.Read
import proofs.«173249_j46248207843562_1_alg».proof.Proof.Gen.Pre_finite_inputs
import proofs.«173249_j46248207843562_1_alg».proof.Proof.KChain
import proofs.«173249_j46248207843562_1_alg».proof.Proof.RAll
import proofs.«173249_j46248207843562_1_alg».proof.Proof.NormMath
import proofs.«173249_j46248207843562_1_alg».proof.Proof.FinIn
import Idealize.ShloMosaic.Adequacy
import Idealize.ShloMosaic.Init

noncomputable section

namespace Cert.Proof

open Idealize.ShloMosaic Idealize.ShloMosaic.ValueIdx Idealize.SL.Sem
open Cert.Arr

/-- The neighbour features are one and the same term in the two programs: the same gather over the same index chain. -/
theorem nbr_same (x0 : (⟨Cert.KernelIdeal.S400000x64, .f32⟩ : BufTy).Contents (Elt Ideal))
    (x2 : (⟨Cert.KernelIdeal.S1000000x2, .i32⟩ : BufTy).Contents (Elt Ideal)) :
    Cert.KHost0.nbrK x0 x2 = Cert.ReferenceIdeal.Read.val_main_v7 (F := Ideal) x0 x2 := by
  unfold Cert.KHost0.nbrK Cert.ReferenceIdeal.Read.val_main_v7 Cert.ReferenceIdeal.Read.val_main_v6
    Cert.ReferenceIdeal.Read.val_main_v5 Cert.ReferenceIdeal.Read.val_main_v4 Cert.ReferenceIdeal.Read.val_main_v3
    Cert.ReferenceIdeal.Read.val_main_v2 Cert.ReferenceIdeal.Read.val_main_v1 Cert.ReferenceIdeal.Read.val_main_v0
    Cert.ReferenceIdeal.Read.val_main_c Cert.ReferenceIdeal.Read.val_main_c_0
  rfl

/-- The two results, entry by entry: the reference's value at the kernel program's arguments is the kernel
    program's result. -/
theorem results_agree
    (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) = (fun _ => 1#1))
    (r : Fin 1000000) (k : Fin 64) :
    Cert.ReferenceIdeal.Read.val_main_v130 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (ix2 r k)
      = at2 (Cert.KernelIdeal.Gen.W6 m ρ c (Proc.devRef .tc Cert.KernelIdeal.main_v111)) r k := by
  obtain ⟨f0, f1, f4, f5, f6, f7, f8, f9⟩ := Cert.FinIn.reals_of_pre (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) hpre
  have hgat : ∀ (r : Fin 1000000) (k : Fin 2048), Cert.SegLib.segZ (Cert.KChain.segW m c) r = (k.val : ℤ)
      → Cert.SegLib.gatOf 2048 (by decide) (Cert.KChain.segW m c) r = k :=
    fun r k h => Cert.SegLib.gatOf_of_segZ (by decide) (by decide) (Cert.KChain.segW m c) r k h
  have hNbf : Cert.KChain.Nb m c
      = fun r k => Cert.ReferenceIdeal.Read.val_main_v7 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (ix2 r k) := by
    funext r k; exact congrFun (nbr_same _ _) (ix2 r k)
  have hNb : ∀ r k, Cert.Spec.IsReal (Cert.KChain.Nb m c r k) := fun r k => by
    obtain ⟨e, he⟩ := Cert.KHost0.nbrK_mem (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (ix2 r k)
    show Cert.Spec.IsReal (Cert.KHost0.nbrK (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (ix2 r k))
    rw [he]; exact f0 e
  have hb := Cert.Spec.outK_eq_outR Cert.KChain.epsC Cert.KChain.c2C Cert.FinIn.eps_pos
    (Cert.SegLib.segZ (Cert.KChain.segW m c)) (Cert.SegLib.gatOf 2048 (by decide) (Cert.KChain.segW m c)) hgat
    (Cert.KChain.A m c) (Cert.KChain.Nb m c) (Cert.KChain.Wf m c) (Cert.KChain.wm m c)
    (Cert.KChain.g1 m c) (Cert.KChain.b1 m c) (Cert.KChain.g2 m c) (Cert.KChain.b2 m c)
    (fun r k => f1 (ix2 r k)) hNb (fun j k => f4 (ix2 j k)) (fun k => f5 (ix2 (0 : Fin 1) k))
    (fun j => f6 (ix1 j)) (fun j => f7 (ix1 j)) (fun j => f8 (ix1 j)) (fun j => f9 (ix1 j))
    (Cert.KChain.W1aT m c) (Cert.KChain.b1a m c) (Cert.KChain.W1bT m c) (Cert.KChain.b1b m c)
    (Cert.KChain.W2aT m c) (Cert.KChain.b2a m c) (Cert.KChain.W2bT m c) (Cert.KChain.b2b m c)
  have key := (Cert.KChain.kernel_value m ρ c r k).trans (congrFun (congrFun hb r) k)
  rw [hNbf] at key
  rw [Cert.RAll.ref_value]
  exact key.symm

/-- THE EQUIVALENCE: from memories agreeing on the arguments both idealized programs run to the end with the same
    result array and their arguments unchanged. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.W6 m ρ c (Proc.devRef .tc Cert.KernelIdeal.main_v111),
    Cert.KernelIdeal.Gen.run_named (F := Ideal) m ρ, ?_⟩
  refine (θ_run Cert.ReferenceIdeal.defs _ _).mono (fun r h c => ⟨?_, (h c).2⟩)
    (Cert.ReferenceIdeal.Value.run (F := Ideal) m' ρ')
  obtain ⟨a0, a1, a2, a3, a4, a5, a6, a7, a8, a9, a10, a11, a12, a13, a14, a15, a16, a17⟩ := hagree c
  rw [(h c).1, Cert.ReferenceIdeal.Read.val_main_v130_eq, a0, a1, a2, a3, a4, a5, a6, a7, a8, a9, a10, a11, a12, a13, a14, a15, a16, a17]
  funext i
  obtain ⟨r₀, k₀, rfl⟩ : ∃ (r₀ : Fin 1000000) (k₀ : Fin 64), i = ix2 r₀ k₀ := ⟨i 0, i 1, eq_ix2 i⟩
  exact results_agree m ρ c (hpre c) r₀ k₀

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
